-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x1024 : Shape := ⟨3, ![32, 1, 1024]⟩
abbrev S32x2048x2048 : Shape := ⟨3, ![32, 2048, 2048]⟩
abbrev S32 : Shape := ⟨1, ![32]⟩
abbrev S1024x2048 : Shape := ⟨2, ![1024, 2048]⟩
abbrev S1024x1024 : Shape := ⟨2, ![1024, 1024]⟩
abbrev S1x1024 : Shape := ⟨2, ![1, 1024]⟩
abbrev S_ : Shape := ⟨0, ![]⟩

class Facts : Prop where
  bcast_S_S32x1x1024 : S_.BroadcastsInDim S32x1x1024 (![] : Fin 0 → Fin S32x1x1024.rank)
  reducesTo_S32x1x1024_S_d0_1_2 : S32x1x1024.ReducesTo [0, 1, 2] S_
  h_S_ : 0 < S_.numel
  bcast_S_S32x2048x2048 : S_.BroadcastsInDim S32x2048x2048 (![] : Fin 0 → Fin S32x2048x2048.rank)
  reducesTo_S32x2048x2048_S_d0_1_2 : S32x2048x2048.ReducesTo [0, 1, 2] S_
  bcast_S_S1024x2048 : S_.BroadcastsInDim S1024x2048 (![] : Fin 0 → Fin S1024x2048.rank)
  reducesTo_S1024x2048_S_d0_1 : S1024x2048.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg5 : FVec F S1x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1x1024 .f32 := Host.absf main_arg5
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  main_v23

def fn {F : FTy → Type} [FloatOps F] (main_arg0 : FVec F S32x1x1024 .f32) (main_arg1 : FVec F S32x2048x2048 .f32) (main_arg2 : IVec S32 32) (main_arg3 : FVec F S1024x2048 .f32) (main_arg4 : FVec F S1024x1024 .f32) (main_arg5 : FVec F S1x1024 .f32) : IVec S_ 1 :=
  let main_v0 : FVec F S32x1x1024 .f32 := Host.absf main_arg0
  let main_cst : FVec F S_ .f32 := constant S_ .f32 0x7F800000#32
  let main_v1 : FVec F S32x1x1024 .f32 := broadcastInDim S32x1x1024 ![] bcast_S_S32x1x1024 main_cst
  let main_v2 : IVec S32x1x1024 1 := cmpf .olt main_v0 main_v1
  let main_c : IVec S_ 1 := constantI S_ 1 1#1
  let main_v3 : IVec S_ 1 := (fun x v => Host.reduce IntOp.andi x v reducesTo_S32x1x1024_S_d0_1_2 h_S_) main_v2 main_c
  let main_v4 : FVec F S32x2048x2048 .f32 := Host.absf main_arg1
  let main_cst_0 : FVec F S_ .f32 := constant S_ .f32 0x7F800000#32
  let main_v5 : FVec F S32x2048x2048 .f32 := broadcastInDim S32x2048x2048 ![] bcast_S_S32x2048x2048 main_cst_0
  let main_v6 : IVec S32x2048x2048 1 := cmpf .olt main_v4 main_v5
  let main_c_1 : IVec S_ 1 := constantI S_ 1 1#1
  let main_v7 : IVec S_ 1 := (fun x v => Host.reduce IntOp.andi x v reducesTo_S32x2048x2048_S_d0_1_2 h_S_) main_v6 main_c_1
  let main_v8 : IVec S_ 1 := andi main_v3 main_v7
  let main_v9 : FVec F S1024x2048 .f32 := Host.absf main_arg3
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S1024x1024 .f32 := Host.absf main_arg4
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg5 main_v13 main_v16
-- ==== Kernel.lean ====
abbrev S32x1x1024 : Shape := ⟨3, ![32, 1, 1024]⟩
abbrev S32x2048x2048 : Shape := ⟨3, ![32, 2048, 2048]⟩
abbrev S32 : Shape := ⟨1, ![32]⟩
abbrev S1024x2048 : Shape := ⟨2, ![1024, 2048]⟩
abbrev S1024x1024 : Shape := ⟨2, ![1024, 1024]⟩
abbrev S1x1024 : Shape := ⟨2, ![1, 1024]⟩
abbrev S2048x1024 : Shape := ⟨2, ![2048, 1024]⟩
abbrev S1024x1 : Shape := ⟨2, ![1024, 1]⟩
abbrev S32x1x2048 : Shape := ⟨3, ![32, 1, 2048]⟩
abbrev S1x512x2048 : Shape := ⟨3, ![1, 512, 2048]⟩
abbrev S1x1x1024 : Shape := ⟨3, ![1, 1, 1024]⟩
abbrev S1x1x512 : Shape := ⟨3, ![1, 1, 512]⟩
abbrev S512x2048 : Shape := ⟨2, ![512, 2048]⟩
abbrev S512x1024 : Shape := ⟨2, ![512, 1024]⟩
abbrev S512x1 : Shape := ⟨2, ![512, 1]⟩
abbrev S512 : Shape := ⟨1, ![512]⟩
abbrev S1x512 : Shape := ⟨2, ![1, 512]⟩
abbrev S1 : Shape := ⟨1, ![1]⟩
abbrev S_ : Shape := ⟨0, ![]⟩
abbrev S32x1 : Shape := ⟨2, ![32, 1]⟩
abbrev S32x1x1 : Shape := ⟨3, ![32, 1, 1]⟩
abbrev S1x1x2048 : Shape := ⟨3, ![1, 1, 2048]⟩
abbrev S1x2048 : Shape := ⟨2, ![1, 2048]⟩

abbrev nBuf : Space → Nat
  | .hbm => 27
  | .vmem => 16
  | .smem => 1
  | _ => 0

abbrev bufTy : (tb : Table) → Fin (tcTables nBuf tb) → BufTy
  | .hbm, ⟨0, _⟩ => ⟨S32x1x1024, .f32⟩
  | .hbm, ⟨1, _⟩ => ⟨S32x2048x2048, .f32⟩
  | .hbm, ⟨2, _⟩ => ⟨S1024x2048, .f32⟩
  | .hbm, ⟨3, _⟩ => ⟨S1024x1024, .f32⟩
  | .hbm, ⟨4, _⟩ => ⟨S1x1024, .f32⟩
  | .hbm, ⟨5, _⟩ => ⟨S2048x1024, .f32⟩
  | .hbm, ⟨6, _⟩ => ⟨S2048x1024, .bf16⟩
  | .hbm, ⟨7, _⟩ => ⟨S1024x1024, .f32⟩
  | .hbm, ⟨8, _⟩ => ⟨S1024x1024, .bf16⟩
  | .hbm, ⟨9, _⟩ => ⟨S1024x1, .f32⟩
  | .hbm, ⟨10, _⟩ => ⟨S1024x1, .bf16⟩
  | .hbm, ⟨11, _⟩ => ⟨S32x1x2048, .f32⟩
  | .hbm, ⟨12, _⟩ => ⟨S_, .f32⟩
  | .hbm, ⟨13, _⟩ => ⟨S32x1, .f32⟩
  | .hbm, ⟨14, _⟩ => ⟨S_, .f32⟩
  | .hbm, ⟨15, _⟩ => ⟨S32x1, .f32⟩
  | .hbm, ⟨16, _⟩ => ⟨S32x1, .f32⟩
  | .hbm, ⟨17, _⟩ => ⟨S32x1x1, .f32⟩
  | .hbm, ⟨18, _⟩ => ⟨S32x1x2048, .f32⟩
  | .hbm, ⟨19, _⟩ => ⟨S32x1x2048, .f32⟩
  | .hbm, ⟨20, _⟩ => ⟨S32x1x2048, .f32⟩
  | .hbm, ⟨21, _⟩ => ⟨S_, .f32⟩
  | .hbm, ⟨22, _⟩ => ⟨S32x1, .f32⟩
  | .hbm, ⟨23, _⟩ => ⟨S32x1x1, .f32⟩
  | .hbm, ⟨24, _⟩ => ⟨S32x1x2048, .f32⟩
  | .hbm, ⟨25, _⟩ => ⟨S32x1x2048, .f32⟩
  | .hbm, ⟨26, _⟩ => ⟨S32x1x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x1x1024, .f32⟩
  | .local _ .vmem, ⟨3, _⟩ => ⟨S1x1x1024, .f32⟩
  | .local _ .vmem, ⟨4, _⟩ => ⟨S2048x1024, .bf16⟩
  | .local _ .vmem, ⟨5, _⟩ => ⟨S1024x1024, .bf16⟩
  | .local _ .vmem, ⟨6, _⟩ => ⟨S1024x1, .bf16⟩
  | .local _ .vmem, ⟨7, _⟩ => ⟨S1x1x512, .f32⟩
  | .local _ .vmem, ⟨8, _⟩ => ⟨S1x1x512, .f32⟩
  | .local _ .vmem, ⟨9, _⟩ => ⟨S1x1x512, .f32⟩
  | .local _ .vmem, ⟨10, _⟩ => ⟨S1x1x512, .f32⟩
  | .local _ .vmem, ⟨11, _⟩ => ⟨S1x512x2048, .f32⟩
  | .local _ .vmem, ⟨12, _⟩ => ⟨S1x512x2048, .f32⟩
  | .local _ .vmem, ⟨13, _⟩ => ⟨S1x1x2048, .f32⟩
  | .local _ .vmem, ⟨14, _⟩ => ⟨S1x1x2048, .f32⟩
  | .local _ .vmem, ⟨15, _⟩ => ⟨S1x2048, .f32⟩
  | .local _ .smem, ⟨0, _⟩ => ⟨S32, .i32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14

abbrev nD : Nat := 1
abbrev τ : Topo := Topo.v7x

variable {F : FTy → Type} [FloatOps F]

abbrev grid0 : Pipeline.Grid := ⟨2, ![32, 4], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v25 : Index := Scalar.indexCast arg0
  ![v25.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![32, 4], ![false, false]⟩

def k1_cond2 (i : grid1.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_10 : BitVec 32 := 0#32
  let v17 : BitVec 1 := Scalar.cmpi .ne v16 c0_i32_10
  v17

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  transposes_S1024x2048_S2048x1024_1_0 : S1024x2048.Transposes [1, 0] S2048x1024
  bitsLt_bf16_f32 : FTy.bits .bf16 < FTy.bits .f32
  transposes_S1024x1024_S1024x1024_1_0 : S1024x1024.Transposes [1, 0] S1024x1024
  transposes_S1x1024_S1024x1_1_0 : S1x1024.Transposes [1, 0] S1024x1
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  broadcasts_S1x1024_S512x1024 : S1x1024.Broadcasts S512x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S512x1_S512 : S512x1.ShapeCasts S512
  iota_S1x512_d1_w32 : S1x512.Iotas .tc 32 [1]
  shapeCasts_S1x512_S512 : S1x512.ShapeCasts S512
  numel1_S1 : S1.numel = 1
  inb_S1x1x512_S1x1x512_0_0_0 : ∀ a, (![0, 0, 0] : Fin 3 → Nat) a + S1x1x512.size a ≤ S1x1x512.size a
  h_S1x1x512 : 0 < S1x1x512.numel
  shapeCasts_S1x1x512_S512 : S1x1x512.ShapeCasts S512
  shapeCasts_S512_S1x1x512 : S512.ShapeCasts S1x1x512
  reducesTo_S32x1x2048_S32x1_d2 : S32x1x2048.ReducesTo [2] S32x1
  h_S_ : 0 < S_.numel
  bcast_S_S32x1 : S_.BroadcastsInDim S32x1 (![] : Fin 0 → Fin S32x1.rank)
  bcast_S32x1_S32x1x1_0_1 : S32x1.BroadcastsInDim S32x1x1 (![0, 1] : Fin 2 → Fin S32x1x1.rank)
  bcast_S32x1x1_S32x1x2048_0_1_2 : S32x1x1.BroadcastsInDim S32x1x2048 (![0, 1, 2] : Fin 3 → Fin S32x1x2048.rank)
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  shapeCasts_S1x1x512_S1x512 : S1x1x512.ShapeCasts S1x512
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  shapeCasts_S1x2048_S1x1x2048 : S1x2048.ShapeCasts S1x1x2048
  dot_S512x2048_S2048x1024_S512x1024_1_0_0_1_n_n_wf : DotDims.WF S512x2048 S2048x1024 S512x1024 [1] [0] [0] [1] [] []
  dot_S1x1024_S1024x1024_S1x1024_1_0_0_1_n_n_wf : DotDims.WF S1x1024 S1024x1024 S1x1024 [1] [0] [0] [1] [] []
  dot_S512x1024_S1024x1_S512x1_1_0_0_1_n_n_wf : DotDims.WF S512x1024 S1024x1 S512x1 [1] [0] [0] [1] [] []
  dot_S1x512_S512x2048_S1x2048_1_0_0_1_n_n_wf : DotDims.WF S1x512 S512x2048 S1x2048 [1] [0] [0] [1] [] []
  hrank0 : 0 < grid0.rank
  k0_off1_inb : ∀ i : grid0.Coords, ∀ a, (k0_off1 i) a + S1.size a ≤ S32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S32x2048x2048.size a
  hwx0_0 : ∀ i : grid0.Coords, EltTy.bits .f32 = 32 ∨ (Rect.block (s := S32x2048x2048) S1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024.size a ≤ S32x1x1024.size a
  hwx0_1 : ∀ i : grid0.Coords, EltTy.bits .f32 = 32 ∨ (Rect.block (s := S32x1x1024) S1x1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S2048x1024.size a
  hwx0_2 : ∀ i : grid0.Coords, EltTy.bits .bf16 = 32 ∨ (Rect.block (s := S2048x1024) S2048x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S1024x1.size a
  hwx0_4 : ∀ i : grid0.Coords, EltTy.bits .bf16 = 32 ∨ (Rect.block (s := S1024x1) S1024x1.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512.size a ≤ S32x1x2048.size a
  hwx0_5 : ∀ i : grid0.Coords, EltTy.bits .f32 = 32 ∨ (Rect.block (s := S32x1x2048) S1x1x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x512.size a ≤ S32x1x2048.size a
  hwx1_0 : ∀ i : grid1.Coords, EltTy.bits .f32 = 32 ∨ (Rect.block (s := S32x1x2048) S1x1x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x2048.size a ≤ S32x2048x2048.size a
  hwx1_1 : ∀ i : grid1.Coords, EltTy.bits .f32 = 32 ∨ (Rect.block (s := S32x2048x2048) S1x512x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x2048.size a ≤ S32x1x2048.size a
  hwx1_2 : ∀ i : grid1.Coords, EltTy.bits .f32 = 32 ∨ (Rect.block (s := S32x1x2048) S1x1x2048.size (cc1_transform_2 i) (hinb1_2 i)).WholeWords (EltTy.packing .f32)

variable [Facts₀]

def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf
def dot_S1x1024_S1024x1024_S1x1024_1_0_0_1_n_n : DotDims S1x1024 S1024x1024 S1x1024 where
  lhsContracting := [1]
  rhsContracting := [0]
  lhsNonContracting := [0]
  rhsNonContracting := [1]
  lhsBatch := []
  rhsBatch := []
  wf := dot_S1x1024_S1024x1024_S1x1024_1_0_0_1_n_n_wf
def dot_S512x1024_S1024x1_S512x1_1_0_0_1_n_n : DotDims S512x1024 S1024x1 S512x1 where
  lhsContracting := [1]
  rhsContracting := [0]
  lhsNonContracting := [0]
  rhsNonContracting := [1]
  lhsBatch := []
  rhsBatch := []
  wf := dot_S512x1024_S1024x1_S512x1_1_0_0_1_n_n_wf
def dot_S1x512_S512x2048_S1x2048_1_0_0_1_n_n : DotDims S1x512 S512x2048 S1x2048 where
  lhsContracting := [1]
  rhsContracting := [0]
  lhsNonContracting := [0]
  rhsNonContracting := [1]
  lhsBatch := []
  rhsBatch := []
  wf := dot_S1x512_S512x2048_S1x2048_1_0_0_1_n_n_wf

abbrev spec0_0 : Pipeline.WinSpec sig grid0.rank :=
  Pipeline.WinSpec.ofSpec (Memref.whole main_arg1) S1x512x2048.size reads0_0 false false 2 stage0_0 sem0_0 nbuf0_0 hstage0_0

abbrev spec0_1 : Pipeline.WinSpec sig grid0.rank :=
  Pipeline.WinSpec.ofSpec (Memref.whole main_arg0) S1x1x1024.size reads0_1 false false 2 stage0_1 sem0_1 nbuf0_1 hstage0_1

abbrev spec0_2 : Pipeline.WinSpec sig grid0.rank :=
  Pipeline.WinSpec.ofSpec (Memref.whole main_v1) S2048x1024.size reads0_2 false true 1 stage0_2 sem0_2 nbuf0_2 hstage0_2

abbrev spec0_3 : Pipeline.WinSpec sig grid0.rank :=
  Pipeline.WinSpec.ofSpec (Memref.whole main_v3) S1024x1024.size reads0_3 false true 1 stage0_3 sem0_3 nbuf0_3 hstage0_3

abbrev spec0_4 : Pipeline.WinSpec sig grid0.rank :=
  Pipeline.WinSpec.ofSpec (Memref.whole main_v5) S1024x1.size reads0_4 false true 1 stage0_4 sem0_4 nbuf0_4 hstage0_4

abbrev spec0_5 : Pipeline.WinSpec sig grid0.rank :=
  Pipeline.WinSpec.ofSpec (Memref.whole main_v6) S1x1x512.size reads0_5 true false 2 stage0_5 sem0_5 nbuf0_5 hstage0_5

abbrev spec0 : Fin 6 → Pipeline.WinSpec sig grid0.rank := fun | 0 => spec0_0 | 1 => spec0_1 | 2 => spec0_2 | 3 => spec0_3 | 4 => spec0_4 | 5 => spec0_5 | ⟨_ + 6, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | ⟨_ + 6, h⟩ => absurd h (Nat.not_lt.2 (Nat.le_add_left _ _))
abbrev ix0 (pf : pre0.Contents (Elt F)) : (w : Fin 6) → grid0.Coords → Fin (spec0 w).shape.rank → Nat := fun | 0 => cc0_transform_0 | 1 => cc0_transform_1 | 2 => cc0_transform_2 | 3 => cc0_transform_3 | 4 => cc0_transform_4 | 5 => cc0_transform_5 | ⟨_ + 6, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 | ⟨_ + 6, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | 5 => hinb0_5 | ⟨_ + 6, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | 5 => hwx0_5 | ⟨_ + 6, h⟩ => absurd h (Nat.not_lt.2 (Nat.le_add_left _ _))
abbrev win1_0 : Pipeline.Window sig grid1 :=
  Pipeline.Window.ofSpec (Memref.whole main_v17) S1x1x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1x512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x1x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S32x1x1024 : Shape := ⟨3, ![32, 1, 1024]⟩
abbrev S32x2048x2048 : Shape := ⟨3, ![32, 2048, 2048]⟩
abbrev S32 : Shape := ⟨1, ![32]⟩
abbrev S1024x2048 : Shape := ⟨2, ![1024, 2048]⟩
abbrev S1024x1024 : Shape := ⟨2, ![1024, 1024]⟩
abbrev S1x1024 : Shape := ⟨2, ![1, 1024]⟩
abbrev S32x2048x1024 : Shape := ⟨3, ![32, 2048, 1024]⟩
abbrev S32x2048x1 : Shape := ⟨3, ![32, 2048, 1]⟩
abbrev S32x2048 : Shape := ⟨2, ![32, 2048]⟩
abbrev S2048 : Shape := ⟨1, ![2048]⟩
abbrev S1x2048 : Shape := ⟨2, ![1, 2048]⟩
abbrev S32x1 : Shape := ⟨2, ![32, 1]⟩
abbrev S_ : Shape := ⟨0, ![]⟩
abbrev S32x1x2048 : Shape := ⟨3, ![32, 1, 2048]⟩
abbrev S32x1x1 : Shape := ⟨3, ![32, 1, 1]⟩

abbrev nBuf : Space → Nat
  | .hbm => 39
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S32x2048x2048, .f32⟩
  | .hbm, ⟨2, _⟩ => ⟨S32, .i32⟩
  | .hbm, ⟨3, _⟩ => ⟨S1024x2048, .f32⟩
  | .hbm, ⟨4, _⟩ => ⟨S1024x1024, .f32⟩
  | .hbm, ⟨5, _⟩ => ⟨S1x1024, .f32⟩
  | .hbm, ⟨6, _⟩ => ⟨S32x2048x1024, .f32⟩
  | .hbm, ⟨7, _⟩ => ⟨S32x1x1024, .f32⟩
  | .hbm, ⟨8, _⟩ => ⟨S32x2048x1024, .f32⟩
  | .hbm, ⟨9, _⟩ => ⟨S32x2048x1024, .f32⟩
  | .hbm, ⟨10, _⟩ => ⟨S32x2048x1024, .f32⟩
  | .hbm, ⟨11, _⟩ => ⟨S32x2048x1, .f32⟩
  | .hbm, ⟨12, _⟩ => ⟨S32x2048, .f32⟩
  | .hbm, ⟨13, _⟩ => ⟨S2048, .i32⟩
  | .hbm, ⟨14, _⟩ => ⟨S1x2048, .i32⟩
  | .hbm, ⟨15, _⟩ => ⟨S32x1, .i32⟩
  | .hbm, ⟨16, _⟩ => ⟨S32x2048, .i32⟩
  | .hbm, ⟨17, _⟩ => ⟨S32x2048, .i32⟩
  | .hbm, ⟨18, _⟩ => ⟨S32x2048, .i1⟩
  | .hbm, ⟨19, _⟩ => ⟨S_, .f32⟩
  | .hbm, ⟨20, _⟩ => ⟨S_, .f32⟩
  | .hbm, ⟨21, _⟩ => ⟨S32x2048, .f32⟩
  | .hbm, ⟨22, _⟩ => ⟨S32x2048, .f32⟩
  | .hbm, ⟨23, _⟩ => ⟨S32x1x2048, .f32⟩
  | .hbm, ⟨24, _⟩ => ⟨S_, .f32⟩
  | .hbm, ⟨25, _⟩ => ⟨S32x1, .f32⟩
  | .hbm, ⟨26, _⟩ => ⟨S_, .f32⟩
  | .hbm, ⟨27, _⟩ => ⟨S32x1, .f32⟩
  | .hbm, ⟨28, _⟩ => ⟨S32x1, .f32⟩
  | .hbm, ⟨29, _⟩ => ⟨S32x1x1, .f32⟩
  | .hbm, ⟨30, _⟩ => ⟨S32x1x2048, .f32⟩
  | .hbm, ⟨31, _⟩ => ⟨S32x1x2048, .f32⟩
  | .hbm, ⟨32, _⟩ => ⟨S32x1x2048, .f32⟩
  | .hbm, ⟨33, _⟩ => ⟨S_, .f32⟩
  | .hbm, ⟨34, _⟩ => ⟨S32x1, .f32⟩
  | .hbm, ⟨35, _⟩ => ⟨S32x1x1, .f32⟩
  | .hbm, ⟨36, _⟩ => ⟨S32x1x2048, .f32⟩
  | .hbm, ⟨37, _⟩ => ⟨S32x1x2048, .f32⟩
  | .hbm, ⟨38, _⟩ => ⟨S32x1x2048, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_call0_v0 : Ref sig .tc := ⟨.hbm, 20, rfl⟩
abbrev main_call0_v1 : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]

class Facts₀ : Prop where
  bcast_S32x1x1024_S32x2048x1024_0_1_2 : S32x1x1024.BroadcastsInDim S32x2048x1024 (![0, 1, 2] : Fin 3 → Fin S32x2048x1024.rank)
  shapeCasts_S32x2048x1_S32x2048 : S32x2048x1.ShapeCasts S32x2048
  bcast_S2048_S1x2048_1 : S2048.BroadcastsInDim S1x2048 (![1] : Fin 1 → Fin S1x2048.rank)
  bcast_S32_S32x1_0 : S32.BroadcastsInDim S32x1 (![0] : Fin 1 → Fin S32x1.rank)
  bcast_S1x2048_S32x2048_0_1 : S1x2048.BroadcastsInDim S32x2048 (![0, 1] : Fin 2 → Fin S32x2048.rank)
  bcast_S32x1_S32x2048_0_1 : S32x1.BroadcastsInDim S32x2048 (![0, 1] : Fin 2 → Fin S32x2048.rank)
  bcast_S_S32x2048 : S_.BroadcastsInDim S32x2048 (![] : Fin 0 → Fin S32x2048.rank)
  bcast_S32x2048_S32x1x2048_0_2 : S32x2048.BroadcastsInDim S32x1x2048 (![0, 2] : Fin 2 → Fin S32x1x2048.rank)
  reducesTo_S32x1x2048_S32x1_d2 : S32x1x2048.ReducesTo [2] S32x1
  h_S_ : 0 < S_.numel
  bcast_S_S32x1 : S_.BroadcastsInDim S32x1 (![] : Fin 0 → Fin S32x1.rank)
  bcast_S32x1_S32x1x1_0_1 : S32x1.BroadcastsInDim S32x1x1 (![0, 1] : Fin 2 → Fin S32x1x1.rank)
  bcast_S32x1x1_S32x1x2048_0_1_2 : S32x1x1.BroadcastsInDim S32x1x2048 (![0, 1, 2] : Fin 3 → Fin S32x1x2048.rank)
  dot_S32x2048x2048_S1024x2048_S32x2048x1024_2_1_01_0_n_n_wf : DotDims.WF S32x2048x2048 S1024x2048 S32x2048x1024 [2] [1] [0, 1] [0] [] []
  dot_S32x1x1024_S1024x1024_S32x1x1024_2_1_01_0_n_n_wf : DotDims.WF S32x1x1024 S1024x1024 S32x1x1024 [2] [1] [0, 1] [0] [] []
  dot_S32x2048x1024_S1x1024_S32x2048x1_2_1_01_0_n_n_wf : DotDims.WF S32x2048x1024 S1x1024 S32x2048x1 [2] [1] [0, 1] [0] [] []
  dot_S32x1x2048_S32x2048x2048_S32x1x2048_2_1_1_2_0_0_wf : DotDims.WF S32x1x2048 S32x2048x2048 S32x1x2048 [2] [1] [1] [2] [0] [0]

variable [Facts₀]

def dot_S32x2048x2048_S1024x2048_S32x2048x1024_2_1_01_0_n_n : DotDims S32x2048x2048 S1024x2048 S32x2048x1024 where
  lhsContracting := [2]
  rhsContracting := [1]
  lhsNonContracting := [0, 1]
  rhsNonContracting := [0]
  lhsBatch := []
  rhsBatch := []
  wf := dot_S32x2048x2048_S1024x2048_S32x2048x1024_2_1_01_0_n_n_wf
def dot_S32x1x1024_S1024x1024_S32x1x1024_2_1_01_0_n_n : DotDims S32x1x1024 S1024x1024 S32x1x1024 where
  lhsContracting := [2]
  rhsContracting := [1]
  lhsNonContracting := [0, 1]
  rhsNonContracting := [0]
  lhsBatch := []
  rhsBatch := []
  wf := dot_S32x1x1024_S1024x1024_S32x1x1024_2_1_01_0_n_n_wf
def dot_S32x2048x1024_S1x1024_S32x2048x1_2_1_01_0_n_n : DotDims S32x2048x1024 S1x1024 S32x2048x1 where
  lhsContracting := [2]
  rhsContracting := [1]
  lhsNonContracting := [0, 1]
  rhsNonContracting := [0]
  lhsBatch := []
  rhsBatch := []
  wf := dot_S32x2048x1024_S1x1024_S32x2048x1_2_1_01_0_n_n_wf
def dot_S32x1x2048_S32x2048x2048_S32x1x2048_2_1_1_2_0_0 : DotDims S32x1x2048 S32x2048x2048 S32x1x2048 where
  lhsContracting := [2]
  rhsContracting := [1]
  lhsNonContracting := [1]
  rhsNonContracting := [2]
  lhsBatch := [0]
  rhsBatch := [0]
  wf := dot_S32x1x2048_S32x2048x2048_S32x1x2048_2_1_1_2_0_0_wf

class Facts : Prop extends Facts₀ where

variable [Facts]
-- ==== Proof.KIRegion0Run.lean ====
/-
  The first pallas_call (the energies kernel) as a pipeline region, at any float instance.

  Grid point t = 4·b + j handles batch row b and source block j (512 positions): it projects the block's
  encoder states [512, 2048] and the row's decoder state [1, 1024] through the (transposed) weight
  matrices, adds them, applies tanh, contracts with the energy vector, and keeps the score where the
  position lies before the row's source length — a word the body reads from the prefetched length table at
  index b — and the fill constant elsewhere.  The block [1, 1, 512] of scores is written back at every point.

  This module runs the body once on any whole staging memrefs, records its one store into the output block,
  and states the region's proof data and body obligation.  The contents of the buffers when the region is
  entered are a parameter `V`; the length table's contents are read off `V`.
-/
import proofs.«414879_j37280316129367_1_alg».proof.Proof.Gen.KernelIdeal.Launch
import proofs.«414879_j37280316129367_1_alg».proof.Proof.Gen.KernelIdeal.Skeleton
import proofs.«414879_j37280316129367_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

section Region0

variable (V : (c : Dev nD) → (b : Ref sig .tc) → Buf (Elt F) ((c : Thread nD τ).loc b))

/-! ## The length table, read off the entry contents -/

/-- The table's contents when the region is entered (the program runs on one device). -/
def tbl0 : pre0.Contents (Elt F) := fun j => V (0 : Dev nD) (pre0.ref j)
theorem V_pre0 (c : Dev nD) (j : Fin 1) : V c (pre0.ref j) = tbl0 V j := by
  obtain rfl : c = 0 := Subsingleton.elim _ _; rfl
/-- No index map reads the table, so every contents is admissible. -/
abbrev adm0 : (pcfg0 (F := F)).Adm := ⟨tbl0 V, trivial⟩
/-- The pipeline at those contents. -/
abbrev cfgM0 : Pipeline.Cfg sig Λ₀ := cfg0 (adm0 V)

/-- The table as the body is handed it: its whole buffer as a memref. -/
abbrev tbM0 : Memref sig .tc .smem S32 .i32 := Memref.whole main_arg2
abbrev htbM0 : tbM0.IsWhole := Memref.isWhole_whole _
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare} f

/-- The table held whole at its contents is its one buffer's points-to. -/
theorem PhiT0_eq (c : Dev nD) :
    (Pipeline.prefHeld (Ix := Unit) (Name := ℕ) (U := UR sig nD τ) (Lvl := ℕ) pre0 c (fun _ => fullShare) (tbl0 V) : sProp 𝕄)
      = tbPt0 c tbM0 (tbl0 V 0) := by
  unfold Pipeline.prefHeld
  rw [show (Finset.univ : Finset (Fin 1)) = {(0 : Fin 1)} from by decide, bigSep_singleton]
  rfl

/-! ## The windows' blocks -/

/-- Window `w`'s block at point `t`, read off its array as the region finds it. -/
def iblk0 (c : Dev nD) (w : Fin (cfgM0 V).W) (t : Fin (cfgM0 V).N) : (((cfgM0 V).win w).xblock ((cfgM0 V).grid.coords t)).Idx → Elt F ((cfgM0 V).win w).elt :=
  (((cfgM0 V).win w).blk t).view.read (Elt F) (V c (Pipeline.arrRef spec0 w))

theorem before0_0_of {c : Dev nD} (dat : Dat τ (Elt F) Unit ℕ (UR sig nD τ) ℕ (cfgM0 V) c) (hA : dat.A 0 = V c (Pipeline.arrRef spec0 0))
    (hafter : ∀ t, dat.after 0 t = iblk0 V c 0 t) (t : Fin (cfgM0 V).N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ (cfgM0 V) c) (hA : dat.A 1 = V c (Pipeline.arrRef spec0 1))
    (hafter : ∀ t, dat.after 1 t = iblk0 V c 1 t) (t : Fin (cfgM0 V).N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ (cfgM0 V) c) (hA : dat.A 2 = V c (Pipeline.arrRef spec0 2))
    (hafter : ∀ t, dat.after 2 t = iblk0 V c 2 t) (t : Fin (cfgM0 V).N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ (cfgM0 V) c) (hA : dat.A 3 = V c (Pipeline.arrRef spec0 3))
    (hafter : ∀ t, dat.after 3 t = iblk0 V c 3 t) (t : Fin (cfgM0 V).N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ (cfgM0 V) c) (hA : dat.A 4 = V c (Pipeline.arrRef spec0 4))
    (hafter : ∀ t, dat.after 4 t = iblk0 V c 4 t) (t : Fin (cfgM0 V).N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The memrefs the body is called with -/

abbrev VO0_5 : View sig .tc .vmem S1x1x512 .f32 := (Memref.whole cc0_stg5_0 : Memref sig .tc .vmem S1x1x512 .f32).view
abbrev ms0_0 (t : Fin (cfgM0 V).N) : Memref sig .tc .vmem S1x512x2048 .f32 := spec0_0.stage ((cfgM0 V).slots t 0)
abbrev hs0_0 (t : Fin (cfgM0 V).N) : (ms0_0 V t).IsWhole := hstage0_0 (((cfgM0 V).slots t 0).cast nbuf0_0)
abbrev ms0_1 (t : Fin (cfgM0 V).N) : Memref sig .tc .vmem S1x1x1024 .f32 := spec0_1.stage ((cfgM0 V).slots t 1)
abbrev hs0_1 (t : Fin (cfgM0 V).N) : (ms0_1 V t).IsWhole := hstage0_1 (((cfgM0 V).slots t 1).cast nbuf0_1)
abbrev ms0_2 (t : Fin (cfgM0 V).N) : Memref sig .tc .vmem S2048x1024 .bf16 := spec0_2.stage ((cfgM0 V).slots t 2)
abbrev hs0_2 (t : Fin (cfgM0 V).N) : (ms0_2 V t).IsWhole := hstage0_2 (((cfgM0 V).slots t 2).cast nbuf0_2)
abbrev ms0_3 (t : Fin (cfgM0 V).N) : Memref sig .tc .vmem S1024x1024 .bf16 := spec0_3.stage ((cfgM0 V).slots t 3)
abbrev hs0_3 (t : Fin (cfgM0 V).N) : (ms0_3 V t).IsWhole := hstage0_3 (((cfgM0 V).slots t 3).cast nbuf0_3)
abbrev ms0_4 (t : Fin (cfgM0 V).N) : Memref sig .tc .vmem S1024x1 .bf16 := spec0_4.stage ((cfgM0 V).slots t 4)
abbrev hs0_4 (t : Fin (cfgM0 V).N) : (ms0_4 V t).IsWhole := hstage0_4 (((cfgM0 V).slots t 4).cast nbuf0_4)
abbrev ms0_5 (t : Fin (cfgM0 V).N) : Memref sig .tc .vmem S1x1x512 .f32 := spec0_5.stage ((cfgM0 V).slots t 5)
abbrev hs0_5 (t : Fin (cfgM0 V).N) : (ms0_5 V t).IsWhole := hstage0_5 (((cfgM0 V).slots t 5).cast nbuf0_5)

/-- The kernel body at point `t`, on what the pipeline calls it with. -/
abbrev bodyAt0 (t : Fin (cfgM0 V).N) : Prog (TpuEff nD τ sig (Elt F) Λ₀ .tc) PUnit :=
  cc0__energies_kernel (grid0.coords t) (Memref.whole main_arg2) (Memref.isWhole_whole _) (ms0_0 V t) (hs0_0 V t) (ms0_1 V t) (hs0_1 V t) (ms0_2 V t) (hs0_2 V t) (ms0_3 V t) (hs0_3 V t) (ms0_4 V t) (hs0_4 V t) (ms0_5 V t) (hs0_5 V t)

end Region0

/-! ## The body's run -/

set_option maxHeartbeats 1000000 in
/-- On whole staging memrefs — the five inputs' at their contents, the output's at anything, the length table at its
    contents — the body runs to the continuation holding the inputs and the table as they were and the output block
    with the run's pieces written. -/
noncomputable def kernelRun0 (c : Dev nD) (i : grid0.Coords) (arg3 : Memref sig .tc .vmem S1x512x2048 .f32) (harg3 : arg3.IsWhole) (arg4 : Memref sig .tc .vmem S1x1x1024 .f32) (harg4 : arg4.IsWhole) (arg5 : Memref sig .tc .vmem S2048x1024 .bf16) (harg5 : arg5.IsWhole) (arg6 : Memref sig .tc .vmem S1024x1024 .bf16) (harg6 : arg6.IsWhole) (arg7 : Memref sig .tc .vmem S1024x1 .bf16) (harg7 : arg7.IsWhole) (arg8 : Memref sig .tc .vmem S1x1x512 .f32) (harg8 : arg8.IsWhole)
    (x0 : Vec F S1x512x2048 .f32) (x1 : Vec F S1x1x1024 .f32) (x2 : Vec F S2048x1024 .bf16) (x3 : Vec F S1024x1024 .bf16) (x4 : Vec F S1024x1 .bf16) (xt : TbBuf0 (F := F) c tbM0) :
    { L5 : List (View.Piece (Elt F) S1x1x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ tbPt0 c tbM0 xt
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ tbPt0 c tbM0 xt) -∗ K ⟨⟩))
          ⊢ wp frame (wpE (defs₀ (F := F)) Variants.none c none) E (cc0__energies_kernel i tbM0 htbM0 arg3 harg3 arg4 harg4 arg5 harg5 arg6 harg6 arg7 harg7 arg8 harg8) K } := by
  refine ⟨?_, fun E K => ?run⟩
  case run =>
    simp only [cc0__energies_kernel_eq_skeleton]; unfold cc0__energies_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, HT, Hk⟩
    obtain rfl := harg3.eq_unread hf0; obtain rfl := harg4.eq_unread hf1; obtain rfl := harg5.eq_unread hf2; obtain rfl := harg6.eq_unread hf3; obtain rfl := harg7.eq_unread hf4
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexact HT

end Cert.KernelIdeal.Hand

end
-- ==== Proof.KIRegion0.lean ====
/-
  The energies kernel's region: what the output block holds after each point, the region's proof data, and
  its body obligation.  Every point stores the whole output block once, so the block after point t is the
  run's one piece read back, a function of the point's five input blocks and the length table.  The region's
  invariant is the class invariant (the scoped buffers this call does not stage through, the generator
  register) beside the length table held whole at its contents, which the body only reads.
-/
import proofs.«414879_j37280316129367_1_alg».proof.Proof.KIRegion0Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- The run's store into the output block covers it. -/
theorem cover0_5 (c : Dev nD) (i : grid0.Coords) (arg3 : Memref sig .tc .vmem S1x512x2048 .f32) (harg3 : arg3.IsWhole) (arg4 : Memref sig .tc .vmem S1x1x1024 .f32) (harg4 : arg4.IsWhole) (arg5 : Memref sig .tc .vmem S2048x1024 .bf16) (harg5 : arg5.IsWhole) (arg6 : Memref sig .tc .vmem S1024x1024 .bf16) (harg6 : arg6.IsWhole) (arg7 : Memref sig .tc .vmem S1024x1 .bf16) (harg7 : arg7.IsWhole) (arg8 : Memref sig .tc .vmem S1x1x512 .f32) (harg8 : arg8.IsWhole)
    (x0 : Vec F S1x512x2048 .f32) (x1 : Vec F S1x1x1024 .f32) (x2 : Vec F S2048x1024 .bf16) (x3 : Vec F S1024x1024 .bf16) (x4 : Vec F S1024x1 .bf16) (xt : TbBuf0 (F := F) c tbM0) (y : S1x1x512.Idx) :
    ∃ pc ∈ (kernelRun0 c i arg3 harg3 arg4 harg4 arg5 harg5 arg6 harg6 arg7 harg7 arg8 harg8 x0 x1 x2 x3 x4 xt).1, y ∈ pc.1.set :=
  View.cover_of_tiledL (kernelRun0 c i arg3 harg3 arg4 harg4 arg5 harg5 arg6 harg6 arg7 harg7 arg8 harg8 x0 x1 x2 x3 x4 xt).1 S1x1x512.size (by sl_kernel_rfl) y

/-- What the run leaves in the output block. -/
def out0_5 (c : Dev nD) (i : grid0.Coords) (arg3 : Memref sig .tc .vmem S1x512x2048 .f32) (harg3 : arg3.IsWhole) (arg4 : Memref sig .tc .vmem S1x1x1024 .f32) (harg4 : arg4.IsWhole) (arg5 : Memref sig .tc .vmem S2048x1024 .bf16) (harg5 : arg5.IsWhole) (arg6 : Memref sig .tc .vmem S1024x1024 .bf16) (harg6 : arg6.IsWhole) (arg7 : Memref sig .tc .vmem S1024x1 .bf16) (harg7 : arg7.IsWhole) (arg8 : Memref sig .tc .vmem S1x1x512 .f32) (harg8 : arg8.IsWhole)
    (x0 : Vec F S1x512x2048 .f32) (x1 : Vec F S1x1x1024 .f32) (x2 : Vec F S2048x1024 .bf16) (x3 : Vec F S1024x1024 .bf16) (x4 : Vec F S1024x1 .bf16) (xt : TbBuf0 (F := F) c tbM0) : Vec F S1x1x512 .f32 :=
  VO0_5.read (Elt F) (VO0_5.writes (Elt F) VO0_5.junk (kernelRun0 c i arg3 harg3 arg4 harg4 arg5 harg5 arg6 harg6 arg7 harg7 arg8 harg8 x0 x1 x2 x3 x4 xt).1)

section Region0

variable (V : (c : Dev nD) → (b : Ref sig .tc) → Buf (Elt F) ((c : Thread nD τ).loc b))

/-- The output block after the body at point `t`. -/
def outsAt0 (c : Dev nD) (t : Fin (cfgM0 V).N) : Vec F S1x1x512 .f32 :=
  out0_5 c (grid0.coords t) (ms0_0 V t) (hs0_0 V t) (ms0_1 V t) (hs0_1 V t) (ms0_2 V t) (hs0_2 V t) (ms0_3 V t) (hs0_3 V t) (ms0_4 V t) (hs0_4 V t) (ms0_5 V t) (hs0_5 V t) (iblk0 V c 0 t) (iblk0 V c 1 t) (iblk0 V c 2 t) (iblk0 V c 3 t) (iblk0 V c 4 t) (tbl0 V 0)

/-- The arrays as the region finds them; after the body each input's buffer at its block and the output's at
    `outsAt0`; the invariant the class's beside the length table; nothing owed; full shares. -/
def dat0 (c : Dev nD) : Dat τ (Elt F) Unit ℕ (UR sig nD τ) ℕ (cfgM0 V) c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => outsAt0 V c t
  Φ _ := iprop(Pipeline.ΦA spec0 c ∗ Pipeline.prefHeld (Ix := Unit) (Name := ℕ) (U := UR sig nD τ) (Lvl := ℕ) pre0 c (fun _ => fullShare) (tbl0 V))
  q _ := fullShare
  owed _ := 0

theorem A_eq0 (c : Dev nD) (w : Fin (cfgM0 V).W) : (dat0 V c).A w = V c (Pipeline.arrRef spec0 w) := by
  dsimp only [dat0]

theorem after0_0 (c : Dev nD) (t : Fin (cfgM0 V).N) : (dat0 V c).after 0 t = iblk0 V c 0 t := by dsimp only [dat0]; try rfl
theorem after0_1 (c : Dev nD) (t : Fin (cfgM0 V).N) : (dat0 V c).after 1 t = iblk0 V c 1 t := by dsimp only [dat0]; try rfl
theorem after0_2 (c : Dev nD) (t : Fin (cfgM0 V).N) : (dat0 V c).after 2 t = iblk0 V c 2 t := by dsimp only [dat0]; try rfl
theorem after0_3 (c : Dev nD) (t : Fin (cfgM0 V).N) : (dat0 V c).after 3 t = iblk0 V c 3 t := by dsimp only [dat0]; try rfl
theorem after0_4 (c : Dev nD) (t : Fin (cfgM0 V).N) : (dat0 V c).after 4 t = iblk0 V c 4 t := by dsimp only [dat0]; try rfl
theorem after0_5 (c : Dev nD) (t : Fin (cfgM0 V).N) : (dat0 V c).after 5 t = outsAt0 V c t := by dsimp only [dat0]; try rfl

theorem before0_0 (c : Dev nD) (t : Fin (cfgM0 V).N) (d) : (dat0 V c).before 0 t d = iblk0 V c 0 t :=
  before0_0_of V (dat0 V c) (A_eq0 V c 0) (after0_0 V c) t d
theorem before0_1 (c : Dev nD) (t : Fin (cfgM0 V).N) (d) : (dat0 V c).before 1 t d = iblk0 V c 1 t :=
  before0_1_of V (dat0 V c) (A_eq0 V c 1) (after0_1 V c) t d
theorem before0_2 (c : Dev nD) (t : Fin (cfgM0 V).N) (d) : (dat0 V c).before 2 t d = iblk0 V c 2 t :=
  before0_2_of V (dat0 V c) (A_eq0 V c 2) (after0_2 V c) t d
theorem before0_3 (c : Dev nD) (t : Fin (cfgM0 V).N) (d) : (dat0 V c).before 3 t d = iblk0 V c 3 t :=
  before0_3_of V (dat0 V c) (A_eq0 V c 3) (after0_3 V c) t d
theorem before0_4 (c : Dev nD) (t : Fin (cfgM0 V).N) (d) : (dat0 V c).before 4 t d = iblk0 V c 4 t :=
  before0_4_of V (dat0 V c) (A_eq0 V c 4) (after0_4 V c) t d

def bodyPre0 (c : Dev nD) (t : Fin (cfgM0 V).N) : sProp 𝕄 :=
  iprop((dat0 V c).Φ t.castSucc ∗ (dat0 V c).owesAt () t.castSucc
    ∗ (∃ d, owns (c : Thread nD τ) (ms0_0 V t) fullShare ((dat0 V c).before 0 t d))
    ∗ (∃ d, owns (c : Thread nD τ) (ms0_1 V t) fullShare ((dat0 V c).before 1 t d))
    ∗ (∃ d, owns (c : Thread nD τ) (ms0_2 V t) fullShare ((dat0 V c).before 2 t d))
    ∗ (∃ d, owns (c : Thread nD τ) (ms0_3 V t) fullShare ((dat0 V c).before 3 t d))
    ∗ (∃ d, owns (c : Thread nD τ) (ms0_4 V t) fullShare ((dat0 V c).before 4 t d))
    ∗ (∃ d, owns (c : Thread nD τ) (ms0_5 V t) fullShare ((dat0 V c).before 5 t d)))

def bodyPost0 (c : Dev nD) (t : Fin (cfgM0 V).N) : sProp 𝕄 :=
  iprop((dat0 V c).Φ t.succ ∗ (dat0 V c).owesAt () t.succ
    ∗ owns (c : Thread nD τ) (ms0_0 V t) fullShare ((dat0 V c).after 0 t)
    ∗ owns (c : Thread nD τ) (ms0_1 V t) fullShare ((dat0 V c).after 1 t)
    ∗ owns (c : Thread nD τ) (ms0_2 V t) fullShare ((dat0 V c).after 2 t)
    ∗ owns (c : Thread nD τ) (ms0_3 V t) fullShare ((dat0 V c).after 3 t)
    ∗ owns (c : Thread nD τ) (ms0_4 V t) fullShare ((dat0 V c).after 4 t)
    ∗ owns (c : Thread nD τ) (ms0_5 V t) fullShare ((dat0 V c).after 5 t))

set_option maxHeartbeats 1600000 in
/-- The body at any point: the inputs' memrefs hold their blocks, the table its contents, so the run applies; the
    invariant passes through, the table read and handed back. -/
theorem sound_body0 (c : Dev nD) (t : Fin (cfgM0 V).N) :
    bodyPre0 V c t ⊢ wp frame (wpE (defs₀ (F := F)) Variants.none c none) Set.univ (bodyAt0 V t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  rw [show (dat0 V c).Φ t.castSucc = iprop(Pipeline.ΦA spec0 c ∗ Pipeline.prefHeld (Ix := Unit) (Name := ℕ) (U := UR sig nD τ) (Lvl := ℕ) pre0 c (fun _ => fullShare) (tbl0 V)) from rfl, PhiT0_eq]
  unfold outsAt0
  unfold out0_5
  iintro ⟨⟨HΦ, HT⟩, Ho, ⟨%d0, H0⟩, ⟨%d1, H1⟩, ⟨%d2, H2⟩, ⟨%d3, H3⟩, ⟨%d4, H4⟩, ⟨%d5, H5⟩⟩
  iapply ((kernelRun0 c (grid0.coords t) _ _ _ _ _ _ _ _ _ _ _ _ (iblk0 V c 0 t) (iblk0 V c 1 t) (iblk0 V c 2 t) (iblk0 V c 3 t) (iblk0 V c 4 t) (tbl0 V 0)).2 Set.univ _)
  isplitl [H0]; · iexact H0
  isplitl [H1]; · iexact H1
  isplitl [H2]; · iexact H2
  isplitl [H3]; · iexact H3
  isplitl [H4]; · iexact H4
  isplitl [H5]; · iexists _; iexact H5
  isplitl [HT]; · iexact HT
  iintro ⟨H0, H1, H2, H3, H4, ⟨%e5, H5⟩, HT⟩
  isplitl [HΦ HT]
  · isplitl [HΦ]; · iexact HΦ
    iexact HT
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover0_5 c _ _ _ _ _ _ _ _ _ _ _ _ _ _ _ _ _ _ _)

/-- The body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KIRegion1Base.lean ====
/-
  The second pallas_call (the context kernel) as a pipeline region, at any float instance.

  Grid point t = 4·b + j handles batch row b and source block j (512 positions).  The kernel keeps a
  [1, 2048] accumulator in a scratch buffer across the four blocks of a row: at j = 0 it is reset to zero,
  at every j the product of the block's attention weights [1, 512] with the block's encoder states
  [512, 2048] is added, and at j = 3 the accumulator is copied to the output block, which the pipeline
  then writes back to row b of the result.  At j = 0, 1, 2 the output block is left untouched and is not
  written back.

  This module runs the kernel's body once per control case (reset / plain / copy-out), records what each
  case leaves in the scratch buffer and in the output block, chains these point by point (`outsAt1`),
  and states the region's proof data and body obligation over them.  The contents of the buffers when the
  region is entered are a parameter `V`.
-/
import proofs.«414879_j37280316129367_1_alg».proof.Proof.Gen.KernelIdeal.Launch
import proofs.«414879_j37280316129367_1_alg».proof.Proof.Gen.KernelIdeal.Skeleton
import proofs.«414879_j37280316129367_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## The body's two branch conditions over the grid -/

/-- The accumulator is reset: the source block is the row's first. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The accumulator is copied out: the source block is the row's last. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle, and where the output is written back -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem liveAt1_2 : ∀ t : Fin cfg1.N, cond1_1 (grid1.coords t) → cfg1.idle 2 (grid1.coords t) = false := by decide +kernel
theorem noFlush1_2 : ∀ t : Fin cfg1.N, ¬cond1_1 (grid1.coords t) → (cfg1.win 2).flush t = false := by decide +kernel

/-! ## The memrefs the body is called with -/

abbrev VO1_2 : View sig .tc .vmem S1x1x2048 .f32 := (Memref.whole cc1_stg2_0 : Memref sig .tc .vmem S1x1x2048 .f32).view
abbrev ms1_0 (t : Fin cfg1.N) : Memref sig .tc .vmem S1x1x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x2048 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1 : Memref sig .tc .vmem S1x2048 .f32 := Memref.whole cc1_scratch0
abbrev VS1 : View sig .tc .vmem S1x2048 .f32 := scM1.view

/-! ## The region's invariant with the accumulator singled out -/

/-- The core's scoped buffers that this region neither stages through nor accumulates in (the first
    pallas_call's staging buffers), each at some contents. -/
def restR1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f))

/-- The class invariant (every scoped buffer that is no staging buffer of this call at some contents, and the
    generator register) with the accumulator named. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ d, owns (c : Thread nD τ) scM1 fullShare d)) ∗ (∃ r, prngReg c r)) := by
  unfold Pipeline.ΦA; rw [scopedRest1_eq]; simp only [scM1, owns_whole]; try rfl

theorem PhiA1_out (c : Dev nD) :
    (Pipeline.ΦA spec1 c : sProp 𝕄) ⊢ iprop(restR1 c ∗ (∃ d, owns (c : Thread nD τ) scM1 fullShare d) ∗ (∃ r, prngReg c r)) := by
  rw [PhiA1_eq]; unfold restR1
  iintro ⟨⟨H1, H2, H3, H4, H5, H6, H7, H8, H9, HS⟩, Hg⟩
  isplitl [H1 H2 H3 H4 H5 H6 H7 H8 H9]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [HS]; · iexact HS
  iexact Hg

theorem PhiA1_in (c : Dev nD) :
    iprop(restR1 c ∗ (∃ d, owns (c : Thread nD τ) scM1 fullShare d) ∗ (∃ r, prngReg c r)) ⊢ (Pipeline.ΦA spec1 c : sProp 𝕄) := by
  rw [PhiA1_eq]; unfold restR1
  iintro ⟨⟨H1, H2, H3, H4, H5, H6, H7, H8, H9⟩, HS, Hg⟩
  isplitl [H1 H2 H3 H4 H5 H6 H7 H8 H9 HS]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact HS
  iexact Hg

end Cert.KernelIdeal.Hand

end
-- ==== Proof.KIRegion1Runs.lean ====
/-
  The context kernel's body run once per control case, on any whole staging memrefs.

  Case A (first source block of a row): the accumulator is reset, then the block's product is added.
  Case B (a middle block): the product is added to what the block before left.
  Case C (last block): the product is added and the accumulator copied to the output block.
  Each run records the stores it made into the accumulator (and, in case C, into the output block) as a list
  of pieces; what the buffers hold afterwards is read off those lists.
-/
import proofs.«414879_j37280316129367_1_alg».proof.Proof.KIRegion1Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1000000 in
/-- Case A: the output block is handed back untouched; the accumulator, at anything before, ends with the run's pieces. -/
noncomputable def kernelRun1_A (c : Dev nD) (i : grid1.Coords) (arg2 : Memref sig .tc .vmem S1x1x512 .f32) (harg2 : arg2.IsWhole) (arg3 : Memref sig .tc .vmem S1x512x2048 .f32) (harg3 : arg3.IsWhole) (arg4 : Memref sig .tc .vmem S1x1x2048 .f32) (harg4 : arg4.IsWhole) (arg5 : Memref sig .tc .vmem S1x2048 .f32) (harg5 : arg5.IsWhole) (hc0 : cond1_0 i) (hc1 : ¬cond1_1 i)
    (x0 : Vec F S1x1x512 .f32) (x1 : Vec F S1x512x2048 .f32) :
    Σ' (L2 : List (View.Piece (Elt F) S1x1x2048 .f32)), { LS0 : List (View.Piece (Elt F) S1x2048 .f32) //
      ∀ (xi2 : Vec F S1x1x2048 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__context_kernel i arg2 harg2 arg3 harg3 arg4 harg4 arg5 harg5) K } := by
  refine ⟨[], ?_, fun xi2 E K => ?run⟩
  case run =>
    simp only [cc1__context_kernel_eq_skeleton]; unfold cc1__context_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- Case B: the output block is handed back untouched; the accumulator, at `xs0` before, ends with the run's pieces. -/
noncomputable def kernelRun1_B (c : Dev nD) (i : grid1.Coords) (arg2 : Memref sig .tc .vmem S1x1x512 .f32) (harg2 : arg2.IsWhole) (arg3 : Memref sig .tc .vmem S1x512x2048 .f32) (harg3 : arg3.IsWhole) (arg4 : Memref sig .tc .vmem S1x1x2048 .f32) (harg4 : arg4.IsWhole) (arg5 : Memref sig .tc .vmem S1x2048 .f32) (harg5 : arg5.IsWhole) (hc0 : ¬cond1_0 i) (hc1 : ¬cond1_1 i)
    (x0 : Vec F S1x1x512 .f32) (x1 : Vec F S1x512x2048 .f32) (xs0 : Vec F S1x2048 .f32) :
    Σ' (L2 : List (View.Piece (Elt F) S1x1x2048 .f32)), { LS0 : List (View.Piece (Elt F) S1x2048 .f32) //
      ∀ (xi2 : Vec F S1x1x2048 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__context_kernel i arg2 harg2 arg3 harg3 arg4 harg4 arg5 harg5) K } := by
  refine ⟨[], ?_, fun xi2 E K => ?run⟩
  case run =>
    simp only [cc1__context_kernel_eq_skeleton]; unfold cc1__context_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- Case C: the output block, at anything before, ends with the run's pieces; so does the accumulator, at `xs0` before. -/
noncomputable def kernelRun1_C (c : Dev nD) (i : grid1.Coords) (arg2 : Memref sig .tc .vmem S1x1x512 .f32) (harg2 : arg2.IsWhole) (arg3 : Memref sig .tc .vmem S1x512x2048 .f32) (harg3 : arg3.IsWhole) (arg4 : Memref sig .tc .vmem S1x1x2048 .f32) (harg4 : arg4.IsWhole) (arg5 : Memref sig .tc .vmem S1x2048 .f32) (harg5 : arg5.IsWhole) (hc0 : ¬cond1_0 i) (hc1 : cond1_1 i)
    (x0 : Vec F S1x1x512 .f32) (x1 : Vec F S1x512x2048 .f32) (xs0 : Vec F S1x2048 .f32) :
    Σ' (L2 : List (View.Piece (Elt F) S1x1x2048 .f32)), { LS0 : List (View.Piece (Elt F) S1x2048 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__context_kernel i arg2 harg2 arg3 harg3 arg4 harg4 arg5 harg5) K } := by
  refine ⟨?_, ?_, fun E K => ?run⟩
  case run =>
    simp only [cc1__context_kernel_eq_skeleton]; unfold cc1__context_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KIRegion1.lean ====
/-
  The context kernel's region: what the accumulator and the output block hold point by point, the region's
  proof data, and its body obligation.

  `outsAt1 n` is the pair (output block, accumulator) after the body at grid position n: at a position
  n ≡ 0 (mod 4) the reset case over the position's two input blocks, otherwise the plain or copy-out case over
  those blocks and the accumulator the position before left.  The region's invariant before position n + 1 keeps
  the accumulator at `(outsAt1 n).2`; before the first position it is the class invariant (every scratch buffer
  at anything).  The output window is idle at the positions that do not copy out.
-/
import proofs.«414879_j37280316129367_1_alg».proof.Proof.KIRegion1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## What each case leaves -/

/-- Case A's stores into the accumulator tile it. -/
theorem scover1_A_0 (c : Dev nD) (i : grid1.Coords) (arg2 : Memref sig .tc .vmem S1x1x512 .f32) (harg2 : arg2.IsWhole) (arg3 : Memref sig .tc .vmem S1x512x2048 .f32) (harg3 : arg3.IsWhole) (arg4 : Memref sig .tc .vmem S1x1x2048 .f32) (harg4 : arg4.IsWhole) (arg5 : Memref sig .tc .vmem S1x2048 .f32) (harg5 : arg5.IsWhole) (hc0 : cond1_0 i) (hc1 : ¬cond1_1 i)
    (x0 : Vec F S1x1x512 .f32) (x1 : Vec F S1x512x2048 .f32) (y : S1x2048.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S1x2048.size (by sl_kernel_rfl) y

/-- What case A leaves in the accumulator. -/
def sout1_A_0 (c : Dev nD) (i : grid1.Coords) (arg2 : Memref sig .tc .vmem S1x1x512 .f32) (harg2 : arg2.IsWhole) (arg3 : Memref sig .tc .vmem S1x512x2048 .f32) (harg3 : arg3.IsWhole) (arg4 : Memref sig .tc .vmem S1x1x2048 .f32) (harg4 : arg4.IsWhole) (arg5 : Memref sig .tc .vmem S1x2048 .f32) (harg5 : arg5.IsWhole) (hc0 : cond1_0 i) (hc1 : ¬cond1_1 i)
    (x0 : Vec F S1x1x512 .f32) (x1 : Vec F S1x512x2048 .f32) : Vec F S1x2048 .f32 :=
  VS1.read (Elt F) (VS1.writes (Elt F) VS1.junk (kernelRun1_A c i arg2 harg2 arg3 harg3 arg4 harg4 arg5 harg5 hc0 hc1 x0 x1).2.1)

/-- Case A stores nothing into the output block: a placeholder nothing consults. -/
def out1_A_2 (c : Dev nD) (i : grid1.Coords) (arg2 : Memref sig .tc .vmem S1x1x512 .f32) (harg2 : arg2.IsWhole) (arg3 : Memref sig .tc .vmem S1x512x2048 .f32) (harg3 : arg3.IsWhole) (arg4 : Memref sig .tc .vmem S1x1x2048 .f32) (harg4 : arg4.IsWhole) (arg5 : Memref sig .tc .vmem S1x2048 .f32) (harg5 : arg5.IsWhole) (hc0 : cond1_0 i) (hc1 : ¬cond1_1 i)
    (x0 : Vec F S1x1x512 .f32) (x1 : Vec F S1x512x2048 .f32) : Vec F S1x1x2048 .f32 :=
  VO1_2.read (Elt F) (VO1_2.writes (Elt F) VO1_2.junk (kernelRun1_A c i arg2 harg2 arg3 harg3 arg4 harg4 arg5 harg5 hc0 hc1 x0 x1).1)

/-- Case B's store into the accumulator covers it. -/
theorem scover1_B_0 (c : Dev nD) (i : grid1.Coords) (arg2 : Memref sig .tc .vmem S1x1x512 .f32) (harg2 : arg2.IsWhole) (arg3 : Memref sig .tc .vmem S1x512x2048 .f32) (harg3 : arg3.IsWhole) (arg4 : Memref sig .tc .vmem S1x1x2048 .f32) (harg4 : arg4.IsWhole) (arg5 : Memref sig .tc .vmem S1x2048 .f32) (harg5 : arg5.IsWhole) (hc0 : ¬cond1_0 i) (hc1 : ¬cond1_1 i)
    (x0 : Vec F S1x1x512 .f32) (x1 : Vec F S1x512x2048 .f32) (xs0 : Vec F S1x2048 .f32) (y : S1x2048.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S1x2048.size (by sl_kernel_rfl) y

/-- What case B leaves in the accumulator. -/
def sout1_B_0 (c : Dev nD) (i : grid1.Coords) (arg2 : Memref sig .tc .vmem S1x1x512 .f32) (harg2 : arg2.IsWhole) (arg3 : Memref sig .tc .vmem S1x512x2048 .f32) (harg3 : arg3.IsWhole) (arg4 : Memref sig .tc .vmem S1x1x2048 .f32) (harg4 : arg4.IsWhole) (arg5 : Memref sig .tc .vmem S1x2048 .f32) (harg5 : arg5.IsWhole) (hc0 : ¬cond1_0 i) (hc1 : ¬cond1_1 i)
    (x0 : Vec F S1x1x512 .f32) (x1 : Vec F S1x512x2048 .f32) (xs0 : Vec F S1x2048 .f32) : Vec F S1x2048 .f32 :=
  VS1.read (Elt F) (VS1.writes (Elt F) VS1.junk (kernelRun1_B c i arg2 harg2 arg3 harg3 arg4 harg4 arg5 harg5 hc0 hc1 x0 x1 xs0).2.1)

/-- Case B stores nothing into the output block: a placeholder nothing consults. -/
def out1_B_2 (c : Dev nD) (i : grid1.Coords) (arg2 : Memref sig .tc .vmem S1x1x512 .f32) (harg2 : arg2.IsWhole) (arg3 : Memref sig .tc .vmem S1x512x2048 .f32) (harg3 : arg3.IsWhole) (arg4 : Memref sig .tc .vmem S1x1x2048 .f32) (harg4 : arg4.IsWhole) (arg5 : Memref sig .tc .vmem S1x2048 .f32) (harg5 : arg5.IsWhole) (hc0 : ¬cond1_0 i) (hc1 : ¬cond1_1 i)
    (x0 : Vec F S1x1x512 .f32) (x1 : Vec F S1x512x2048 .f32) (xs0 : Vec F S1x2048 .f32) : Vec F S1x1x2048 .f32 :=
  VO1_2.read (Elt F) (VO1_2.writes (Elt F) VO1_2.junk (kernelRun1_B c i arg2 harg2 arg3 harg3 arg4 harg4 arg5 harg5 hc0 hc1 x0 x1 xs0).1)

/-- Case C's store into the output block covers it. -/
theorem cover1_C_2 (c : Dev nD) (i : grid1.Coords) (arg2 : Memref sig .tc .vmem S1x1x512 .f32) (harg2 : arg2.IsWhole) (arg3 : Memref sig .tc .vmem S1x512x2048 .f32) (harg3 : arg3.IsWhole) (arg4 : Memref sig .tc .vmem S1x1x2048 .f32) (harg4 : arg4.IsWhole) (arg5 : Memref sig .tc .vmem S1x2048 .f32) (harg5 : arg5.IsWhole) (hc0 : ¬cond1_0 i) (hc1 : cond1_1 i)
    (x0 : Vec F S1x1x512 .f32) (x1 : Vec F S1x512x2048 .f32) (xs0 : Vec F S1x2048 .f32) (y : S1x1x2048.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S1x1x2048.size (by sl_kernel_rfl) y

/-- What case C leaves in the output block. -/
def out1_C_2 (c : Dev nD) (i : grid1.Coords) (arg2 : Memref sig .tc .vmem S1x1x512 .f32) (harg2 : arg2.IsWhole) (arg3 : Memref sig .tc .vmem S1x512x2048 .f32) (harg3 : arg3.IsWhole) (arg4 : Memref sig .tc .vmem S1x1x2048 .f32) (harg4 : arg4.IsWhole) (arg5 : Memref sig .tc .vmem S1x2048 .f32) (harg5 : arg5.IsWhole) (hc0 : ¬cond1_0 i) (hc1 : cond1_1 i)
    (x0 : Vec F S1x1x512 .f32) (x1 : Vec F S1x512x2048 .f32) (xs0 : Vec F S1x2048 .f32) : Vec F S1x1x2048 .f32 :=
  VO1_2.read (Elt F) (VO1_2.writes (Elt F) VO1_2.junk (kernelRun1_C c i arg2 harg2 arg3 harg3 arg4 harg4 arg5 harg5 hc0 hc1 x0 x1 xs0).1)

/-- Case C's store into the accumulator covers it. -/
theorem scover1_C_0 (c : Dev nD) (i : grid1.Coords) (arg2 : Memref sig .tc .vmem S1x1x512 .f32) (harg2 : arg2.IsWhole) (arg3 : Memref sig .tc .vmem S1x512x2048 .f32) (harg3 : arg3.IsWhole) (arg4 : Memref sig .tc .vmem S1x1x2048 .f32) (harg4 : arg4.IsWhole) (arg5 : Memref sig .tc .vmem S1x2048 .f32) (harg5 : arg5.IsWhole) (hc0 : ¬cond1_0 i) (hc1 : cond1_1 i)
    (x0 : Vec F S1x1x512 .f32) (x1 : Vec F S1x512x2048 .f32) (xs0 : Vec F S1x2048 .f32) (y : S1x2048.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S1x2048.size (by sl_kernel_rfl) y

/-- What case C leaves in the accumulator. -/
def sout1_C_0 (c : Dev nD) (i : grid1.Coords) (arg2 : Memref sig .tc .vmem S1x1x512 .f32) (harg2 : arg2.IsWhole) (arg3 : Memref sig .tc .vmem S1x512x2048 .f32) (harg3 : arg3.IsWhole) (arg4 : Memref sig .tc .vmem S1x1x2048 .f32) (harg4 : arg4.IsWhole) (arg5 : Memref sig .tc .vmem S1x2048 .f32) (harg5 : arg5.IsWhole) (hc0 : ¬cond1_0 i) (hc1 : cond1_1 i)
    (x0 : Vec F S1x1x512 .f32) (x1 : Vec F S1x512x2048 .f32) (xs0 : Vec F S1x2048 .f32) : Vec F S1x2048 .f32 :=
  VS1.read (Elt F) (VS1.writes (Elt F) VS1.junk (kernelRun1_C c i arg2 harg2 arg3 harg3 arg4 harg4 arg5 harg5 hc0 hc1 x0 x1 xs0).2.1)

section Region1

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The accumulation, position by position -/

/-- (output block, accumulator) after the body at grid position `n`. -/
def outsAt1 (c : Dev nD) : (n : ℕ) → n < cfg1.N → Vec F S1x1x2048 .f32 × Vec F S1x2048 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩),
      sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      if h1 : (n + 1) % 4 = 3 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩),
          sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 4 = 3 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2,
          sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2,
          sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- At a position of case A. -/
theorem outsAt1_A (c : Dev nD) (t : Fin cfg1.N) (h0 : t.val % 4 = 0) (h1 : ¬t.val % 4 = 3) :
    outsAt1 V c t.val t.isLt = (out1_A_2 c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t),
      sout1_A_0 c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- At a position of case B: over what the position before left. -/
theorem outsAt1_B (c : Dev nD) (t : Fin cfg1.N) (h0 : ¬t.val % 4 = 0) (h1 : ¬t.val % 4 = 3) :
    outsAt1 V c t.val t.isLt = (out1_B_2 c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2,
      sout1_B_0 c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a position of case C: over what the position before left. -/
theorem outsAt1_C (c : Dev nD) (t : Fin cfg1.N) (h0 : ¬t.val % 4 = 0) (h1 : t.val % 4 = 3) :
    outsAt1 V c t.val t.isLt = (out1_C_2 c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2,
      sout1_C_0 c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position 0 the class invariant; before position n + 1 the accumulator at what position n left. -/
def PhiS1 (c : Dev nD) : (n : ℕ) → n ≤ cfg1.N → sProp 𝕄
  | 0, _ => Pipeline.ΦA spec1 c
  | n + 1, hn => iprop(restR1 c ∗ owns (c : Thread nD τ) scM1 fullShare ((outsAt1 V c n hn).2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(restR1 c ∗ owns (c : Thread nD τ) scM1 fullShare ((outsAt1 V c n hn).2) ∗ (∃ r, prngReg c r)) := rfl

theorem PhiS1_pos (c : Dev nD) (n : ℕ) (h : n ≤ cfg1.N) (hz : n ≠ 0) :
    PhiS1 V c n h = iprop(restR1 c ∗ owns (c : Thread nD τ) scM1 fullShare ((outsAt1 V c (n - 1) (by omega)).2) ∗ (∃ r, prngReg c r)) := by
  cases n with
  | zero => exact absurd rfl hz
  | succ n => rfl

/-! ## The proof data -/

/-- The arrays as the region finds them; after the body each input's buffer at its block and the output's at
    `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any position: the inputs' memrefs hold their blocks; the position's residue mod 4 says which
    case it is; the invariant hands the body the accumulator at what the position before left (at anything at the
    first position) and takes it back at this position's contents; where the output is idle its buffer comes back
    as it was found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 4 = 0
  · by_cases h1 : t.val % 4 = 3
    · exfalso; omega
    · rw [Dat.leavesExact_idle (dat1 V c) 2 t (idleAt1_2 t (fun h => h1 ((hcond1_1 t).mp h))) (noFlush1_2 t (fun h => h1 ((hcond1_1 t).mp h)))]
      rw [outsAt1_A V c t h0 h1]
      unfold sout1_A_0; (try dsimp only)
      by_cases hz : t.val = 0
      · rw [PhiS1_castSucc V c t, PhiS1_zero V c _ _ hz]
        iintro ⟨HΦ, Ho, ⟨%d0, H0⟩, ⟨%d1, H1⟩, ⟨%d2, H2⟩⟩
        ihave HΦ' := (PhiA1_out c) $$ HΦ
        icases HΦ' with ⟨HR, HS0, Hg⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HR HS0 Hg]
        · isplitl [HR]; · iexact HR
          isplitl [HS0]
          · unfold owns; iexists _; isplitr
            swap; · iexact HS0
            ipureintro; exact View.read_writes_of_cover _ _ _ _ _ (scover1_A_0 c _ _ _ _ _ _ _ _ _ _ _ _ _)
          iexact Hg
        isplitl [Ho]; · iexact Ho
        isplitl [H0]; · iexact H0
        isplitl [H1]; · iexact H1
        iexists _; iexact H2
      · rw [PhiS1_castSucc V c t, PhiS1_pos V c _ _ hz]
        iintro ⟨⟨HR, HS0, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HR HS0 Hg]
        · isplitl [HR]; · iexact HR
          isplitl [HS0]
          · unfold owns; iexists _; isplitr
            swap; · iexact HS0
            ipureintro; exact View.read_writes_of_cover _ _ _ _ _ (scover1_A_0 c _ _ _ _ _ _ _ _ _ _ _ _ _)
          iexact Hg
        isplitl [Ho]; · iexact Ho
        isplitl [H0]; · iexact H0
        isplitl [H1]; · iexact H1
        iexists _; iexact H2
  · have hz : t.val ≠ 0 := fun h => h0 (by rw [h])
    by_cases h1 : t.val % 4 = 3
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C_2 sout1_C_0; (try dsimp only)
      rw [PhiS1_castSucc V c t, PhiS1_pos V c _ _ hz]
      iintro ⟨⟨HR, HS0, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HR HS0 Hg]
      · isplitl [HR]; · iexact HR
        isplitl [HS0]
        · unfold owns; iexists _; isplitr
          swap; · iexact HS0
          ipureintro; exact View.read_writes_of_cover _ _ _ _ _ (scover1_C_0 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B_0; (try dsimp only)
      rw [PhiS1_castSucc V c t, PhiS1_pos V c _ _ hz]
      iintro ⟨⟨HR, HS0, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HR HS0 Hg]
      · isplitl [HR]; · iexact HR
        isplitl [HS0]
        · unfold owns; iexists _; isplitr
          swap; · iexact HS0
          ipureintro; exact View.read_writes_of_cover _ _ _ _ _ (scover1_B_0 c _ _ _ _ _ _ _ _ _ _ _ _ _ _)
        iexact Hg
      isplitl [Ho]; · iexact Ho
      isplitl [H0]; · iexact H0
      isplitl [H1]; · iexact H1
      iexists _; iexact H2

/-- The body obligation, at every position. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first position. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last position the invariant gives the class invariant back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega)]
  iintro ⟨HR, HS0, Hg⟩
  iapply (PhiA1_in c)
  isplitl [HR]; · iexact HR
  isplitl [HS0]; · iexists _; iexact HS0
  iexact Hg

end Region1

end Cert.KernelIdeal.Hand

end
-- ==== Proof.KIRun.lean ====
/-
  @main of the kernel program as four segments — the six host operations that transpose the weights, the energies
  region, the fourteen host operations of the softmax, the context region — and its run from the launch to the
  return.

  The contents of the unscoped buffers at each boundary are a fold from the launch memory: a host stretch applies
  its operations; a region leaves its arrays at what its write-backs leave and every other buffer as it found it.
  Every weakly fair execution terminates, and the final memory holds each unscoped buffer at the last boundary's
  contents `W4`: the arguments as launched, the attention weights at the softmax of what the first region left, the
  context at what the second region left.
-/
import proofs.«414879_j37280316129367_1_alg».proof.Proof.KIRegion0
import proofs.«414879_j37280316129367_1_alg».proof.Proof.KIRegion1
import proofs.«414879_j37280316129367_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the weight transposes (the energies region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the energies region's exit. -/
def W2 (c : Dev nD) : Valuation τ sig (Elt F) :=
  Pipeline.withArrays spec0 c (W1 m c) fun w => (dat0 (V1 m) c).arrAt w (cfgM0 (V1 m)).N
theorem W2_arr (c : Dev nD) (w : Fin (cfgM0 (V1 m)).W) :
    W2 m c (Proc.devRef .tc (Pipeline.arrRef spec0 w)) = (dat0 (V1 m) c).arrAt w (cfgM0 (V1 m)).N := by
  unfold W2; exact Pipeline.withArrays_arr spec0 winFacts0.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin (cfgM0 (V1 m)).W) : (dat0 (V1 m) c).arrAt w (cfgM0 (V1 m)).N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the softmax (the context region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the context region's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 winFacts1.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## No segment changes a buffer it does not write -/

theorem W1_of (c : Dev nD) (r : Ref sig .tc) (h : r ∉ hostOps0_W) : W1 m c (Proc.devRef .tc r) = W0 m c (Proc.devRef .tc r) :=
  StableHlo.after_of_writes_sub hostOps0 _ hostOps0_writes h
theorem W3_of (c : Dev nD) (r : Ref sig .tc) (h : r ∉ hostOps1_W) : W3 m c (Proc.devRef .tc r) = W2 m c (Proc.devRef .tc r) :=
  StableHlo.after_of_writes_sub hostOps1 _ hostOps1_writes h

/-! ## The proof data family and the thread state -/

/-- The admissible table contents of each pipeline: the length table as the energies region finds it; none for the
    context region. -/
abbrev adm : (p : Fin 2) → (pcfgs (F := F) p).Adm
  | ⟨0, _⟩ => adm0 (V1 m)
  | ⟨1, _⟩ => cfg1.toPCfg_adm
/-- Every pipeline's proof data, each at its region's entry contents. -/
def pdats : (p : Fin 2) → (c : Dev nD) → Dat τ (Elt F) Unit ℕ (UR sig nD τ) ℕ (Pipeline.pin (pcfgs (F := F)) (adm m) p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The energies region: entered from every unscoped buffer at `W1`, left at `W2`.  Its arrays and the length
    table are split out of the unscoped buffers at entry and put back at exit; the table rides the invariant whole. -/
def reg0 : Pipeline.RegionSeg (pcfgs (F := F)) (adm m) (pdats m) () defs₀ 𝒱₀ L lv 0 where
  win := winFacts0.to₀
  block_pos := block_pos0
  stage_whole := stage_whole0
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop((∃ r, prngReg c r) ∗ Pipeline.prefHeld (Ix := Unit) (Name := ℕ) (U := UR sig nD τ) (Lvl := ℕ) pre0 c (fun _ => fullShare) (tbl0 (V1 m)))
  Z c := Pipeline.unscopedRestP (Ix := Unit) (Name := ℕ) (U := UR sig nD τ) (Lvl := ℕ) pre0 spec0 c (V1 m c)
  hentry c := by
    rw [Pipeline.ownSems0_none]
    have hsplit : (unscopedBufs c (V1 m c) : sProp 𝕄)
        ⊢ iprop((pdats m 0 c).arrays ((pdats m 0 c).arrAt · 0) ∗ Pipeline.unscopedRest spec0 c (V1 m c)) :=
      Pipeline.arrays_of_unscopedBufs (p := 0) (pcfgs (F := F)) (adm m) (pdats m) winFacts0 arr_whole0 c
        ((pdats m 0 c).share_full fun _ => rfl) (V1 m c) fun _ => rfl
    rw [Pipeline.unscopedBufs_held, Pipeline.unscopedRest_split preFacts0 c (V1 m c),
      show (fun k => V1 m c (pre0.ref k)) = tbl0 (V1 m) from funext fun k => V_pre0 (V1 m) c k] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = iprop(Pipeline.ΦA spec0 c ∗ Pipeline.prefHeld (Ix := Unit) (Name := ℕ) (U := UR sig nD τ) (Lvl := ℕ) pre0 c (fun _ => fullShare) (tbl0 (V1 m))) from rfl]
    unfold Pipeline.ΦA
    iintro ⟨Hp, Hpf, Hr⟩
    isplitl [Hr Hp]
    · isplitl [Hr]; · iexact Hr
      iexact Hp
    iexact Hpf
  hout c := by
    rw [Pipeline.ownSems0_none, show (pdats m 0 c).Φ (Fin.last _) = iprop(Pipeline.ΦA spec0 c ∗ Pipeline.prefHeld (Ix := Unit) (Name := ℕ) (U := UR sig nD τ) (Lvl := ℕ) pre0 c (fun _ => fullShare) (tbl0 (V1 m))) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin : iprop((pdats m 0 c).arrays ((pdats m 0 c).arrAt · (cfgM0 (V1 m)).N) ∗ Pipeline.unscopedRest spec0 c (V1 m c))
        ⊢ (unscopedBufs c (V2 m c) : sProp 𝕄) :=
      Pipeline.unscopedBufs_of_arrays (p := 0) (pcfgs (F := F)) (adm m) (Ix := Unit) (Name := ℕ) (U := UR sig nD τ) (Lvl := ℕ)
        winFacts0 arr_whole0 c (pdats m) ((pdats m 0 c).share_full fun _ => rfl)
        (V1 m c) (V2 m c) ((pdats m 0 c).arrAt · (cfgM0 (V1 m)).N) (hF0 m c) (hrest0 m c)
    rw [Pipeline.unscopedBufs_held, Pipeline.unscopedRest_split preFacts0 c (V1 m c),
      show (fun k => V1 m c (pre0.ref k)) = tbl0 (V1 m) from funext fun k => V_pre0 (V1 m) c k] at hjoin
    iintro ⟨Ha, HO, ⟨Hp, Hpf⟩, Hrest⟩
    imodintro
    isplitl [Ha Hpf Hrest]
    · iapply hjoin
      isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

set_option backward.isDefEq.respectTransparency.types false in
/-- The context region: entered from every unscoped buffer at `W3`, left at `W4`.  The class invariant goes in and
    comes back; the accumulator's contents are the region's own business in between. -/
def reg1 : Pipeline.RegionSeg (pcfgs (F := F)) (adm m) (pdats m) () defs₀ 𝒱₀ L lv 1 where
  win := winFacts1.to₀
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) (adm m) (pdats m) winFacts1 arr_whole1 c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V3 m) c)
    unfold Pipeline.ΦA
    iintro ⟨Hp, -, Hr⟩
    isplitl [Hr]; · iexact Hr
    iexact Hp
  hout c := by
    rw [Pipeline.ownSems0_none]
    refine (hout1 (V3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm m) (Ix := Unit) (Name := ℕ) (U := UR sig nD τ) (Lvl := ℕ)
      winFacts1 arr_whole1 c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) (adm m) (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    and the final memory holds every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) (adm m) (pdats m) () (cellOf_inj (adm m)) emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m)) (cellOf_inj (adm m))) (Pipeline.launchToks (Pipeline.pin (pcfgs (F := F)) (adm m)) (cellOf_inj (adm m))))
    (hu₀ := by
      iintro Hu; imodintro
      isplitl [Hu]
      · iapply (show (ownU (initOf (Pipeline.cells (Pipeline.pin (pcfgs (F := F)) (adm m)) (cellOf_inj (adm m))) (Pipeline.launchToks (Pipeline.pin (pcfgs (F := F)) (adm m)) (cellOf_inj (adm m)))) : sProp 𝕄)
            ⊢ BI.own (emb₁ (initOf (Pipeline.cells (Pipeline.pin (pcfgs (F := F)) (adm m)) (cellOf_inj (adm m))) (Pipeline.launchToks (Pipeline.pin (pcfgs (F := F)) (adm m)) (cellOf_inj (adm m))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-! ## The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of m c main_arg0 (by decide)
    _ = W1 m c (Proc.devRef .tc main_arg0) := (W2_arr m c 1).trans (((dat0 (V1 m) c).arrAt_in 1 rfl _).trans (A_eq0 (V1 m) c 1))
    _ = W0 m c (Proc.devRef .tc main_arg0) := W1_of m c main_arg0 (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := (W4_arr m c 1).trans (((dat1 (V3 m) c).arrAt_in 1 rfl _).trans (A_eq1 (V3 m) c 1))
    _ = W2 m c (Proc.devRef .tc main_arg1) := W3_of m c main_arg1 (by decide)
    _ = W1 m c (Proc.devRef .tc main_arg1) := (W2_arr m c 0).trans (((dat0 (V1 m) c).arrAt_in 0 rfl _).trans (A_eq0 (V1 m) c 0))
    _ = W0 m c (Proc.devRef .tc main_arg1) := W1_of m c main_arg1 (by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := W3_of m c main_arg2 (by decide)
    _ = W1 m c (Proc.devRef .tc main_arg2) := W2_of_ne m c main_arg2 (by decide)
    _ = W0 m c (Proc.devRef .tc main_arg2) := W1_of m c main_arg2 (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := W3_of m c main_arg3 (by decide)
    _ = W1 m c (Proc.devRef .tc main_arg3) := W2_of_ne m c main_arg3 (by decide)
    _ = W0 m c (Proc.devRef .tc main_arg3) := W1_of m c main_arg3 (by decide)
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := W3_of m c main_arg4 (by decide)
    _ = W1 m c (Proc.devRef .tc main_arg4) := W2_of_ne m c main_arg4 (by decide)
    _ = W0 m c (Proc.devRef .tc main_arg4) := W1_of m c main_arg4 (by decide)
    _ = m ((c : Thread nD τ).loc main_arg4) := rfl
theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := W3_of m c main_arg5 (by decide)
    _ = W1 m c (Proc.devRef .tc main_arg5) := W2_of_ne m c main_arg5 (by decide)
    _ = W0 m c (Proc.devRef .tc main_arg5) := W1_of m c main_arg5 (by decide)
    _ = m ((c : Thread nD τ).loc main_arg5) := rfl

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c)⟩) (run m ρ)

end Cert.KernelIdeal.Hand

end
-- ==== Proof.KIHost.lean ====
/-
  The host operations of the kernel program read at the ideal instance: the three weight windows of the energies
  region hold the transposed weights (a change of float format is the identity on extended reals), and the
  attention weights the context region reads are the softmax — the program's own chain of host operations (eleven, over three
  constants), carried as one function and never opened — of what the energies region left.
-/
import proofs.«414879_j37280316129367_1_alg».proof.Proof.KIRun
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.HandValue

open Idealize.ShloMosaic Idealize.ShloMosaic.TcCoe Idealize.SL.Sem Idealize.ShloMosaic.StableHlo
open Idealize.ShloMosaic.ValueIdx
open Cert.KernelIdeal Cert.KernelIdeal.Gen Cert.KernelIdeal.Hand

/-- The softmax along the last axis exactly as the program's host operations spell it: the maximum along the axis
    (a fold from −∞, then a maximum with a −∞ constant), broadcast back and subtracted, the exponential, its sum
    along the axis from 0, broadcast back, and the quotient. -/
def softmaxK (x : FVec Ideal S32x1x2048 .f32) : FVec Ideal S32x1x2048 .f32 :=
  Host.divf (F := Ideal) (Host.exp (F := Ideal) (subf x (broadcastInDim S32x1x2048 ![0, 1, 2] bcast_S32x1x1_S32x1x2048_0_1_2 (broadcastInDim S32x1x1 ![0, 1] bcast_S32x1_S32x1x1_0_1 (maximumf (broadcastInDim S32x1 ![] bcast_S_S32x1 (constant (F := Ideal) S_ .f32 0xFF800000#32)) (Host.reduce FloatOps.maximumf x (constant (F := Ideal) S_ .f32 0xFF800000#32) reducesTo_S32x1x2048_S32x1_d2 h_S_)))))) (broadcastInDim S32x1x2048 ![0, 1, 2] bcast_S32x1x1_S32x1x2048_0_1_2 (broadcastInDim S32x1x1 ![0, 1] bcast_S32x1_S32x1x1_0_1 (Host.reduceAdd (F := Ideal) (Host.exp (F := Ideal) (subf x (broadcastInDim S32x1x2048 ![0, 1, 2] bcast_S32x1x1_S32x1x2048_0_1_2 (broadcastInDim S32x1x1 ![0, 1] bcast_S32x1_S32x1x1_0_1 (maximumf (broadcastInDim S32x1 ![] bcast_S_S32x1 (constant (F := Ideal) S_ .f32 0xFF800000#32)) (Host.reduce FloatOps.maximumf x (constant (F := Ideal) S_ .f32 0xFF800000#32) reducesTo_S32x1x2048_S32x1_d2 h_S_)))))) (constant (F := Ideal) S_ .f32 0x00000000#32) reducesTo_S32x1x2048_S32x1_d2 h_S_)))

variable (m : (ℓ : Loc nD τ sig) → Buf (Elt Ideal) ℓ)

/-- The encoder weight window holds the transposed encoder weights. -/
theorem V1_main_v1 (c : Dev nD) (e : Fin 2048) (h : Fin 1024) :
    (Hand.V1 m c main_v1 : S2048x1024.Idx → EReal) (ix2 e h) = (m ((c : Thread nD τ).loc main_arg3) : S1024x2048.Idx → EReal) (ix2 h e) := by
  have hv : (Hand.V1 m c main_v1 : S2048x1024.Idx → EReal)
      = (truncf (F := Ideal) .bf16 (transpose S2048x1024 [1, 0] (m ((c : Thread nD τ).loc main_arg3) : S1024x2048.Idx → EReal) transposes_S1024x2048_S2048x1024_1_0) bitsLt_bf16_f32 : FVec Ideal S2048x1024 .bf16) := by
    show StableHlo.after hostOps0 (fun b => m (c, b)) (Proc.devRef .tc main_v1) = _
    after_results
  rw [hv]
  exact transpose_ix2_apply _ _ e h

/-- The decoder weight window holds the transposed decoder weights. -/
theorem V1_main_v3 (c : Dev nD) (d h : Fin 1024) :
    (Hand.V1 m c main_v3 : S1024x1024.Idx → EReal) (ix2 d h) = (m ((c : Thread nD τ).loc main_arg4) : S1024x1024.Idx → EReal) (ix2 h d) := by
  have hv : (Hand.V1 m c main_v3 : S1024x1024.Idx → EReal)
      = (truncf (F := Ideal) .bf16 (transpose S1024x1024 [1, 0] (m ((c : Thread nD τ).loc main_arg4) : S1024x1024.Idx → EReal) transposes_S1024x1024_S1024x1024_1_0) bitsLt_bf16_f32 : FVec Ideal S1024x1024 .bf16) := by
    show StableHlo.after hostOps0 (fun b => m (c, b)) (Proc.devRef .tc main_v3) = _
    after_results
  rw [hv]
  exact transpose_ix2_apply _ _ d h

/-- The energy vector's window holds the transposed energy vector. -/
theorem V1_main_v5 (c : Dev nD) (h : Fin 1024) :
    (Hand.V1 m c main_v5 : S1024x1.Idx → EReal) (ix2 h (0 : Fin 1)) = (m ((c : Thread nD τ).loc main_arg5) : S1x1024.Idx → EReal) (ix2 (0 : Fin 1) h) := by
  have hv : (Hand.V1 m c main_v5 : S1024x1.Idx → EReal)
      = (truncf (F := Ideal) .bf16 (transpose S1024x1 [1, 0] (m ((c : Thread nD τ).loc main_arg5) : S1x1024.Idx → EReal) transposes_S1x1024_S1024x1_1_0) bitsLt_bf16_f32 : FVec Ideal S1024x1 .bf16) := by
    show StableHlo.after hostOps0 (fun b => m (c, b)) (Proc.devRef .tc main_v5) = _
    after_results
  rw [hv]
  exact transpose_ix2_apply _ _ h (0 : Fin 1)

/-- The arguments reach the energies region as launched. -/
theorem V1_main_arg0 (c : Dev nD) : Hand.V1 m c main_arg0 = m ((c : Thread nD τ).loc main_arg0) := W1_of m c main_arg0 (by decide)
theorem V1_main_arg1 (c : Dev nD) : Hand.V1 m c main_arg1 = m ((c : Thread nD τ).loc main_arg1) := W1_of m c main_arg1 (by decide)
theorem V1_main_arg2 (c : Dev nD) : Hand.V1 m c main_arg2 = m ((c : Thread nD τ).loc main_arg2) := W1_of m c main_arg2 (by decide)

/-- The encoder states reach the context region as launched. -/
theorem V3_main_arg1 (c : Dev nD) : Hand.V3 m c main_arg1 = m ((c : Thread nD τ).loc main_arg1) :=
  calc W3 m c (Proc.devRef .tc main_arg1)
    _ = W2 m c (Proc.devRef .tc main_arg1) := W3_of m c main_arg1 (by decide)
    _ = W1 m c (Proc.devRef .tc main_arg1) := (W2_arr m c 0).trans (((dat0 (Hand.V1 m) c).arrAt_in 0 rfl _).trans (A_eq0 (Hand.V1 m) c 0))
    _ = W0 m c (Proc.devRef .tc main_arg1) := W1_of m c main_arg1 (by decide)
    _ = m ((c : Thread nD τ).loc main_arg1) := rfl

/-- The attention weights the context region reads are the softmax of what the energies region left. -/
theorem V3_main_v17 (c : Dev nD) :
    (Hand.V3 m c main_v17 : S32x1x2048.Idx → EReal) = softmaxK (Hand.V2 m c main_v6 : S32x1x2048.Idx → EReal) := by
  show StableHlo.after hostOps1 (W2 m c) (Proc.devRef .tc main_v17) = _
  after_results; rfl

/-- The attention weights end at what the context region read: an input window's array is unchanged. -/
theorem W4_main_v17 (c : Dev nD) : W4 m c (Proc.devRef .tc main_v17) = Hand.V3 m c main_v17 :=
  (W4_arr m c 0).trans (((dat1 (Hand.V3 m) c).arrAt_in 0 rfl _).trans (A_eq1 (Hand.V3 m) c 0))

end Cert.KernelIdeal.HandValue

end
-- ==== Proof.Spec.lean ====
/-
  The attention block both programs compute, written once over the extended reals, index by index.

  With decoder state dec[b, 0, d], encoder states enc[b, s, e], source lengths len[b] and weights
  Wenc[h, e], Wdec[h, d], Wen[0, h]:
    proj   b s h = (Σ_e enc[b,s,e] · Wenc[h,e]) + (Σ_d dec[b,0,d] · Wdec[h,d])
    score  b s   = Σ_h tanh (proj b s h) · Wen[0,h]
    energy b s   = score b s  if s < len[b] (signed 32-bit compare)   else −∞
  The attention weights are a softmax of the energies along s (the same chain of host operations in
  both programs, never opened here), and the context is
    context b e  = Σ_s alpha[b,0,s] · enc[b,s,e].
-/
import Idealize.ShloMosaic.PureOps.Ideal
import Idealize.ShloMosaic.Lib.ValueIdx

noncomputable section

namespace Cert.Attn

open Idealize.ShloMosaic Idealize.ShloMosaic.ValueIdx

abbrev SDec : Shape := ⟨3, ![32, 1, 1024]⟩
abbrev SEnc : Shape := ⟨3, ![32, 2048, 2048]⟩
abbrev SLen : Shape := ⟨1, ![32]⟩
abbrev SWenc : Shape := ⟨2, ![1024, 2048]⟩
abbrev SWdec : Shape := ⟨2, ![1024, 1024]⟩
abbrev SWen : Shape := ⟨2, ![1, 1024]⟩
abbrev SOut : Shape := ⟨3, ![32, 1, 2048]⟩

/-- The pre-activation of hidden unit `h` at batch `b`, source position `s`: the encoder projection plus the
    decoder projection. -/
def proj (dec : SDec.Idx → EReal) (enc : SEnc.Idx → EReal) (Wenc : SWenc.Idx → EReal) (Wdec : SWdec.Idx → EReal)
    (b : Fin 32) (s : Fin 2048) (h : Fin 1024) : EReal :=
  (∑ e : Fin 2048, enc (ix3 b s e) * Wenc (ix2 h e)) + ∑ d : Fin 1024, dec (ix3 b (0 : Fin 1) d) * Wdec (ix2 h d)

/-- The unmasked attention score at batch `b`, source position `s`. -/
def score (dec : SDec.Idx → EReal) (enc : SEnc.Idx → EReal) (Wenc : SWenc.Idx → EReal) (Wdec : SWdec.Idx → EReal)
    (Wen : SWen.Idx → EReal) (b : Fin 32) (s : Fin 2048) : EReal :=
  ∑ h : Fin 1024, Ideal.tanh (proj dec enc Wenc Wdec b s h) * Wen (ix2 (0 : Fin 1) h)

/-- The masked energy: the score where the position lies before the source length (signed compare of 32-bit
    words), −∞ elsewhere. -/
def energyAt (dec : SDec.Idx → EReal) (enc : SEnc.Idx → EReal) (len : SLen.Idx → BitVec 32) (Wenc : SWenc.Idx → EReal)
    (Wdec : SWdec.Idx → EReal) (Wen : SWen.Idx → EReal) (b : Fin 32) (s : Fin 2048) : EReal :=
  Scalar.select (Scalar.cmpi .slt (BitVec.ofNat 32 s.val) (len (ix1 b))) (score dec enc Wenc Wdec Wen b s) ⊥

/-- The energies as an array [32, 1, 2048]. -/
def energies (dec : SDec.Idx → EReal) (enc : SEnc.Idx → EReal) (len : SLen.Idx → BitVec 32) (Wenc : SWenc.Idx → EReal)
    (Wdec : SWdec.Idx → EReal) (Wen : SWen.Idx → EReal) : SOut.Idx → EReal :=
  fun j => energyAt dec enc len Wenc Wdec Wen (j 0) (j 2)

theorem energies_ix3 (dec : SDec.Idx → EReal) (enc : SEnc.Idx → EReal) (len : SLen.Idx → BitVec 32) (Wenc : SWenc.Idx → EReal)
    (Wdec : SWdec.Idx → EReal) (Wen : SWen.Idx → EReal) (b : Fin 32) (o : Fin 1) (s : Fin 2048) :
    energies dec enc len Wenc Wdec Wen (ix3 b o s) = energyAt dec enc len Wenc Wdec Wen b s := rfl

/-- The context at batch `b`, feature `e`: the attention weights against the encoder states. -/
def contextAt (al : SOut.Idx → EReal) (enc : SEnc.Idx → EReal) (b : Fin 32) (e : Fin 2048) : EReal :=
  ∑ s : Fin 2048, al (ix3 b (0 : Fin 1) s) * enc (ix3 b s e)

/-- The context as an array [32, 1, 2048]. -/
def context (al : SOut.Idx → EReal) (enc : SEnc.Idx → EReal) : SOut.Idx → EReal :=
  fun j => contextAt al enc (j 0) (j 2)

theorem context_ix3 (al : SOut.Idx → EReal) (enc : SEnc.Idx → EReal) (b : Fin 32) (o : Fin 1) (e : Fin 2048) :
    context al enc (ix3 b o e) = contextAt al enc b e := rfl

end Cert.Attn

end
-- ==== Proof.KIValue0Pay.lean ====
/-
  The energies kernel's output block at a grid point, at the ideal instance (floats are extended reals).

  Grid point t = 4·b + j handles batch row b and source block j.  What the body leaves in its output block
  [1, 1, 512] is ONE stored piece: its arithmetic on the five input blocks it loaded and on one word of the
  length table.  This module reads that piece at a lane k, index by index:
    * the three contractions are sums over their one contracted axis, with nothing accumulated into (the
      accumulator is the zero splat); the narrowing format changes are the identity on extended reals; the
      shape casts and the row broadcast only re-index;
    * the lane's position is the word 512·j + k (sums and products of 32-bit words are those of the naturals,
      reduced), and the fill constant is −∞ by the program's table of named constants;
    * the encoder block at t is rows 512·j … 512·j + 511 of batch row b, the decoder block is batch row b's one
      row, the three weight windows are their whole arrays, and the table word is entry b;
  so that, when the weight windows hold the transposed weights, lane k of the block after point t is the
  specification's masked energy at (b, 0, 512·j + k).
-/
import proofs.«414879_j37280316129367_1_alg».proof.Proof.KIRegion0
import proofs.«414879_j37280316129367_1_alg».proof.Proof.Spec
import Idealize.ShloMosaic.Lib.Pipeline.Value
import Idealize.ShloMosaic.Lib.ValueIdx
import Idealize.ShloMosaic.PureOps.Ideal.Laws
import Idealize.ShloMosaic.PureOps.IdealRules

set_option maxRecDepth 16384

noncomputable section

namespace Cert.KernelIdeal.HandValue.Block

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.KernelIdeal.Hand

section AnyInstance
variable {F : FTy → Type} [FloatOps F] [Named F]

/-! ## The output block is the payload of the loaded blocks and the table's word -/

theorem zeros3 : (![0, 0, 0] : Fin 3 → Nat) = fun _ => 0 := funext fun a => by fin_cases a <;> rfl
theorem zeros2 : (![0, 0] : Fin 2 → Nat) = fun _ => 0 := funext fun a => by fin_cases a <;> rfl

/-- The word of the length table the body reads at grid point `i`: the one element under the unit rectangle at the
    batch row's offset. -/
def word0 (c : Dev nD) (i : grid0.Coords) (xt : TbBuf0 (F := F) c tbM0) : Elt F .i32 :=
  View.readAt (Elt F) tbM0.view (Rect.unit (s := S32) (k0_off1 i) S1.size (k0_off1_inb i)).toLoadRect xt
    (Shape.Idx.first (numel1_S1.symm ▸ Nat.one_pos))

/-- The run stores one piece over the whole output block: the body's arithmetic on the five loaded blocks and the word. -/
theorem out0_5_eq (c : Dev nD) (i : grid0.Coords) (arg3 : Memref sig .tc .vmem S1x512x2048 .f32) (harg3 : arg3.IsWhole) (arg4 : Memref sig .tc .vmem S1x1x1024 .f32) (harg4 : arg4.IsWhole) (arg5 : Memref sig .tc .vmem S2048x1024 .bf16) (harg5 : arg5.IsWhole) (arg6 : Memref sig .tc .vmem S1024x1024 .bf16) (harg6 : arg6.IsWhole) (arg7 : Memref sig .tc .vmem S1024x1 .bf16) (harg7 : arg7.IsWhole) (arg8 : Memref sig .tc .vmem S1x1x512 .f32) (harg8 : arg8.IsWhole)
    (x0 : Vec F S1x512x2048 .f32) (x1 : Vec F S1x1x1024 .f32) (x2 : Vec F S2048x1024 .bf16) (x3 : Vec F S1024x1024 .bf16) (x4 : Vec F S1024x1 .bf16) (xt : TbBuf0 (F := F) c tbM0) :
    out0_5 c i arg3 harg3 arg4 harg4 arg5 harg5 arg6 harg6 arg7 harg7 arg8 harg8 x0 x1 x2 x3 x4 xt = k0_pay1 i x0 x2 x1 x3 x4 (word0 c i xt) := by
  unfold out0_5
  rw [View.read_writes_eq_canon _ _ _ (cover0_5 c i arg3 harg3 arg4 harg4 arg5 harg5 arg6 harg6 arg7 harg7 arg8 harg8 x0 x1 x2 x3 x4 xt)]
  unfold kernelRun0
  dsimp only
  sl_unfold_run_names
  rw [View.canon_unit_zero zeros3]
  simp only [View.readAt_eq_ld, harg3.read_unread, harg4.read_unread, harg5.read_unread, harg6.read_unread, harg7.read_unread,
    View.ld_unit_zero (S := S1x512x2048) zeros3, View.ld_unit_zero (S := S1x1x1024) zeros3, View.ld_unit_zero (S := S2048x1024) zeros2,
    View.ld_unit_zero (S := S1024x1024) zeros2, View.ld_unit_zero (S := S1024x1) zeros2]
  exact congrArg (k0_pay1 i x0 x2 x1 x3 x4) rfl

/-- That word is the table's entry at the batch row: the rectangle's one element sits at offset `i 0`. -/
theorem word0_eq (c : Dev nD) (i : grid0.Coords) (xt : TbBuf0 (F := F) c tbM0) (b : Fin 32) (hb : (i 0).val = b.val) :
    word0 c i xt = xt (ValueIdx.ix1 b) := by
  unfold word0
  rw [View.readAt_apply]
  show xt _ = xt _
  refine congrArg xt (funext fun a => Fin.ext ?_)
  match a with
  | ⟨0, _⟩ =>
    show k0_off1 i 0 + 1 * 0 = b.val
    rw [k0_off1_eq]
    show (i 0).val + 1 * 0 = b.val
    omega

end AnyInstance

/-! ### The enc contraction's operand indices -/

theorem lhs_enc_0 (j : S512x1024.Idx) (q : dot_S512x2048_S2048x1024_S512x1024_1_0_0_1_n_n.contr.Idx) :
    (dot_S512x2048_S2048x1024_S512x1024_1_0_0_1_n_n.lhsIdx j q 0).val = (j 0).val := by
  unfold DotDims.lhsIdx
  rw [dif_neg (show ¬(0 : Fin S512x2048.rank) ∈ dot_S512x2048_S2048x1024_S512x1024_1_0_0_1_n_n.lhsBatch by decide), dif_pos (show (0 : Fin S512x2048.rank) ∈ dot_S512x2048_S2048x1024_S512x1024_1_0_0_1_n_n.lhsNonContracting by decide)]
  rfl
theorem lhs_enc_1 (j : S512x1024.Idx) (q : dot_S512x2048_S2048x1024_S512x1024_1_0_0_1_n_n.contr.Idx) :
    (dot_S512x2048_S2048x1024_S512x1024_1_0_0_1_n_n.lhsIdx j q 1).val = (q ⟨0, by decide⟩).val :=
  dot_S512x2048_S2048x1024_S512x1024_1_0_0_1_n_n.lhsIdx_val_of_single rfl j q
theorem rhs_enc_0 (j : S512x1024.Idx) (q : dot_S512x2048_S2048x1024_S512x1024_1_0_0_1_n_n.contr.Idx) :
    (dot_S512x2048_S2048x1024_S512x1024_1_0_0_1_n_n.rhsIdx j q 0).val = (q ⟨0, by decide⟩).val :=
  dot_S512x2048_S2048x1024_S512x1024_1_0_0_1_n_n.rhsIdx_val_of_single rfl j q
theorem rhs_enc_1 (j : S512x1024.Idx) (q : dot_S512x2048_S2048x1024_S512x1024_1_0_0_1_n_n.contr.Idx) :
    (dot_S512x2048_S2048x1024_S512x1024_1_0_0_1_n_n.rhsIdx j q 1).val = (j 1).val := by
  unfold DotDims.rhsIdx
  rw [dif_neg (show ¬(1 : Fin S2048x1024.rank) ∈ dot_S512x2048_S2048x1024_S512x1024_1_0_0_1_n_n.rhsBatch by decide), dif_pos (show (1 : Fin S2048x1024.rank) ∈ dot_S512x2048_S2048x1024_S512x1024_1_0_0_1_n_n.rhsNonContracting by decide)]
  rfl

/-- The encoder projection's product at an entry: row \`p\` of the block against column \`q\` of the weights, summed over the 2048 features. -/
theorem matmul_enc (l : FVec Ideal S512x2048 .bf16) (r : FVec Ideal S2048x1024 .bf16) (p : Fin 512) (q : Fin 1024) :
    matmul dot_S512x2048_S2048x1024_S512x1024_1_0_0_1_n_n none l r (constant (F := Ideal) S512x1024 .f32 0x00000000#32) (ix2 p q)
      = ∑ e : Fin 2048, l (ix2 p e) * r (ix2 e q) := by
  refine (Ideal.matmul_constant_zero_apply dot_S512x2048_S2048x1024_S512x1024_1_0_0_1_n_n none l r (ix2 p q)).trans ?_
  rw [← Equiv.sum_comp (ValueIdx.contrEquiv1 dot_S512x2048_S2048x1024_S512x1024_1_0_0_1_n_n 2048 rfl rfl).symm]
  refine Finset.sum_congr rfl fun e _ => ?_
  have he := ValueIdx.contrEquiv1_symm_val dot_S512x2048_S2048x1024_S512x1024_1_0_0_1_n_n 2048 rfl rfl e
  have el : dot_S512x2048_S2048x1024_S512x1024_1_0_0_1_n_n.lhsIdx (ix2 p q) ((ValueIdx.contrEquiv1 dot_S512x2048_S2048x1024_S512x1024_1_0_0_1_n_n 2048 rfl rfl).symm e) = ix2 p e := funext fun a => Fin.ext (by
    match a with
    | ⟨0, _⟩ => exact lhs_enc_0 _ _
    | ⟨1, _⟩ => exact (lhs_enc_1 _ _).trans he)
  have er : dot_S512x2048_S2048x1024_S512x1024_1_0_0_1_n_n.rhsIdx (ix2 p q) ((ValueIdx.contrEquiv1 dot_S512x2048_S2048x1024_S512x1024_1_0_0_1_n_n 2048 rfl rfl).symm e) = ix2 e q := funext fun a => Fin.ext (by
    match a with
    | ⟨0, _⟩ => exact (rhs_enc_0 _ _).trans he
    | ⟨1, _⟩ => exact rhs_enc_1 _ _)
  rw [el, er]

/-! ### The dec contraction's operand indices -/

theorem lhs_dec_0 (j : S1x1024.Idx) (q : dot_S1x1024_S1024x1024_S1x1024_1_0_0_1_n_n.contr.Idx) :
    (dot_S1x1024_S1024x1024_S1x1024_1_0_0_1_n_n.lhsIdx j q 0).val = (j 0).val := by
  unfold DotDims.lhsIdx
  rw [dif_neg (show ¬(0 : Fin S1x1024.rank) ∈ dot_S1x1024_S1024x1024_S1x1024_1_0_0_1_n_n.lhsBatch by decide), dif_pos (show (0 : Fin S1x1024.rank) ∈ dot_S1x1024_S1024x1024_S1x1024_1_0_0_1_n_n.lhsNonContracting by decide)]
  rfl
theorem lhs_dec_1 (j : S1x1024.Idx) (q : dot_S1x1024_S1024x1024_S1x1024_1_0_0_1_n_n.contr.Idx) :
    (dot_S1x1024_S1024x1024_S1x1024_1_0_0_1_n_n.lhsIdx j q 1).val = (q ⟨0, by decide⟩).val :=
  dot_S1x1024_S1024x1024_S1x1024_1_0_0_1_n_n.lhsIdx_val_of_single rfl j q
theorem rhs_dec_0 (j : S1x1024.Idx) (q : dot_S1x1024_S1024x1024_S1x1024_1_0_0_1_n_n.contr.Idx) :
    (dot_S1x1024_S1024x1024_S1x1024_1_0_0_1_n_n.rhsIdx j q 0).val = (q ⟨0, by decide⟩).val :=
  dot_S1x1024_S1024x1024_S1x1024_1_0_0_1_n_n.rhsIdx_val_of_single rfl j q
theorem rhs_dec_1 (j : S1x1024.Idx) (q : dot_S1x1024_S1024x1024_S1x1024_1_0_0_1_n_n.contr.Idx) :
    (dot_S1x1024_S1024x1024_S1x1024_1_0_0_1_n_n.rhsIdx j q 1).val = (j 1).val := by
  unfold DotDims.rhsIdx
  rw [dif_neg (show ¬(1 : Fin S1024x1024.rank) ∈ dot_S1x1024_S1024x1024_S1x1024_1_0_0_1_n_n.rhsBatch by decide), dif_pos (show (1 : Fin S1024x1024.rank) ∈ dot_S1x1024_S1024x1024_S1x1024_1_0_0_1_n_n.rhsNonContracting by decide)]
  rfl

/-- The decoder projection's product at an entry: the one decoder row against column \`q\` of the weights. -/
theorem matmul_dec (l : FVec Ideal S1x1024 .bf16) (r : FVec Ideal S1024x1024 .bf16) (p : Fin 1) (q : Fin 1024) :
    matmul dot_S1x1024_S1024x1024_S1x1024_1_0_0_1_n_n none l r (constant (F := Ideal) S1x1024 .f32 0x00000000#32) (ix2 p q)
      = ∑ e : Fin 1024, l (ix2 p e) * r (ix2 e q) := by
  refine (Ideal.matmul_constant_zero_apply dot_S1x1024_S1024x1024_S1x1024_1_0_0_1_n_n none l r (ix2 p q)).trans ?_
  rw [← Equiv.sum_comp (ValueIdx.contrEquiv1 dot_S1x1024_S1024x1024_S1x1024_1_0_0_1_n_n 1024 rfl rfl).symm]
  refine Finset.sum_congr rfl fun e _ => ?_
  have he := ValueIdx.contrEquiv1_symm_val dot_S1x1024_S1024x1024_S1x1024_1_0_0_1_n_n 1024 rfl rfl e
  have el : dot_S1x1024_S1024x1024_S1x1024_1_0_0_1_n_n.lhsIdx (ix2 p q) ((ValueIdx.contrEquiv1 dot_S1x1024_S1024x1024_S1x1024_1_0_0_1_n_n 1024 rfl rfl).symm e) = ix2 p e := funext fun a => Fin.ext (by
    match a with
    | ⟨0, _⟩ => exact lhs_dec_0 _ _
    | ⟨1, _⟩ => exact (lhs_dec_1 _ _).trans he)
  have er : dot_S1x1024_S1024x1024_S1x1024_1_0_0_1_n_n.rhsIdx (ix2 p q) ((ValueIdx.contrEquiv1 dot_S1x1024_S1024x1024_S1x1024_1_0_0_1_n_n 1024 rfl rfl).symm e) = ix2 e q := funext fun a => Fin.ext (by
    match a with
    | ⟨0, _⟩ => exact (rhs_dec_0 _ _).trans he
    | ⟨1, _⟩ => exact rhs_dec_1 _ _)
  rw [el, er]

/-! ### The en contraction's operand indices -/

theorem lhs_en_0 (j : S512x1.Idx) (q : dot_S512x1024_S1024x1_S512x1_1_0_0_1_n_n.contr.Idx) :
    (dot_S512x1024_S1024x1_S512x1_1_0_0_1_n_n.lhsIdx j q 0).val = (j 0).val := by
  unfold DotDims.lhsIdx
  rw [dif_neg (show ¬(0 : Fin S512x1024.rank) ∈ dot_S512x1024_S1024x1_S512x1_1_0_0_1_n_n.lhsBatch by decide), dif_pos (show (0 : Fin S512x1024.rank) ∈ dot_S512x1024_S1024x1_S512x1_1_0_0_1_n_n.lhsNonContracting by decide)]
  rfl
theorem lhs_en_1 (j : S512x1.Idx) (q : dot_S512x1024_S1024x1_S512x1_1_0_0_1_n_n.contr.Idx) :
    (dot_S512x1024_S1024x1_S512x1_1_0_0_1_n_n.lhsIdx j q 1).val = (q ⟨0, by decide⟩).val :=
  dot_S512x1024_S1024x1_S512x1_1_0_0_1_n_n.lhsIdx_val_of_single rfl j q
theorem rhs_en_0 (j : S512x1.Idx) (q : dot_S512x1024_S1024x1_S512x1_1_0_0_1_n_n.contr.Idx) :
    (dot_S512x1024_S1024x1_S512x1_1_0_0_1_n_n.rhsIdx j q 0).val = (q ⟨0, by decide⟩).val :=
  dot_S512x1024_S1024x1_S512x1_1_0_0_1_n_n.rhsIdx_val_of_single rfl j q
theorem rhs_en_1 (j : S512x1.Idx) (q : dot_S512x1024_S1024x1_S512x1_1_0_0_1_n_n.contr.Idx) :
    (dot_S512x1024_S1024x1_S512x1_1_0_0_1_n_n.rhsIdx j q 1).val = (j 1).val := by
  unfold DotDims.rhsIdx
  rw [dif_neg (show ¬(1 : Fin S1024x1.rank) ∈ dot_S512x1024_S1024x1_S512x1_1_0_0_1_n_n.rhsBatch by decide), dif_pos (show (1 : Fin S1024x1.rank) ∈ dot_S512x1024_S1024x1_S512x1_1_0_0_1_n_n.rhsNonContracting by decide)]
  rfl

/-- The energy contraction at an entry: row \`p\` of the hidden block against the energy vector. -/
theorem matmul_en (l : FVec Ideal S512x1024 .bf16) (r : FVec Ideal S1024x1 .bf16) (p : Fin 512) (q : Fin 1) :
    matmul dot_S512x1024_S1024x1_S512x1_1_0_0_1_n_n none l r (constant (F := Ideal) S512x1 .f32 0x00000000#32) (ix2 p q)
      = ∑ e : Fin 1024, l (ix2 p e) * r (ix2 e q) := by
  refine (Ideal.matmul_constant_zero_apply dot_S512x1024_S1024x1_S512x1_1_0_0_1_n_n none l r (ix2 p q)).trans ?_
  rw [← Equiv.sum_comp (ValueIdx.contrEquiv1 dot_S512x1024_S1024x1_S512x1_1_0_0_1_n_n 1024 rfl rfl).symm]
  refine Finset.sum_congr rfl fun e _ => ?_
  have he := ValueIdx.contrEquiv1_symm_val dot_S512x1024_S1024x1_S512x1_1_0_0_1_n_n 1024 rfl rfl e
  have el : dot_S512x1024_S1024x1_S512x1_1_0_0_1_n_n.lhsIdx (ix2 p q) ((ValueIdx.contrEquiv1 dot_S512x1024_S1024x1_S512x1_1_0_0_1_n_n 1024 rfl rfl).symm e) = ix2 p e := funext fun a => Fin.ext (by
    match a with
    | ⟨0, _⟩ => exact lhs_en_0 _ _
    | ⟨1, _⟩ => exact (lhs_en_1 _ _).trans he)
  have er : dot_S512x1024_S1024x1_S512x1_1_0_0_1_n_n.rhsIdx (ix2 p q) ((ValueIdx.contrEquiv1 dot_S512x1024_S1024x1_S512x1_1_0_0_1_n_n 1024 rfl rfl).symm e) = ix2 e q := funext fun a => Fin.ext (by
    match a with
    | ⟨0, _⟩ => exact (rhs_en_0 _ _).trans he
    | ⟨1, _⟩ => exact rhs_en_1 _ _)
  rw [el, er]

/-! ## The layout operations of the payload, read at an index -/

/-- The encoder block [1, 512, 2048] viewed [512, 2048]: entry (p, e) is the block's (0, p, e). -/
theorem cast_enc {α : Type} (x : S1x512x2048.Idx → α) (p : Fin 512) (e : Fin 2048) :
    shapeCast S512x2048 x shapeCasts_S1x512x2048_S512x2048 (ix2 p e) = x (ix3 (0 : Fin 1) p e) :=
  shapeCast_apply x _ (ix2 p e) (ix3 (0 : Fin 1) p e) (by
    rw [Shape.rowMajor_val_three, Shape.rowMajor_val_two]
    show ((0 : Fin 1).val * 512 + p.val) * 2048 + e.val = p.val * 2048 + e.val
    simp)

/-- The decoder block [1, 1, 1024] viewed [1, 1024]: entry (0, d) is the block's (0, 0, d). -/
theorem cast_dec {α : Type} (x : S1x1x1024.Idx → α) (o : Fin 1) (d : Fin 1024) :
    shapeCast S1x1024 x shapeCasts_S1x1x1024_S1x1024 (ix2 o d) = x (ix3 (0 : Fin 1) (0 : Fin 1) d) :=
  shapeCast_apply x _ (ix2 o d) (ix3 (0 : Fin 1) (0 : Fin 1) d) (by
    rw [Shape.rowMajor_val_three, Shape.rowMajor_val_two]
    show ((0 : Fin 1).val * 1 + (0 : Fin 1).val) * 1024 + d.val = o.val * 1024 + d.val
    simp)

/-- The decoder row [1, 1024] broadcast down the 512 rows. -/
theorem bcast_dec {α : Type} (x : S1x1024.Idx → α) (p : Fin 512) (h : Fin 1024) :
    broadcastTo S512x1024 x broadcasts_S1x1024_S512x1024 (ix2 p h) = x (ix2 (0 : Fin 1) h) :=
  broadcastTo_apply x _ (ix2 p h) (ix2 (0 : Fin 1) h) (fun a => by
    match a with
    | ⟨0, _⟩ => rfl
    | ⟨1, _⟩ => rfl)

/-- The score column [512, 1] viewed [512]. -/
theorem cast_col {α : Type} (x : S512x1.Idx → α) (p : Fin 512) :
    shapeCast S512 x shapeCasts_S512x1_S512 (ix1 p) = x (ix2 p (0 : Fin 1)) :=
  shapeCast_apply x _ (ix1 p) (ix2 p (0 : Fin 1)) (by
    rw [Shape.rowMajor_val_two, Shape.rowMajor_val_one]
    show p.val * 1 + (0 : Fin 1).val = p.val
    simp)

/-- The masked scores [512] stored as the block [1, 1, 512]. -/
theorem cast_out {α : Type} (x : S512.Idx → α) (p : Fin 512) :
    shapeCast S1x1x512 x shapeCasts_S512_S1x1x512 (ix3 (0 : Fin 1) (0 : Fin 1) p) = x (ix1 p) :=
  shapeCast_apply x _ (ix3 (0 : Fin 1) (0 : Fin 1) p) (ix1 p) (by
    rw [Shape.rowMajor_val_three, Shape.rowMajor_val_one]
    show p.val = ((0 : Fin 1).val * 1 + (0 : Fin 1).val) * 512 + p.val
    simp)

/-- The lane counter [1, 512] viewed [512]: lane `p` holds the word `p`. -/
theorem lane_apply (p : Fin 512) :
    shapeCast S512 (iota .tc S1x512 32 [1] iota_S1x512_d1_w32) shapeCasts_S1x512_S512 (ix1 p) = BitVec.ofNat 32 p.val := by
  refine (shapeCast_apply _ _ (ix1 p) (ix2 (0 : Fin 1) p) (by
    rw [Shape.rowMajor_val_two, Shape.rowMajor_val_one]
    show (0 : Fin 1).val * 512 + p.val = p.val
    simp)).trans ?_
  exact iota_single_apply .tc S1x512 32 1 iota_S1x512_d1_w32 (ix2 (0 : Fin 1) p)

/-- A hyperbolic tangent of a vector at an index is the extended reals' of the element. -/
theorem tanh_apply {s : Shape} {φ : FTy} (a : FVec Ideal s φ) (i : s.Idx) : tanh a i = Ideal.tanh (a i) := rfl

/-- The source position of lane `p` of block `j`: the words `j · 512` and `p` add to the word `512 · j + p` (sums and
    products of words are those of the naturals, reduced). -/
theorem pos_apply (j : Nat) (p : Fin 512) :
    addi (broadcast S512 (Scalar.muli (BitVec.ofNat 32 j) 512#32))
        (shapeCast S512 (iota .tc S1x512 32 [1] iota_S1x512_d1_w32) shapeCasts_S1x512_S512) (ix1 p)
      = BitVec.ofNat 32 (512 * j + p.val) := by
  show IntOp.addi (Scalar.muli (BitVec.ofNat 32 j) 512#32) (shapeCast S512 (iota .tc S1x512 32 [1] iota_S1x512_d1_w32) shapeCasts_S1x512_S512 (ix1 p)) = _
  rw [lane_apply]
  show BitVec.ofNat 32 j * BitVec.ofNat 32 512 + BitVec.ofNat 32 p.val = _
  rw [← BitVec.ofNat_mul, ← BitVec.ofNat_add, Nat.mul_comm]

/-- The fill constant is −∞ at the ideal instance, by the program's table of named constants. -/
theorem negBig : Named.named (F := Ideal) κ "neg_big" (φ := .f32) 0xFF333332#32 = (⊥ : EReal) :=
  IdealRules.named_const.ideal_named_scalar _ _ _ _ rfl

/-! ## The payload at an index -/

/-- The body's arithmetic at lane `p` of the output block, at the ideal instance: the score of the block's row `p` —
    over the 1024 hidden units, tanh of the encoder projection plus the decoder projection, against the energy
    vector — where the position `512 · (i 1) + p` lies before the table's word (signed compare), −∞ elsewhere. -/
theorem pay_apply (i : grid0.Coords) (x0 : Vec Ideal S1x512x2048 .f32) (x2 : Vec Ideal S2048x1024 .bf16) (x1 : Vec Ideal S1x1x1024 .f32)
    (x3 : Vec Ideal S1024x1024 .bf16) (x4 : Vec Ideal S1024x1 .bf16) (w : Elt Ideal .i32) (p : Fin 512) :
    k0_pay1 (F := Ideal) i x0 x2 x1 x3 x4 w (ix3 (0 : Fin 1) (0 : Fin 1) p)
      = Scalar.select (Scalar.cmpi .slt (BitVec.ofNat 32 (512 * (i 1).val + p.val)) w)
          (∑ h : Fin 1024, Ideal.tanh ((∑ e : Fin 2048, x0 (ix3 (0 : Fin 1) p e) * x2 (ix2 e h))
              + ∑ d : Fin 1024, x1 (ix3 (0 : Fin 1) (0 : Fin 1) d) * x3 (ix2 d h)) * x4 (ix2 h (0 : Fin 1)))
          ⊥ := by
  unfold k0_pay1
  dsimp only
  refine (cast_out _ p).trans ?_
  refine (select_apply _ _ _ (ix1 p)).trans ?_
  refine congr (congr (congrArg Scalar.select ?_) ?_) ?_
  · exact congrArg (fun a => IntOp.cmpi .slt a w) (pos_apply (i 1).val p)
  · refine (cast_col _ p).trans ?_
    refine (matmul_en _ _ p 0).trans ?_
    refine Finset.sum_congr rfl fun h _ => ?_
    refine congr (congrArg HMul.hMul ?_) ?_
    · refine (truncf_apply (ψ := .bf16) _ bitsLt_bf16_f32 _).trans ?_
      refine (tanh_apply _ _).trans ?_
      refine congrArg Ideal.tanh ?_
      refine (addf_apply _ _ _).trans ?_
      refine congr (congrArg HAdd.hAdd ?_) ?_
      · refine (matmul_enc _ _ p h).trans ?_
        refine Finset.sum_congr rfl fun e _ => ?_
        refine congr (congrArg HMul.hMul ?_) ?_
        · exact (truncf_apply (ψ := .bf16) _ bitsLt_bf16_f32 _).trans (cast_enc x0 p e)
        · exact congrFun (shapeCast_self x2 _) (ix2 e h)
      · refine (bcast_dec _ p h).trans ?_
        refine (matmul_dec _ _ 0 h).trans ?_
        refine Finset.sum_congr rfl fun d _ => ?_
        refine congr (congrArg HMul.hMul ?_) ?_
        · exact (truncf_apply (ψ := .bf16) _ bitsLt_bf16_f32 _).trans (cast_dec x1 0 d)
        · exact congrFun (shapeCast_self x3 _) (ix2 d h)
    · exact congrFun (shapeCast_self x4 _) (ix2 h 0)
  · exact negBig

/-! ## Each input block is its array read where the output's rectangle says -/

/-- The printed index maps in closed form, decided once over the grid's coordinates: the encoder block moves with
    (batch row, source block), the decoder block with the batch row, the three weight windows stay put, and the
    output block moves with (batch row, 0, source block). -/
theorem maps_closed : ∀ i : grid0.Coords,
    cc0_transform_0 i = ![(i 0).val, (i 1).val, 0] ∧ cc0_transform_1 i = ![(i 0).val, 0, 0]
    ∧ cc0_transform_2 i = ![0, 0] ∧ cc0_transform_3 i = ![0, 0] ∧ cc0_transform_4 i = ![0, 0]
    ∧ cc0_transform_5 i = ![(i 0).val, 0, (i 1).val] := by decide +kernel

section Region
variable (V : (c : Dev nD) → (b : Ref sig .tc) → Buf (Elt Ideal) ((c : Thread nD τ).loc b))

/-- Row `p` of the encoder block at the point of batch row `b`, source block `j` is row `512 · j + p` of batch row `b`
    (a block's coordinate is block index × block size + the coordinate inside the block). -/
theorem encBlk_apply (c : Dev nD) (t : Fin (cfgM0 V).N) (b : Fin 32) (j : Fin 4)
    (hb : (grid0.coords t 0).val = b.val) (hj : (grid0.coords t 1).val = j.val) (p : Fin 512) (e : Fin 2048) (s : Fin 2048)
    (hs : s.val = 512 * j.val + p.val) :
    (iblk0 V c 0 t : Vec Ideal S1x512x2048 .f32) (ix3 (0 : Fin 1) p e) = (V c main_arg1 : S32x2048x2048.Idx → EReal) (ix3 b s e) := by
  obtain ⟨h0, -⟩ := maps_closed (grid0.coords t)
  unfold iblk0
  show V c main_arg1 _ = V c main_arg1 _
  refine congrArg (V c main_arg1) (funext fun a => Fin.ext ?_)
  match a with
  | ⟨0, _⟩ => show cc0_transform_0 (grid0.coords t) 0 * 1 + 1 * (0 : Fin 1).val = b.val; rw [h0]; show (grid0.coords t 0).val * 1 + 1 * 0 = b.val; omega
  | ⟨1, _⟩ => show cc0_transform_0 (grid0.coords t) 1 * 512 + 1 * p.val = s.val; rw [h0]; show (grid0.coords t 1).val * 512 + 1 * p.val = s.val; omega
  | ⟨2, _⟩ => show cc0_transform_0 (grid0.coords t) 2 * 2048 + 1 * e.val = e.val; rw [h0]; show 0 * 2048 + 1 * e.val = e.val; omega

/-- The decoder block at that point is batch row `b`'s one decoder row. -/
theorem decBlk_apply (c : Dev nD) (t : Fin (cfgM0 V).N) (b : Fin 32) (hb : (grid0.coords t 0).val = b.val) (d : Fin 1024) :
    (iblk0 V c 1 t : Vec Ideal S1x1x1024 .f32) (ix3 (0 : Fin 1) (0 : Fin 1) d) = (V c main_arg0 : S32x1x1024.Idx → EReal) (ix3 b (0 : Fin 1) d) := by
  obtain ⟨-, h1, -⟩ := maps_closed (grid0.coords t)
  unfold iblk0
  show V c main_arg0 _ = V c main_arg0 _
  refine congrArg (V c main_arg0) (funext fun a => Fin.ext ?_)
  match a with
  | ⟨0, _⟩ => show cc0_transform_1 (grid0.coords t) 0 * 1 + 1 * (0 : Fin 1).val = b.val; rw [h1]; show (grid0.coords t 0).val * 1 + 1 * 0 = b.val; omega
  | ⟨1, _⟩ => show cc0_transform_1 (grid0.coords t) 1 * 1 + 1 * (0 : Fin 1).val = (0 : Fin 1).val; rw [h1]; show 0 * 1 + 1 * 0 = 0; omega
  | ⟨2, _⟩ => show cc0_transform_1 (grid0.coords t) 2 * 1024 + 1 * d.val = d.val; rw [h1]; show 0 * 1024 + 1 * d.val = d.val; omega

/-- The three weight windows hold their whole arrays at every point. -/
theorem wencBlk_apply (c : Dev nD) (t : Fin (cfgM0 V).N) (e : Fin 2048) (h : Fin 1024) :
    (iblk0 V c 2 t : Vec Ideal S2048x1024 .bf16) (ix2 e h) = (V c main_v1 : S2048x1024.Idx → EReal) (ix2 e h) := by
  obtain ⟨-, -, h2, -⟩ := maps_closed (grid0.coords t)
  unfold iblk0
  show V c main_v1 _ = V c main_v1 _
  refine congrArg (V c main_v1) (funext fun a => Fin.ext ?_)
  match a with
  | ⟨0, _⟩ => show cc0_transform_2 (grid0.coords t) 0 * 2048 + 1 * e.val = e.val; rw [h2]; show 0 * 2048 + 1 * e.val = e.val; omega
  | ⟨1, _⟩ => show cc0_transform_2 (grid0.coords t) 1 * 1024 + 1 * h.val = h.val; rw [h2]; show 0 * 1024 + 1 * h.val = h.val; omega
theorem wdecBlk_apply (c : Dev nD) (t : Fin (cfgM0 V).N) (d : Fin 1024) (h : Fin 1024) :
    (iblk0 V c 3 t : Vec Ideal S1024x1024 .bf16) (ix2 d h) = (V c main_v3 : S1024x1024.Idx → EReal) (ix2 d h) := by
  obtain ⟨-, -, -, h3, -⟩ := maps_closed (grid0.coords t)
  unfold iblk0
  show V c main_v3 _ = V c main_v3 _
  refine congrArg (V c main_v3) (funext fun a => Fin.ext ?_)
  match a with
  | ⟨0, _⟩ => show cc0_transform_3 (grid0.coords t) 0 * 1024 + 1 * d.val = d.val; rw [h3]; show 0 * 1024 + 1 * d.val = d.val; omega
  | ⟨1, _⟩ => show cc0_transform_3 (grid0.coords t) 1 * 1024 + 1 * h.val = h.val; rw [h3]; show 0 * 1024 + 1 * h.val = h.val; omega
theorem wenBlk_apply (c : Dev nD) (t : Fin (cfgM0 V).N) (h : Fin 1024) :
    (iblk0 V c 4 t : Vec Ideal S1024x1 .bf16) (ix2 h (0 : Fin 1)) = (V c main_v5 : S1024x1.Idx → EReal) (ix2 h (0 : Fin 1)) := by
  obtain ⟨-, -, -, -, h4, -⟩ := maps_closed (grid0.coords t)
  unfold iblk0
  show V c main_v5 _ = V c main_v5 _
  refine congrArg (V c main_v5) (funext fun a => Fin.ext ?_)
  match a with
  | ⟨0, _⟩ => show cc0_transform_4 (grid0.coords t) 0 * 1024 + 1 * h.val = h.val; rw [h4]; show 0 * 1024 + 1 * h.val = h.val; omega
  | ⟨1, _⟩ => show cc0_transform_4 (grid0.coords t) 1 * 1 + 1 * (0 : Fin 1).val = (0 : Fin 1).val; rw [h4]; show 0 * 1 + 1 * 0 = 0; omega

/-! ## The point's block of scores is its block of the specification's energies -/

/-- The grid runs row-major, source block fastest: point `4 · b + j` has coordinates (`b`, `j`). -/
theorem coords_of_point (t : Fin grid0.N) (b : Fin 32) (j : Fin 4) (ht : t.val = 4 * b.val + j.val) :
    (grid0.coords t 0).val = b.val ∧ (grid0.coords t 1).val = j.val := by
  have hs0 : grid0.stride 0 = 4 := by decide
  have hs1 : grid0.stride 1 = 1 := by decide
  have hb := b.isLt
  have hj := j.isLt
  constructor
  · show t.val / grid0.stride 0 % 32 = b.val
    rw [hs0, ht]; omega
  · show t.val / grid0.stride 1 % 4 = j.val
    rw [hs1, ht]; omega

/-- Lane `p` of what the body computes at the point of batch row `b`, source block `j` is the masked energy at
    (`b`, `512 · j + p`): the blocks are the arrays' rows, the weight windows hold the transposed weights, and the word
    is the row's source length. -/
theorem point_value (c : Dev nD) (t : Fin (cfgM0 V).N) (b : Fin 32) (j : Fin 4)
    (hb : (grid0.coords t 0).val = b.val) (hj : (grid0.coords t 1).val = j.val) (p : Fin 512) (s : Fin 2048) (hs : s.val = 512 * j.val + p.val)
    (Wenc : Cert.Attn.SWenc.Idx → EReal) (Wdec : Cert.Attn.SWdec.Idx → EReal) (Wen : Cert.Attn.SWen.Idx → EReal)
    (h1 : ∀ (e : Fin 2048) (h : Fin 1024), V c main_v1 (ix2 e h) = Wenc (ix2 h e))
    (h3 : ∀ (d h : Fin 1024), V c main_v3 (ix2 d h) = Wdec (ix2 h d))
    (h5 : ∀ (h : Fin 1024), V c main_v5 (ix2 h (0 : Fin 1)) = Wen (ix2 (0 : Fin 1) h)) :
    k0_pay1 (F := Ideal) (grid0.coords t) (iblk0 V c 0 t) (iblk0 V c 2 t) (iblk0 V c 1 t) (iblk0 V c 3 t) (iblk0 V c 4 t)
        (word0 c (grid0.coords t) (tbl0 V 0)) (ix3 (0 : Fin 1) (0 : Fin 1) p)
      = Cert.Attn.energies (V c main_arg0) (V c main_arg1) (V c main_arg2) Wenc Wdec Wen (ix3 b (0 : Fin 1) s) := by
  refine (pay_apply (grid0.coords t) (iblk0 V c 0 t) (iblk0 V c 2 t) (iblk0 V c 1 t) (iblk0 V c 3 t) (iblk0 V c 4 t)
    (word0 c (grid0.coords t) (tbl0 V 0)) p).trans ?_
  rw [Cert.Attn.energies_ix3]
  unfold Cert.Attn.energyAt Cert.Attn.score Cert.Attn.proj
  refine congr (congr (congrArg Scalar.select ?_) ?_) rfl
  · refine congr (congrArg (Scalar.cmpi .slt) ?_) ?_
    · exact congrArg (BitVec.ofNat 32) (by omega)
    · refine (word0_eq c (grid0.coords t) (tbl0 V 0) b hb).trans ?_
      exact congrFun (V_pre0 V c 0).symm (ix1 b)
  · refine Finset.sum_congr rfl fun h _ => ?_
    refine congr (congrArg HMul.hMul (congrArg Ideal.tanh (congr (congrArg HAdd.hAdd ?_) ?_))) ?_
    · refine Finset.sum_congr rfl fun e _ => ?_
      exact congr (congrArg HMul.hMul (encBlk_apply V c t b j hb hj p e s hs)) ((wencBlk_apply V c t e h).trans (h1 e h))
    · refine Finset.sum_congr rfl fun d _ => ?_
      exact congr (congrArg HMul.hMul (decBlk_apply V c t b hb d)) ((wdecBlk_apply V c t d h).trans (h3 d h))
    · exact (wenBlk_apply V c t h).trans (h5 h)

end Region

end Cert.KernelIdeal.HandValue.Block

namespace Cert.KernelIdeal.HandValue

open Idealize.ShloMosaic Idealize.ShloMosaic.TcCoe Idealize.ShloMosaic.ValueIdx
open Cert.KernelIdeal Cert.KernelIdeal.Gen Cert.KernelIdeal.Hand Cert.KernelIdeal.HandValue.Block

variable (V : (c : Dev nD) → (b : Ref sig .tc) → Buf (Elt Ideal) ((c : Thread nD τ).loc b))

/-- THE BLOCK AFTER POINT `4 · b + j`: lane `k` of the output block holds the specification's energy at
    (`b`, 0, `512 · j + k`). -/
theorem energies_block (c : Dev nD)
    (Wenc : Cert.Attn.SWenc.Idx → EReal) (Wdec : Cert.Attn.SWdec.Idx → EReal) (Wen : Cert.Attn.SWen.Idx → EReal)
    (h1 : ∀ (e : Fin 2048) (h : Fin 1024), V c main_v1 (ix2 e h) = Wenc (ix2 h e))
    (h3 : ∀ (d h : Fin 1024), V c main_v3 (ix2 d h) = Wdec (ix2 h d))
    (h5 : ∀ (h : Fin 1024), V c main_v5 (ix2 h (0 : Fin 1)) = Wen (ix2 (0 : Fin 1) h))
    (b : Fin 32) (j : Fin 4) (k : Fin 512) (t : Fin (cfgM0 V).N) (ht : t.val = 4 * b.val + j.val) :
    outsAt0 V c t (ix3 (0 : Fin 1) (0 : Fin 1) k)
      = Cert.Attn.energies (V c main_arg0) (V c main_arg1) (V c main_arg2) Wenc Wdec Wen
          (ix3 b (0 : Fin 1) (⟨512 * j.val + k.val, by omega⟩ : Fin 2048)) := by
  obtain ⟨hb, hj⟩ := coords_of_point t b j ht
  unfold outsAt0
  refine (congrFun (out0_5_eq (F := Ideal) c (grid0.coords t) (ms0_0 V t) (hs0_0 V t) (ms0_1 V t) (hs0_1 V t) (ms0_2 V t) (hs0_2 V t)
    (ms0_3 V t) (hs0_3 V t) (ms0_4 V t) (hs0_4 V t) (ms0_5 V t) (hs0_5 V t) (iblk0 V c 0 t) (iblk0 V c 1 t) (iblk0 V c 2 t)
    (iblk0 V c 3 t) (iblk0 V c 4 t) (tbl0 V 0)) (ix3 (0 : Fin 1) (0 : Fin 1) k)).trans ?_
  exact point_value V c t b j hb hj k ⟨512 * j.val + k.val, by omega⟩ rfl Wenc Wdec Wen h1 h3 h5

end Cert.KernelIdeal.HandValue

end
-- ==== Proof.KIValue0Cover.lean ====
/-
  From blocks to the array, for the energies kernel's output (the program's first pallas_call).

  The result [32, 1, 2048] is written through blocks [1, 1, 512]: grid point t = 4·b + j owns the block at
  row b, source positions 512·j … 512·j + 511, and writes it back at once (the block index differs between every
  point and the next, whatever the prefetched length table holds: no index map reads it).  So if the output block
  after every point is that block of ONE function G of the result's index, the array ends at G: an element k of
  the block at t sits at (b, 0, 512·j + k), and the index (b, 0, s) lies in the block of point 4·b + s / 512.
-/
import proofs.«414879_j37280316129367_1_alg».proof.Proof.KIRegion0
import proofs.«414879_j37280316129367_1_alg».proof.Proof.Spec
import Idealize.ShloMosaic.Lib.Pipeline.Value
import Idealize.ShloMosaic.Lib.ValueIdx

set_option maxRecDepth 16384

noncomputable section

namespace Cert.KernelIdeal.HandValue.Cov

open Idealize.ShloMosaic Idealize.ShloMosaic.TcCoe
open Idealize.SL Idealize.SL.Sem
open Idealize.ShloMosaic.Pipeline (Dat Cfg Window)
open Idealize.ShloMosaic.ValueIdx
open Cert.KernelIdeal Cert.KernelIdeal.Gen Cert.KernelIdeal.Hand

section Structure

/-- The output window's index map at the grid point t = 4·b + j: row b, middle axis 0, source block j. -/
theorem tr5 : ∀ t : Fin grid0.N, cc0_transform_5 (grid0.coords t) 0 = t.val / 4 ∧ cc0_transform_5 (grid0.coords t) 1 = 0 ∧ cc0_transform_5 (grid0.coords t) 2 = t.val % 4 := by
  decide +kernel

/-- The block index differs between every point and the next. -/
theorem moves5 : ∀ t : Fin grid0.N, t.val + 1 = grid0.N ∨ ∃ h : t.val + 1 < grid0.N, cc0_transform_5 (grid0.coords ⟨t.val + 1, h⟩) ≠ cc0_transform_5 (grid0.coords t) := by
  decide +kernel

variable (a : (pcfg0 (F := Ideal)).Adm)

theorem N5 : (cfg0 a).N = 128 := N_0

/-- Whatever the length table holds, the output window's block index is the printed map's. -/
theorem index5 (t : Fin (cfg0 a).N) : ((cfg0 a).win 5).index t = cc0_transform_5 (grid0.coords t) := rfl

theorem idx5 (t : Fin (cfg0 a).N) :
    cc0_transform_5 (grid0.coords t) 0 = t.val / 4 ∧ cc0_transform_5 (grid0.coords t) 1 = 0 ∧ cc0_transform_5 (grid0.coords t) 2 = t.val % 4 := tr5 t

/-- So the output block is written back at every point. -/
theorem flush5 (t : Fin (cfg0 a).N) : ((cfg0 a).win 5).flush t = true := by
  unfold Pipeline.Window.flush
  rw [Bool.and_eq_true, Bool.or_eq_true, decide_eq_true_eq, decide_eq_true_eq]
  exact ⟨rfl, moves5 t⟩

end Structure

section Blocks

variable (a : (pcfg0 (F := Ideal)).Adm)

/-- An element of the output block at point t = 4·b + j sits in the result at row b, position 512·j + its own. -/
theorem emb5 (t : Fin (cfg0 a).N) (y : S1x1x512.Idx)
    (b : Fin 32) (j : Fin 4) (ht : t.val = 4 * b.val + j.val) (k : Fin 512) (hk : k.val = (y 2).val) :
    (((cfg0 a).win 5).blk t).view.emb y
      = ix3 b (0 : Fin 1) (⟨512 * j.val + k.val, by have := j.isLt; have := k.isLt; omega⟩ : Fin 2048) := by
  obtain ⟨i0, i1, i2⟩ := idx5 a t
  have hb : b.val < 32 := b.isLt
  have hj : j.val < 4 := j.isLt
  have hy0 : (y 0).val < 1 := (y 0).isLt
  have hy1 : (y 1).val < 1 := (y 1).isLt
  refine funext fun d => Fin.ext ?_
  match d with
  | ⟨0, _⟩ => show cc0_transform_5 (grid0.coords t) 0 * 1 + 1 * (y 0).val = b.val; rw [i0]; omega
  | ⟨1, _⟩ => show cc0_transform_5 (grid0.coords t) 1 * 1 + 1 * (y 1).val = 0; rw [i1]; omega
  | ⟨2, _⟩ => show cc0_transform_5 (grid0.coords t) 2 * 512 + 1 * (y 2).val = 512 * j.val + k.val; rw [i2, hk]; omega

/-- Every index of the result lies in the block of the point 4·(its row) + (its position / 512). -/
theorem cover5 (i : S32x1x2048.Idx) :
    ∃ t : Fin (cfg0 a).N, ((cfg0 a).win 5).flush t = true ∧ i ∈ (((cfg0 a).win 5).blk t).view.set := by
  have hN : (cfg0 a).N = 128 := N5 a
  have hi0 : (i 0 : Nat) < 32 := (i 0).isLt
  have hi1 : (i 1 : Nat) < 1 := (i 1).isLt
  have hi2 : (i 2 : Nat) < 2048 := (i 2).isLt
  have hlt : 4 * (i 0 : Nat) + (i 2 : Nat) / 512 < (cfg0 a).N := by omega
  obtain ⟨j0, j1, j2⟩ := idx5 a ⟨4 * (i 0 : Nat) + (i 2 : Nat) / 512, hlt⟩
  refine ⟨⟨4 * (i 0 : Nat) + (i 2 : Nat) / 512, hlt⟩, flush5 a _, ?_⟩
  have e : ((View.whole main_v6).slice (((cfg0 a).win 5).rect ⟨4 * (i 0 : Nat) + (i 2 : Nat) / 512, hlt⟩)).set = (((cfg0 a).win 5).rect ⟨4 * (i 0 : Nat) + (i 2 : Nat) / 512, hlt⟩).set :=
    View.set_slice_whole main_v6 (((cfg0 a).win 5).rect ⟨4 * (i 0 : Nat) + (i 2 : Nat) / 512, hlt⟩)
  refine (Finset.ext_iff.mp e i).mpr (Rect.mem_set_unit.mpr fun d => ?_)
  match d with
  | ⟨0, _⟩ =>
    show cc0_transform_5 (grid0.coords ⟨4 * (i 0 : Nat) + (i 2 : Nat) / 512, hlt⟩) 0 * 1 ≤ (i 0 : Nat) ∧ (i 0 : Nat) < cc0_transform_5 (grid0.coords ⟨4 * (i 0 : Nat) + (i 2 : Nat) / 512, hlt⟩) 0 * 1 + 1
    rw [j0]; dsimp only; omega
  | ⟨1, _⟩ =>
    show cc0_transform_5 (grid0.coords ⟨4 * (i 0 : Nat) + (i 2 : Nat) / 512, hlt⟩) 1 * 1 ≤ (i 1 : Nat) ∧ (i 1 : Nat) < cc0_transform_5 (grid0.coords ⟨4 * (i 0 : Nat) + (i 2 : Nat) / 512, hlt⟩) 1 * 1 + 1
    rw [j1]; omega
  | ⟨2, _⟩ =>
    show cc0_transform_5 (grid0.coords ⟨4 * (i 0 : Nat) + (i 2 : Nat) / 512, hlt⟩) 2 * 512 ≤ (i 2 : Nat) ∧ (i 2 : Nat) < cc0_transform_5 (grid0.coords ⟨4 * (i 0 : Nat) + (i 2 : Nat) / 512, hlt⟩) 2 * 512 + 512
    rw [j2]; dsimp only; omega

end Blocks

end Cert.KernelIdeal.HandValue.Cov

namespace Cert.KernelIdeal.HandValue

open Idealize.ShloMosaic Idealize.ShloMosaic.TcCoe
open Idealize.SL Idealize.SL.Sem
open Idealize.ShloMosaic.Pipeline (Dat Cfg Window)
open Idealize.ShloMosaic.ValueIdx
open Cert.KernelIdeal Cert.KernelIdeal.Gen Cert.KernelIdeal.Hand

/-- If the output block after every point t = 4·b + j is the block (b, 0, j) of one function G of the result's
    index, the energies kernel's result array ends at G: every point writes its block back, and the blocks cover
    the array. -/
theorem array_of_blocks (V : (c : Dev nD) → (b : Ref sig .tc) → Buf (Elt Ideal) ((c : Thread nD τ).loc b)) (c : Dev nD)
    (G : Cert.Attn.SOut.Idx → EReal)
    (hblk : ∀ (b : Fin 32) (j : Fin 4) (k : Fin 512) (t : Fin (cfgM0 V).N), t.val = 4 * b.val + j.val →
      outsAt0 V c t (ix3 (0 : Fin 1) (0 : Fin 1) k) = G (ix3 b (0 : Fin 1) (⟨512 * j.val + k.val, by omega⟩ : Fin 2048))) :
    (dat0 V c).arrAt 5 (cfgM0 V).N = G :=
  (dat0 V c).arrAt_eq_of_cover 5 G (fun t _ => by
    have hN : (cfgM0 V).N = 128 := Cov.N5 (adm0 V)
    have htl : t.val < 128 := hN ▸ t.isLt
    have ht : t.val = 4 * (t.val / 4) + t.val % 4 := by omega
    show ((cfgM0 V).win 5).cut ((cfgM0 V).grid.coords t) ((dat0 V c).after 5 t) = _
    rw [after0_5]
    refine funext fun (y : S1x1x512.Idx) => ?_
    have hy0 : (y 0).val < 1 := (y 0).isLt
    have hy1 : (y 1).val < 1 := (y 1).isLt
    have hy2 : (y 2).val < 512 := (y 2).isLt
    have e1 : ((cfgM0 V).win 5).cut ((cfgM0 V).grid.coords t) (outsAt0 V c t) y
        = outsAt0 V c t (ix3 (0 : Fin 1) (0 : Fin 1) (⟨(y 2).val, hy2⟩ : Fin 512)) :=
      congrArg (outsAt0 V c t) (funext fun d => Fin.ext (by
        match d with
        | ⟨0, _⟩ => show (y 0).val = 0; omega
        | ⟨1, _⟩ => show (y 1).val = 0; omega
        | ⟨2, _⟩ => rfl))
    have e2 : View.read (Elt Ideal) (((cfgM0 V).win 5).blk t).view G y
        = G (ix3 (⟨t.val / 4, by omega⟩ : Fin 32) (0 : Fin 1) (⟨512 * (t.val % 4) + (y 2).val, by omega⟩ : Fin 2048)) :=
      congrArg G (Cov.emb5 (adm0 V) t y ⟨t.val / 4, by omega⟩ ⟨t.val % 4, by omega⟩ ht ⟨(y 2).val, hy2⟩ rfl)
    exact e1.trans ((hblk ⟨t.val / 4, by omega⟩ ⟨t.val % 4, by omega⟩ ⟨(y 2).val, hy2⟩ t ht).trans e2.symm))
    (Cov.cover5 (adm0 V))

end Cert.KernelIdeal.HandValue

end
-- ==== Proof.KIValue0.lean ====
/-
  The value of the energies kernel (the program's first pallas_call) at the ideal instance: when the three weight
  windows hold the transposed weights, the array the region leaves is the specification's masked energies of the
  decoder states, the encoder states and the source lengths it read.  Every point writes its block of 512 lanes back
  to (b, 0, 512·j …), each lane is the masked energy there, and the 128 blocks cover the array.
-/
import proofs.«414879_j37280316129367_1_alg».proof.Proof.KIValue0Pay
import proofs.«414879_j37280316129367_1_alg».proof.Proof.KIValue0Cover

noncomputable section

namespace Cert.KernelIdeal.HandValue

open Idealize.ShloMosaic Idealize.ShloMosaic.TcCoe Idealize.SL.Sem
open Cert.KernelIdeal Cert.KernelIdeal.Gen Cert.KernelIdeal.Hand Idealize.ShloMosaic.ValueIdx

theorem energies_final (V : (c : Dev nD) → (b : Ref sig .tc) → Buf (Elt Ideal) ((c : Thread nD τ).loc b)) (c : Dev nD)
    (Wenc : Cert.Attn.SWenc.Idx → EReal) (Wdec : Cert.Attn.SWdec.Idx → EReal) (Wen : Cert.Attn.SWen.Idx → EReal)
    (h1 : ∀ (e : Fin 2048) (h : Fin 1024), V c main_v1 (ix2 e h) = Wenc (ix2 h e))
    (h3 : ∀ (d h : Fin 1024), V c main_v3 (ix2 d h) = Wdec (ix2 h d))
    (h5 : ∀ (h : Fin 1024), V c main_v5 (ix2 h (0 : Fin 1)) = Wen (ix2 (0 : Fin 1) h)) :
    (dat0 V c).arrAt 5 (cfgM0 V).N = Cert.Attn.energies (V c main_arg0) (V c main_arg1) (V c main_arg2) Wenc Wdec Wen :=
  array_of_blocks V c _ (fun b j k t ht => energies_block V c Wenc Wdec Wen h1 h3 h5 b j k t ht)

end Cert.KernelIdeal.HandValue

end
-- ==== Proof.KIValue1.lean ====
/-
  The value of the context kernel (the program's second pallas_call) at the ideal instance: the result array
  ends at the specification's context of the attention weights and the encoder states.

  Grid point t = 4·b + j handles row b and source block j (512 source positions).  The kernel carries a
  [1, 2048] accumulator across the four blocks of a row:
    * at j = 0 it is reset to zero and the block's product is added:  0 + Σ_k w[b,0,k] · enc[b,k,e];
    * at every later j the block's product is added to what the point before left:
        acc + Σ_k w[b,0,512·j+k] · enc[b,512·j+k,e]
      (the matrix product into a zero accumulator is that plain sum over the extended reals; the narrowing
      to bf16 is the identity there, and the layout changes [1,1,512]→[1,512], [1,512,2048]→[512,2048] only
      drop a unit axis);
    * at j = 3 the accumulator, re-laid [1,2048]→[1,1,2048], is copied to the output block, which is then
      written back to row b of the result.
  So after position n the accumulator holds the sums of the row's blocks 0 … n % 4 (induction on the position;
  the reset case uses 0 + x = x), and the four block sums of a row are the sum over its 2048 source positions
  (position 512·j + k is element k of block j: a re-indexing of one finite sum, only commutativity and
  associativity of +).  Every row is written back exactly once, at its last block, and those write-backs
  cover the whole result array.
-/
import proofs.«414879_j37280316129367_1_alg».proof.Proof.KIRegion1
import proofs.«414879_j37280316129367_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.HandValue.Ctx

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen Cert.KernelIdeal.Hand

section Pieces
variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle block: the accumulator ends at the update of what it held. -/
theorem accB (c : Dev nD) (i : grid1.Coords) (arg2 : Memref sig .tc .vmem S1x1x512 .f32) (harg2 : arg2.IsWhole) (arg3 : Memref sig .tc .vmem S1x512x2048 .f32) (harg3 : arg3.IsWhole) (arg4 : Memref sig .tc .vmem S1x1x2048 .f32) (harg4 : arg4.IsWhole) (arg5 : Memref sig .tc .vmem S1x2048 .f32) (harg5 : arg5.IsWhole) (hc0 : ¬cond1_0 i) (hc1 : ¬cond1_1 i)
    (x0 : Vec F S1x1x512 .f32) (x1 : Vec F S1x512x2048 .f32) (xs0 : Vec F S1x2048 .f32) :
    sout1_B_0 c i arg2 harg2 arg3 harg3 arg4 harg4 arg5 harg5 hc0 hc1 x0 x1 xs0 = k1_pay2 x0 x1 xs0 := by
  unfold sout1_B_0
  rw [View.read_writes_eq_canon _ _ _ (scover1_B_0 c i arg2 harg2 arg3 harg3 arg4 harg4 arg5 harg5 hc0 hc1 x0 x1 xs0)]
  unfold kernelRun1_B
  dsimp only
  sl_unfold_words
  rw [View.canon_unit_zero hz2]
  simp only [View.readAt_eq_ld, harg2.read_unread, harg3.read_unread, harg5.read_unread,
    View.ld_unit_zero (S := S1x1x512) hz3, View.ld_unit_zero (S := S1x512x2048) hz3, View.ld_unit_zero (S := S1x2048) hz2]

/-- The first block of a row: the accumulator is reset to the zero block, then updated. -/
theorem accA (c : Dev nD) (i : grid1.Coords) (arg2 : Memref sig .tc .vmem S1x1x512 .f32) (harg2 : arg2.IsWhole) (arg3 : Memref sig .tc .vmem S1x512x2048 .f32) (harg3 : arg3.IsWhole) (arg4 : Memref sig .tc .vmem S1x1x2048 .f32) (harg4 : arg4.IsWhole) (arg5 : Memref sig .tc .vmem S1x2048 .f32) (harg5 : arg5.IsWhole) (hc0 : cond1_0 i) (hc1 : ¬cond1_1 i)
    (x0 : Vec F S1x1x512 .f32) (x1 : Vec F S1x512x2048 .f32) :
    sout1_A_0 c i arg2 harg2 arg3 harg3 arg4 harg4 arg5 harg5 hc0 hc1 x0 x1 = k1_pay2 x0 x1 (k1_pay1 (F := F)) := by
  unfold sout1_A_0
  rw [View.read_writes_eq_canon _ _ _ (scover1_A_0 c i arg2 harg2 arg3 harg3 arg4 harg4 arg5 harg5 hc0 hc1 x0 x1)]
  unfold kernelRun1_A
  dsimp only
  sl_unfold_words
  rw [View.canon_cons_unit_zero (S := S1x2048) hz2, View.readCov_unit_zero (S := S1x2048) _ hz2]
  simp only [View.readAt_eq_ld, harg2.read_unread, harg3.read_unread,
    View.ld_unit_zero (S := S1x1x512) hz3, View.ld_unit_zero (S := S1x512x2048) hz3, View.ld_unit_zero (S := S1x2048) hz2]

/-- The last block of a row: the accumulator is updated as at a middle block. -/
theorem accC (c : Dev nD) (i : grid1.Coords) (arg2 : Memref sig .tc .vmem S1x1x512 .f32) (harg2 : arg2.IsWhole) (arg3 : Memref sig .tc .vmem S1x512x2048 .f32) (harg3 : arg3.IsWhole) (arg4 : Memref sig .tc .vmem S1x1x2048 .f32) (harg4 : arg4.IsWhole) (arg5 : Memref sig .tc .vmem S1x2048 .f32) (harg5 : arg5.IsWhole) (hc0 : ¬cond1_0 i) (hc1 : cond1_1 i)
    (x0 : Vec F S1x1x512 .f32) (x1 : Vec F S1x512x2048 .f32) (xs0 : Vec F S1x2048 .f32) :
    sout1_C_0 c i arg2 harg2 arg3 harg3 arg4 harg4 arg5 harg5 hc0 hc1 x0 x1 xs0 = k1_pay2 x0 x1 xs0 := by
  unfold sout1_C_0
  rw [View.read_writes_eq_canon _ _ _ (scover1_C_0 c i arg2 harg2 arg3 harg3 arg4 harg4 arg5 harg5 hc0 hc1 x0 x1 xs0)]
  unfold kernelRun1_C
  dsimp only
  sl_unfold_words
  rw [View.canon_unit_zero hz2]
  simp only [View.readAt_eq_ld, harg2.read_unread, harg3.read_unread, harg5.read_unread,
    View.ld_unit_zero (S := S1x1x512) hz3, View.ld_unit_zero (S := S1x512x2048) hz3, View.ld_unit_zero (S := S1x2048) hz2]

/-- The last block of a row: the output block receives the updated accumulator, re-laid with a unit axis. -/
theorem outC (c : Dev nD) (i : grid1.Coords) (arg2 : Memref sig .tc .vmem S1x1x512 .f32) (harg2 : arg2.IsWhole) (arg3 : Memref sig .tc .vmem S1x512x2048 .f32) (harg3 : arg3.IsWhole) (arg4 : Memref sig .tc .vmem S1x1x2048 .f32) (harg4 : arg4.IsWhole) (arg5 : Memref sig .tc .vmem S1x2048 .f32) (harg5 : arg5.IsWhole) (hc0 : ¬cond1_0 i) (hc1 : cond1_1 i)
    (x0 : Vec F S1x1x512 .f32) (x1 : Vec F S1x512x2048 .f32) (xs0 : Vec F S1x2048 .f32) :
    out1_C_2 c i arg2 harg2 arg3 harg3 arg4 harg4 arg5 harg5 hc0 hc1 x0 x1 xs0 = k1_pay3 (k1_pay2 x0 x1 xs0) := by
  unfold out1_C_2
  rw [View.read_writes_eq_canon _ _ _ (cover1_C_2 c i arg2 harg2 arg3 harg3 arg4 harg4 arg5 harg5 hc0 hc1 x0 x1 xs0)]
  unfold kernelRun1_C
  dsimp only
  sl_unfold_words
  rw [View.canon_unit_zero hz3]
  simp only [View.readAt_eq_ld, harg2.read_unread, harg3.read_unread, harg5.read_unread, View.readCov_unit_zero (S := S1x2048) _ hz2,
    View.ld_unit_zero (S := S1x1x512) hz3, View.ld_unit_zero (S := S1x512x2048) hz3, View.ld_unit_zero (S := S1x2048) hz2]

end Pieces

section Arith

theorem ctx_lhs_0 (i : S1x2048.Idx) (q : dot_S1x512_S512x2048_S1x2048_1_0_0_1_n_n.contr.Idx) :
    (dot_S1x512_S512x2048_S1x2048_1_0_0_1_n_n.lhsIdx i q 0).val = (i 0).val := by
  unfold DotDims.lhsIdx
  rw [dif_neg (show ¬(0 : Fin S1x512.rank) ∈ dot_S1x512_S512x2048_S1x2048_1_0_0_1_n_n.lhsBatch by decide), dif_pos (show (0 : Fin S1x512.rank) ∈ dot_S1x512_S512x2048_S1x2048_1_0_0_1_n_n.lhsNonContracting by decide)]
  rfl
theorem ctx_lhs_1 (i : S1x2048.Idx) (q : dot_S1x512_S512x2048_S1x2048_1_0_0_1_n_n.contr.Idx) :
    (dot_S1x512_S512x2048_S1x2048_1_0_0_1_n_n.lhsIdx i q 1).val = (q ⟨0, by decide⟩).val :=
  dot_S1x512_S512x2048_S1x2048_1_0_0_1_n_n.lhsIdx_val_of_single rfl i q
theorem ctx_rhs_0 (i : S1x2048.Idx) (q : dot_S1x512_S512x2048_S1x2048_1_0_0_1_n_n.contr.Idx) :
    (dot_S1x512_S512x2048_S1x2048_1_0_0_1_n_n.rhsIdx i q 0).val = (q ⟨0, by decide⟩).val :=
  dot_S1x512_S512x2048_S1x2048_1_0_0_1_n_n.rhsIdx_val_of_single rfl i q
theorem ctx_rhs_1 (i : S1x2048.Idx) (q : dot_S1x512_S512x2048_S1x2048_1_0_0_1_n_n.contr.Idx) :
    (dot_S1x512_S512x2048_S1x2048_1_0_0_1_n_n.rhsIdx i q 1).val = (i 1).val := by
  unfold DotDims.rhsIdx
  rw [dif_neg (show ¬(1 : Fin S512x2048.rank) ∈ dot_S1x512_S512x2048_S1x2048_1_0_0_1_n_n.rhsBatch by decide), dif_pos (show (1 : Fin S512x2048.rank) ∈ dot_S1x512_S512x2048_S1x2048_1_0_0_1_n_n.rhsNonContracting by decide)]
  rfl

/-- The update at column e: what the accumulator held there plus the block's 512 products. -/
theorem upd_apply (x0 : FVec Ideal S1x1x512 .f32) (x1 : FVec Ideal S1x512x2048 .f32) (xs : FVec Ideal S1x2048 .f32) (o : Fin 1) (e : Fin 2048) :
    k1_pay2 (F := Ideal) x0 x1 xs (ix2 o e)
      = xs (ix2 o e) + ∑ k : Fin 512, x0 (ix3 (0 : Fin 1) (0 : Fin 1) k) * x1 (ix3 (0 : Fin 1) k e) := by
  have ho : o.val < 1 := o.isLt
  unfold k1_pay2
  rw [shapeCast_self, addf_apply]
  simp only [matmul]
  rw [Ideal.matmul_constant_zero_apply, ← Equiv.sum_comp (contrEquiv1 dot_S1x512_S512x2048_S1x2048_1_0_0_1_n_n 512 rfl rfl).symm]
  refine congrArg (xs (ix2 o e) + ·) (Finset.sum_congr rfl fun k _ => ?_)
  have hk := contrEquiv1_symm_val dot_S1x512_S512x2048_S1x2048_1_0_0_1_n_n 512 rfl rfl k
  have el : dot_S1x512_S512x2048_S1x2048_1_0_0_1_n_n.lhsIdx (ix2 o e) ((contrEquiv1 dot_S1x512_S512x2048_S1x2048_1_0_0_1_n_n 512 rfl rfl).symm k) = ix2 (0 : Fin 1) k := funext fun a => Fin.ext (by
    match a with
    | ⟨0, _⟩ => exact (ctx_lhs_0 _ _).trans (by show o.val = 0; omega)
    | ⟨1, _⟩ => exact (ctx_lhs_1 _ _).trans hk)
  have er : dot_S1x512_S512x2048_S1x2048_1_0_0_1_n_n.rhsIdx (ix2 o e) ((contrEquiv1 dot_S1x512_S512x2048_S1x2048_1_0_0_1_n_n 512 rfl rfl).symm k) = ix2 k e := funext fun a => Fin.ext (by
    match a with
    | ⟨0, _⟩ => exact (ctx_rhs_0 _ _).trans hk
    | ⟨1, _⟩ => exact ctx_rhs_1 _ _)
  rw [el, er, truncf_apply, truncf_apply, shapeCast_1ab_ab_apply, shapeCast_1ab_ab_apply]

/-- The reset block is zero everywhere. -/
theorem zero_apply (j : S1x2048.Idx) : k1_pay1 (F := Ideal) j = 0 := by
  unfold k1_pay1
  rw [shapeCast_self, broadcast_apply]
  exact Ideal.ofBits_zero_f32

/-- The copy-out re-lays [1, 2048] as [1, 1, 2048]: column e stays column e. -/
theorem relay_apply (v : FVec Ideal S1x2048 .f32) (u o : Fin 1) (e : Fin 2048) :
    k1_pay3 (F := Ideal) v (ix3 u o e) = v (ix2 o e) := by
  unfold k1_pay3
  exact shapeCast_ab_1ab_apply v _ u o e

end Arith

section Blocks

/-- The block indices of the three windows at point t: row t / 4, source block t % 4. -/
theorem idx0 : ∀ t : Fin cfg1.N, win1_0.index t 0 = t.val / 4 ∧ win1_0.index t 1 = 0 ∧ win1_0.index t 2 = t.val % 4 :=
  (by decide +kernel : ∀ t : Fin grid1.N, win1_0.index t 0 = t.val / 4 ∧ win1_0.index t 1 = 0 ∧ win1_0.index t 2 = t.val % 4)
theorem idx1 : ∀ t : Fin cfg1.N, win1_1.index t 0 = t.val / 4 ∧ win1_1.index t 1 = t.val % 4 ∧ win1_1.index t 2 = 0 :=
  (by decide +kernel : ∀ t : Fin grid1.N, win1_1.index t 0 = t.val / 4 ∧ win1_1.index t 1 = t.val % 4 ∧ win1_1.index t 2 = 0)
theorem idx2 : ∀ t : Fin cfg1.N, win1_2.index t 0 = t.val / 4 ∧ win1_2.index t 1 = 0 ∧ win1_2.index t 2 = 0 :=
  (by decide +kernel : ∀ t : Fin grid1.N, win1_2.index t 0 = t.val / 4 ∧ win1_2.index t 1 = 0 ∧ win1_2.index t 2 = 0)

variable (V : (c : Dev nD) → (b : Ref sig .tc) → Buf (Elt Ideal) ((c : Thread nD τ).loc b))

/-- The attention weights [32, 1, 2048] and the encoder states [32, 2048, 2048] as the region finds them. -/
abbrev wts (c : Dev nD) : FVec Ideal S32x1x2048 .f32 := V c main_v17
abbrev enc (c : Dev nD) : FVec Ideal S32x2048x2048 .f32 := V c main_arg1

/-- The source position of element k of source block j. -/
abbrev pos (j : ℕ) (k : Fin 512) : Fin 2048 := ⟨(512 * j + k.val) % 2048, Nat.mod_lt _ (by decide)⟩

/-- The weights' block at point t holds row t / 4 at the positions of source block t % 4. -/
theorem blk0_apply (c : Dev nD) (t : Fin cfg1.N) (b : Fin 32) (hb : b.val = t.val / 4) (k : Fin 512) :
    (iblk1 V c 0 t : Vec Ideal S1x1x512 .f32) (ix3 (0 : Fin 1) (0 : Fin 1) k) = wts V c (ix3 b (0 : Fin 1) (pos (t.val % 4) k)) := by
  obtain ⟨h0, h1, h2⟩ := idx0 t
  have hk : k.val < 512 := k.isLt
  unfold iblk1
  rw [View.read_apply]
  show V c main_v17 _ = V c main_v17 _
  refine congrArg (V c main_v17) (funext fun a => Fin.ext ?_)
  match a with
  | ⟨0, _⟩ => show win1_0.index t 0 * 1 + 1 * 0 = b.val; rw [h0]; omega
  | ⟨1, _⟩ => show win1_0.index t 1 * 1 + 1 * 0 = 0; rw [h1]
  | ⟨2, _⟩ => show win1_0.index t 2 * 512 + 1 * k.val = (512 * (t.val % 4) + k.val) % 2048; rw [h2]; omega

/-- The encoder states' block at point t holds row t / 4 at the positions of source block t % 4, every column. -/
theorem blk1_apply (c : Dev nD) (t : Fin cfg1.N) (b : Fin 32) (hb : b.val = t.val / 4) (k : Fin 512) (e : Fin 2048) :
    (iblk1 V c 1 t : Vec Ideal S1x512x2048 .f32) (ix3 (0 : Fin 1) k e) = enc V c (ix3 b (pos (t.val % 4) k) e) := by
  obtain ⟨h0, h1, h2⟩ := idx1 t
  have hk : k.val < 512 := k.isLt
  unfold iblk1
  rw [View.read_apply]
  show V c main_arg1 _ = V c main_arg1 _
  refine congrArg (V c main_arg1) (funext fun a => Fin.ext ?_)
  match a with
  | ⟨0, _⟩ => show win1_1.index t 0 * 1 + 1 * 0 = b.val; rw [h0]; omega
  | ⟨1, _⟩ => show win1_1.index t 1 * 512 + 1 * k.val = (512 * (t.val % 4) + k.val) % 2048; rw [h1]; omega
  | ⟨2, _⟩ => show win1_1.index t 2 * 2048 + 1 * e.val = e.val; rw [h2]; omega

end Blocks

section Invariant

variable (V : (c : Dev nD) → (b : Ref sig .tc) → Buf (Elt Ideal) ((c : Thread nD τ).loc b))

/-- The products of source block j of row b against column e of the encoder states, summed over the block. -/
def blockSum (c : Dev nD) (b : Fin 32) (j : ℕ) (e : Fin 2048) : EReal :=
  ∑ k : Fin 512, wts V c (ix3 b (0 : Fin 1) (pos j k)) * enc V c (ix3 b (pos j k) e)

/-- The update at point t, over the point's two input blocks: what the accumulator held plus the block's sum. -/
theorem step_apply (c : Dev nD) (t : Fin cfg1.N) (b : Fin 32) (hb : b.val = t.val / 4) (xs : FVec Ideal S1x2048 .f32) (e : Fin 2048) :
    k1_pay2 (F := Ideal) (iblk1 V c 0 t) (iblk1 V c 1 t) xs (ix2 (0 : Fin 1) e)
      = xs (ix2 (0 : Fin 1) e) + blockSum V c b (t.val % 4) e := by
  refine (upd_apply (iblk1 V c 0 t) (iblk1 V c 1 t) xs (0 : Fin 1) e).trans ?_
  unfold blockSum
  refine congrArg (xs (ix2 (0 : Fin 1) e) + ·) (Finset.sum_congr rfl fun k _ => ?_)
  rw [blk0_apply V c t b hb k, blk1_apply V c t b hb k e]

/-- At the first block of a row the accumulator ends at that block's sum (zero plus it). -/
theorem accA_at (c : Dev nD) (t : Fin cfg1.N) (h0 : t.val % 4 = 0) (h1 : ¬t.val % 4 = 3) (b : Fin 32) (hb : b.val = t.val / 4) (e : Fin 2048) :
    (outsAt1 V c t.val t.isLt).2 (ix2 (0 : Fin 1) e) = blockSum V c b (t.val % 4) e := by
  rw [outsAt1_A V c t h0 h1]
  dsimp only
  refine (congrFun (accA (F := Ideal) c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)) (ix2 (0 : Fin 1) e)).trans ?_
  refine (step_apply V c t b hb _ e).trans ?_
  rw [zero_apply, zero_add]

/-- At a middle block the accumulator ends at what the point before left plus the block's sum. -/
theorem accB_at (c : Dev nD) (t : Fin cfg1.N) (h0 : ¬t.val % 4 = 0) (h1 : ¬t.val % 4 = 3) (b : Fin 32) (hb : b.val = t.val / 4) (e : Fin 2048) :
    (outsAt1 V c t.val t.isLt).2 (ix2 (0 : Fin 1) e)
      = (outsAt1 V c (t.val - 1) (Nat.lt_of_le_of_lt (Nat.sub_le _ _) t.isLt)).2 (ix2 (0 : Fin 1) e) + blockSum V c b (t.val % 4) e := by
  rw [outsAt1_B V c t h0 h1]
  dsimp only
  refine (congrFun (accB (F := Ideal) c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) (ix2 (0 : Fin 1) e)).trans ?_
  exact step_apply V c t b hb _ e

/-- At the last block of a row likewise. -/
theorem accC_at (c : Dev nD) (t : Fin cfg1.N) (h0 : ¬t.val % 4 = 0) (h1 : t.val % 4 = 3) (b : Fin 32) (hb : b.val = t.val / 4) (e : Fin 2048) :
    (outsAt1 V c t.val t.isLt).2 (ix2 (0 : Fin 1) e)
      = (outsAt1 V c (t.val - 1) (Nat.lt_of_le_of_lt (Nat.sub_le _ _) t.isLt)).2 (ix2 (0 : Fin 1) e) + blockSum V c b (t.val % 4) e := by
  rw [outsAt1_C V c t h0 h1]
  dsimp only
  refine (congrFun (accC (F := Ideal) c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) (ix2 (0 : Fin 1) e)).trans ?_
  exact step_apply V c t b hb _ e

/-- The accumulator after position n holds, at column e, the sums of the row's source blocks 0 … n % 4. -/
theorem acc_eq (c : Dev nD) (n : ℕ) : ∀ (hn : n < cfg1.N) (b : Fin 32) (hb : b.val = n / 4) (e : Fin 2048),
    (outsAt1 V c n hn).2 (ix2 (0 : Fin 1) e) = ∑ j ∈ Finset.range (n % 4 + 1), blockSum V c b j e := by
  induction n using Nat.strong_induction_on with
  | _ n ih =>
    intro hn b hb e
    by_cases h0 : n % 4 = 0
    · have h1 : ¬n % 4 = 3 := by omega
      rw [accA_at V c ⟨n, hn⟩ h0 h1 b hb e]
      show blockSum V c b (n % 4) e = _
      rw [h0, Finset.sum_range_one]
    · have hstep : (outsAt1 V c n hn).2 (ix2 (0 : Fin 1) e)
          = (outsAt1 V c (n - 1) (Nat.lt_of_le_of_lt (Nat.sub_le _ _) hn)).2 (ix2 (0 : Fin 1) e) + blockSum V c b (n % 4) e := by
        by_cases h1 : n % 4 = 3
        · exact accC_at V c ⟨n, hn⟩ h0 h1 b hb e
        · exact accB_at V c ⟨n, hn⟩ h0 h1 b hb e
      rw [hstep, ih (n - 1) (by omega) _ b (by omega) e, show (n - 1) % 4 + 1 = n % 4 from by omega, Finset.sum_range_succ]

/-- The four source blocks of a row are its 2048 source positions: position 512·j + k is element k of block j. -/
theorem sum_positions (g : Fin 2048 → EReal) :
    ∑ s : Fin 2048, g s = ∑ j ∈ Finset.range 4, ∑ k : Fin 512, g (pos j k) := by
  rw [Finset.sum_range, ← Equiv.sum_comp (finProdFinEquiv (m := 4) (n := 512)) g, Fintype.sum_prod_type]
  refine Finset.sum_congr rfl fun j _ => Finset.sum_congr rfl fun k _ => congrArg g (Fin.ext ?_)
  have hj : j.val < 4 := j.isLt
  have hk : k.val < 512 := k.isLt
  show k.val + 512 * j.val = (512 * j.val + k.val) % 2048
  omega

/-- After the last block of row b the accumulator holds the specification's context of that row. -/
theorem acc_last (c : Dev nD) (t : Fin cfg1.N) (h3 : t.val % 4 = 3) (b : Fin 32) (hb : b.val = t.val / 4) (e : Fin 2048) :
    (outsAt1 V c t.val t.isLt).2 (ix2 (0 : Fin 1) e) = Cert.Attn.contextAt (wts V c) (enc V c) b e := by
  rw [acc_eq V c t.val t.isLt b hb e, h3]
  unfold Cert.Attn.contextAt
  rw [sum_positions]
  rfl

end Invariant

section Final

variable (V : (c : Dev nD) → (b : Ref sig .tc) → Buf (Elt Ideal) ((c : Thread nD τ).loc b))

/-- At the last block of a row the output block receives the accumulator it has just updated. -/
theorem out_eq_acc (c : Dev nD) (t : Fin cfg1.N) (h0 : ¬t.val % 4 = 0) (h3 : t.val % 4 = 3) (u o : Fin 1) (e : Fin 2048) :
    (outsAt1 V c t.val t.isLt).1 (ix3 u o e) = (outsAt1 V c t.val t.isLt).2 (ix2 o e) := by
  rw [outsAt1_C V c t h0 h3]
  dsimp only
  refine (congrFun (outC (F := Ideal) c (grid1.coords t) (ms1_0 t) (hs1_0 t) (ms1_1 t) (hs1_1 t) (ms1_2 t) (hs1_2 t) scM1 (Memref.isWhole_whole _) (fun h => h0 ((hcond1_0 t).mp h)) ((hcond1_1 t).mpr h3) (iblk1 V c 0 t) (iblk1 V c 1 t) (outsAt1 V c (t.val - 1) (Nat.lt_of_le_of_lt (Nat.sub_le _ _) t.isLt)).2) (ix3 u o e)).trans ?_
  refine (relay_apply _ u o e).trans ?_
  exact (congrFun (accC (F := Ideal) c (grid1.coords t) (ms1_0 t) (hs1_0 t) (ms1_1 t) (hs1_1 t) (ms1_2 t) (hs1_2 t) scM1 (Memref.isWhole_whole _) (fun h => h0 ((hcond1_0 t).mp h)) ((hcond1_1 t).mpr h3) (iblk1 V c 0 t) (iblk1 V c 1 t) (outsAt1 V c (t.val - 1) (Nat.lt_of_le_of_lt (Nat.sub_le _ _) t.isLt)).2) (ix2 o e)).symm

/-- So the output block after the last block of row b is that row of the specification's context. -/
theorem outblock_eq (c : Dev nD) (t : Fin cfg1.N) (h3 : t.val % 4 = 3) (b : Fin 32) (hb : b.val = t.val / 4) :
    (outsAt1 V c t.val t.isLt).1 = fun y : S1x1x2048.Idx => Cert.Attn.contextAt (wts V c) (enc V c) b (y 2) := by
  have h0 : ¬t.val % 4 = 0 := by omega
  funext y
  obtain ⟨u, o, e, rfl⟩ : ∃ (u : Fin 1) (o : Fin 1) (e : Fin 2048), y = ix3 u o e := ⟨y 0, y 1, y 2, eq_ix3 y⟩
  obtain rfl : o = 0 := Subsingleton.elim _ _
  rw [out_eq_acc V c t h0 h3 u 0 e, acc_last V c t h3 b hb e]

/-- What a copy-out point writes back is its block of the specification's context. -/
theorem flushed_eq (c : Dev nD) (t : Fin cfg1.N) (hf : (cfg1.win 2).flush t = true) :
    (dat1 V c).flushed 2 t = ((cfg1.win 2).blk t).view.read (Elt Ideal) (Cert.Attn.context (wts V c) (enc V c)) := by
  have hN : cfg1.N = 128 := N_1
  have h3 : t.val % 4 = 3 := (flush1_2 t).mp hf
  have htl : t.val < 128 := hN ▸ t.isLt
  obtain ⟨i0, i1, i2⟩ := idx2 t
  show (cfg1.win 2).cut (grid1.coords t) ((dat1 V c).after 2 t) = _
  rw [after1_2, outblock_eq V c t h3 ⟨t.val / 4, by omega⟩ rfl]
  funext y
  rw [View.read_apply]
  have hy0 : (y 0).val < 1 := (y 0).isLt
  refine (congrArg₂ (Cert.Attn.contextAt (wts V c) (enc V c)) (Fin.ext ?_) (Fin.ext ?_) : _)
  · show t.val / 4 = win1_2.index t 0 * 1 + 1 * (y 0).val
    rw [i0]; omega
  · show (y 2).val = win1_2.index t 2 * 2048 + 1 * (y 2).val
    rw [i2]; omega

end Final

end Cert.KernelIdeal.HandValue.Ctx

namespace Cert.KernelIdeal.HandValue

open Idealize.ShloMosaic Idealize.ShloMosaic.TcCoe
open Idealize.SL Idealize.SL.Sem
open Idealize.ShloMosaic.Pipeline (Dat Cfg Window)
open Idealize.ShloMosaic.ValueIdx
open Cert.KernelIdeal Cert.KernelIdeal.Gen Cert.KernelIdeal.Hand

/-- The context kernel's result array ends at the specification's context of the attention weights and the
    encoder states as the region finds them: every row b is written back once, after its last source block, and
    what is written is the accumulated sum over all 2048 source positions. -/
theorem context_final (V : (c : Dev nD) → (b : Ref sig .tc) → Buf (Elt Ideal) ((c : Thread nD τ).loc b)) (c : Dev nD) :
    (dat1 V c).arrAt 2 cfg1.N = Cert.Attn.context (V c main_v17) (V c main_arg1) :=
  (dat1 V c).arrAt_eq_of_cover 2 (Cert.Attn.context (Ctx.wts V c) (Ctx.enc V c)) (Ctx.flushed_eq V c) fun i => by
    have hN : cfg1.N = 128 := N_1
    have hi0 : (i 0 : Nat) < 32 := (i 0).isLt
    have hi1 : (i 1 : Nat) < 1 := (i 1).isLt
    have hi2 : (i 2 : Nat) < 2048 := (i 2).isLt
    have hlt : 4 * (i 0 : Nat) + 3 < cfg1.N := by omega
    obtain ⟨j0, j1, j2⟩ := Ctx.idx2 ⟨4 * (i 0 : Nat) + 3, hlt⟩
    refine ⟨⟨4 * (i 0 : Nat) + 3, hlt⟩, (flush1_2 _).mpr (by show (4 * (i 0 : Nat) + 3) % 4 = 3; omega), ?_⟩
    show i ∈ ((View.whole main_v18).slice (win1_2.rect ⟨4 * (i 0 : Nat) + 3, hlt⟩)).set
    rw [View.set_slice_whole, Rect.mem_set_unit]
    intro a
    match a with
    | ⟨0, _⟩ =>
      show win1_2.index ⟨4 * (i 0 : Nat) + 3, hlt⟩ 0 * 1 ≤ (i 0 : Nat) ∧ (i 0 : Nat) < win1_2.index ⟨4 * (i 0 : Nat) + 3, hlt⟩ 0 * 1 + 1
      rw [j0]; dsimp only; omega
    | ⟨1, _⟩ =>
      show win1_2.index ⟨4 * (i 0 : Nat) + 3, hlt⟩ 1 * 1 ≤ (i 1 : Nat) ∧ (i 1 : Nat) < win1_2.index ⟨4 * (i 0 : Nat) + 3, hlt⟩ 1 * 1 + 1
      rw [j1]; omega
    | ⟨2, _⟩ =>
      show win1_2.index ⟨4 * (i 0 : Nat) + 3, hlt⟩ 2 * 2048 ≤ (i 2 : Nat) ∧ (i 2 : Nat) < win1_2.index ⟨4 * (i 0 : Nat) + 3, hlt⟩ 2 * 2048 + 2048
      rw [j2]; omega

end Cert.KernelIdeal.HandValue

end
-- ==== Proof.KIValue.lean ====
/-
  The kernel program's two results at the ideal instance, as functions of the launch memory: the attention weights
  are the softmax of the specification's energies of the six arguments, and the context is the specification's context
  of those weights against the encoder states.

  Each is read along the run's boundaries: the context region's output array is the context of what the region read
  (the weights after the softmax stretch, the encoder states as launched); the weights are the softmax of the
  energies region's output array; that array is the masked energies of what the region read (the decoder and encoder
  states and the lengths as launched, the three weight windows the transposed weights).
-/
import proofs.«414879_j37280316129367_1_alg».proof.Proof.KIHost
import proofs.«414879_j37280316129367_1_alg».proof.Proof.KIValue0
import proofs.«414879_j37280316129367_1_alg».proof.Proof.KIValue1

noncomputable section

namespace Cert.KernelIdeal.HandValue

open Idealize.ShloMosaic Idealize.ShloMosaic.TcCoe Idealize.SL.Sem Idealize.ShloMosaic.StableHlo
open Idealize.ShloMosaic.ValueIdx
open Cert.KernelIdeal Cert.KernelIdeal.Gen Cert.KernelIdeal.Hand

variable (m : (ℓ : Loc nD τ sig) → Buf (Elt Ideal) ℓ)

/-- What the energies region leaves in its output array: the masked energies of the arguments. -/
theorem V2_main_v6 (c : Dev nD) :
    (Hand.V2 m c main_v6 : S32x1x2048.Idx → EReal) = (Cert.Attn.energies (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  have h := energies_final (Hand.V1 m) c (m ((c : Thread nD τ).loc main_arg3)) (m ((c : Thread nD τ).loc main_arg4)) (m ((c : Thread nD τ).loc main_arg5))
    (V1_main_v1 m c) (V1_main_v3 m c) (V1_main_v5 m c)
  rw [V1_main_arg0, V1_main_arg1, V1_main_arg2] at h
  exact (W2_arr m c 5).trans h

/-- The attention weights at the end of the run. -/
theorem kernel_alphas (c : Dev nD) :
    (W4 m c (Proc.devRef .tc main_v17) : S32x1x2048.Idx → EReal) = softmaxK (Cert.Attn.energies (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  rw [W4_main_v17, V3_main_v17, V2_main_v6]

/-- The context at the end of the run. -/
theorem kernel_context (c : Dev nD) :
    (W4 m c (Proc.devRef .tc main_v18) : S32x1x2048.Idx → EReal)
      = Cert.Attn.context (softmaxK (Cert.Attn.energies (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))) (m ((c : Thread nD τ).loc main_arg1)) := by
  have h := context_final (Hand.V3 m) c
  rw [V3_main_v17, V2_main_v6, V3_main_arg1] at h
  exact (W4_arr m c 2).trans h

end Cert.KernelIdeal.HandValue

end
-- ==== Proof.RefValue.lean ====
/-
  The reference program's two results, at the ideal instance (floats are extended reals), are the
  specification's functions.

  The attention weights are the reference's softmax chain applied to its pre-softmax operand, and that operand,
  read at an index (b, o, s), is the masked energy of the specification:
    * the encoder projection  Σ_e enc[b,s,e] · Wenc[h,e]  and the decoder projection  Σ_d dec[b,0,d] · Wdec[h,d]
      are plain sums; the decoder one is broadcast along s;
    * the reference adds decoder + encoder where the specification adds encoder + decoder: commutativity of +;
    * the hidden unit is tanh of that sum, and the score is  Σ_h tanh(…) · Wen[0,h], reshaped from [32,2048,1]
      to [32,2048]: the flat position b·2048 + s splits back into (b, s, 0);
    * the mask compares the position s (as a 32-bit word) with len[b], signed; where it fails the value is the
      word 0xFF800000, which is −∞.
  The softmax itself is carried as one function of that operand and is never opened: both results only need
  the operand's value. The context is one batched sum over s of weight · encoder state.
-/
import proofs.«414879_j37280316129367_1_alg».proof.Proof.Gen.ReferenceIdeal.Read
import proofs.«414879_j37280316129367_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.Read

/-- The softmax along the last axis exactly as the reference spells it: the maximum along the axis (a fold
    starting from −∞, then a maximum with a −∞ constant), broadcast back and subtracted, the exponential, its sum
    along the axis starting from 0, broadcast back, and the quotient. One function of the pre-softmax operand;
    nothing below looks inside it. -/
noncomputable def softmaxR (x : FVec Ideal S32x1x2048 .f32) : FVec Ideal S32x1x2048 .f32 :=
  Host.divf (F := Ideal) (Host.exp (F := Ideal) (subf x (broadcastInDim S32x1x2048 ![0, 1, 2] bcast_S32x1x1_S32x1x2048_0_1_2 (broadcastInDim S32x1x1 ![0, 1] bcast_S32x1_S32x1x1_0_1 (maximumf (broadcastInDim S32x1 ![] bcast_S_S32x1 (constant (F := Ideal) S_ .f32 0xFF800000#32)) (Host.reduce FloatOps.maximumf x (constant (F := Ideal) S_ .f32 0xFF800000#32) reducesTo_S32x1x2048_S32x1_d2 h_S_)))))) (broadcastInDim S32x1x2048 ![0, 1, 2] bcast_S32x1x1_S32x1x2048_0_1_2 (broadcastInDim S32x1x1 ![0, 1] bcast_S32x1_S32x1x1_0_1 (Host.reduceAdd (F := Ideal) (Host.exp (F := Ideal) (subf x (broadcastInDim S32x1x2048 ![0, 1, 2] bcast_S32x1x1_S32x1x2048_0_1_2 (broadcastInDim S32x1x1 ![0, 1] bcast_S32x1_S32x1x1_0_1 (maximumf (broadcastInDim S32x1 ![] bcast_S_S32x1 (constant (F := Ideal) S_ .f32 0xFF800000#32)) (Host.reduce FloatOps.maximumf x (constant (F := Ideal) S_ .f32 0xFF800000#32) reducesTo_S32x1x2048_S32x1_d2 h_S_)))))) (constant (F := Ideal) S_ .f32 0x00000000#32) reducesTo_S32x1x2048_S32x1_d2 h_S_)))

/-- The reference's attention weights are that softmax of its pre-softmax operand: the same operations in the
    same order. -/
theorem weights_eq_softmaxR (x0 : (⟨S32x1x1024, .f32⟩ : BufTy).Contents (Elt Ideal)) (x1 : (⟨S32x2048x2048, .f32⟩ : BufTy).Contents (Elt Ideal)) (x2 : (⟨S32, .i32⟩ : BufTy).Contents (Elt Ideal)) (x3 : (⟨S1024x2048, .f32⟩ : BufTy).Contents (Elt Ideal)) (x4 : (⟨S1024x1024, .f32⟩ : BufTy).Contents (Elt Ideal)) (x5 : (⟨S1x1024, .f32⟩ : BufTy).Contents (Elt Ideal)) :
    val_main_v25 (F := Ideal) x0 x1 x2 x3 x4 x5 = softmaxR (val_main_v14 (F := Ideal) x0 x1 x2 x3 x4 x5) := rfl

/-- The encoder projection at (b, s, h): Σ_e enc[b,s,e] · Wenc[h,e]. -/
theorem encProj_apply (x1 : (⟨S32x2048x2048, .f32⟩ : BufTy).Contents (Elt Ideal)) (x3 : (⟨S1024x2048, .f32⟩ : BufTy).Contents (Elt Ideal)) (b : Fin 32) (s : Fin 2048) (h : Fin 1024) :
    val_main_v0 (F := Ideal) x1 x3 (ix3 b s h) = ∑ e : Fin 2048, x1 (ix3 b s e) * x3 (ix2 h e) := by
  rw [val_main_v0_apply]
  refine Finset.sum_congr rfl fun k _ => ?_
  have el : lidx_main_v0 (ix3 b s h) k = ix3 b s k :=
    funext fun a => by match a with | ⟨0, _⟩ => rfl | ⟨1, _⟩ => rfl | ⟨2, _⟩ => rfl
  have er : ridx_main_v0 (ix3 b s h) k = ix2 h k :=
    funext fun a => by match a with | ⟨0, _⟩ => rfl | ⟨1, _⟩ => rfl
  rw [el, er]

/-- The decoder projection, broadcast along s, at (b, s, h): Σ_d dec[b,0,d] · Wdec[h,d]. -/
theorem decProj_apply (x0 : (⟨S32x1x1024, .f32⟩ : BufTy).Contents (Elt Ideal)) (x4 : (⟨S1024x1024, .f32⟩ : BufTy).Contents (Elt Ideal)) (b : Fin 32) (s : Fin 2048) (h : Fin 1024) :
    val_main_v2 (F := Ideal) x0 x4 (ix3 b s h) = ∑ d : Fin 1024, x0 (ix3 b (0 : Fin 1) d) * x4 (ix2 h d) := by
  have ei : idx_main_v2 (ix3 b s h) = ix3 b (0 : Fin 1) h :=
    funext fun a => by match a with | ⟨0, _⟩ => rfl | ⟨1, _⟩ => rfl | ⟨2, _⟩ => rfl
  rw [val_main_v2_apply, ei, val_main_v1_apply]
  refine Finset.sum_congr rfl fun k _ => ?_
  have el : lidx_main_v1 (ix3 b (0 : Fin 1) h) k = ix3 b (0 : Fin 1) k :=
    funext fun a => by match a with | ⟨0, _⟩ => rfl | ⟨1, _⟩ => rfl | ⟨2, _⟩ => rfl
  have er : ridx_main_v1 (ix3 b (0 : Fin 1) h) k = ix2 h k :=
    funext fun a => by match a with | ⟨0, _⟩ => rfl | ⟨1, _⟩ => rfl
  rw [el, er]

/-- The hidden unit at (b, s, h) is tanh of the specification's pre-activation; the reference's decoder + encoder
    is the specification's encoder + decoder by commutativity of + on the extended reals. -/
theorem hidden_apply (x0 : (⟨S32x1x1024, .f32⟩ : BufTy).Contents (Elt Ideal)) (x1 : (⟨S32x2048x2048, .f32⟩ : BufTy).Contents (Elt Ideal)) (x3 : (⟨S1024x2048, .f32⟩ : BufTy).Contents (Elt Ideal)) (x4 : (⟨S1024x1024, .f32⟩ : BufTy).Contents (Elt Ideal)) (b : Fin 32) (s : Fin 2048) (h : Fin 1024) :
    val_main_v4 (F := Ideal) x0 x1 x3 x4 (ix3 b s h) = Ideal.tanh (Cert.Attn.proj x0 x1 x3 x4 b s h) := by
  rw [val_main_v4_apply, val_main_v3_apply, decProj_apply, encProj_apply]
  simp only [Ideal.hostUnary_tanh_def, Ideal.addf_def]
  exact congrArg Ideal.tanh (add_comm _ _)

/-- The score before the reshape, at (b, s, 0): Σ_h tanh(proj b s h) · Wen[0,h]. -/
theorem score_apply (x0 : (⟨S32x1x1024, .f32⟩ : BufTy).Contents (Elt Ideal)) (x1 : (⟨S32x2048x2048, .f32⟩ : BufTy).Contents (Elt Ideal)) (x3 : (⟨S1024x2048, .f32⟩ : BufTy).Contents (Elt Ideal)) (x4 : (⟨S1024x1024, .f32⟩ : BufTy).Contents (Elt Ideal)) (x5 : (⟨S1x1024, .f32⟩ : BufTy).Contents (Elt Ideal)) (b : Fin 32) (s : Fin 2048) :
    val_main_v5 (F := Ideal) x0 x1 x3 x4 x5 (ix3 b s (0 : Fin 1)) = Cert.Attn.score x0 x1 x3 x4 x5 b s := by
  rw [val_main_v5_apply]
  unfold Cert.Attn.score
  refine Finset.sum_congr rfl fun k _ => ?_
  have el : lidx_main_v5 (ix3 b s (0 : Fin 1)) k = ix3 b s k :=
    funext fun a => by match a with | ⟨0, _⟩ => rfl | ⟨1, _⟩ => rfl | ⟨2, _⟩ => rfl
  have er : ridx_main_v5 (ix3 b s (0 : Fin 1)) k = ix2 (0 : Fin 1) k :=
    funext fun a => by match a with | ⟨0, _⟩ => rfl | ⟨1, _⟩ => rfl
  rw [el, er, hidden_apply]

/-- The reshape [32,2048,1] → [32,2048] keeps the score: the flat position b·2048 + s is (b, s, 0) again. -/
theorem scoreFlat_apply (x0 : (⟨S32x1x1024, .f32⟩ : BufTy).Contents (Elt Ideal)) (x1 : (⟨S32x2048x2048, .f32⟩ : BufTy).Contents (Elt Ideal)) (x3 : (⟨S1024x2048, .f32⟩ : BufTy).Contents (Elt Ideal)) (x4 : (⟨S1024x1024, .f32⟩ : BufTy).Contents (Elt Ideal)) (x5 : (⟨S1x1024, .f32⟩ : BufTy).Contents (Elt Ideal)) (b : Fin 32) (s : Fin 2048) :
    val_main_v6 (F := Ideal) x0 x1 x3 x4 x5 (ix2 b s) = Cert.Attn.score x0 x1 x3 x4 x5 b s := by
  have hb : b.val < 32 := b.isLt
  have hs : s.val < 2048 := s.isLt
  have ei : idx_main_v6 (ix2 b s) = ix3 b s (0 : Fin 1) := funext fun a => Fin.ext (by
    match a with
    | ⟨0, _⟩ => show (b.val * 2048 + s.val) / 2048 = b.val; omega
    | ⟨1, _⟩ => show (b.val * 2048 + s.val) / 1 % 2048 = s.val; omega
    | ⟨2, _⟩ => rfl)
  rw [val_main_v6_apply, ei, score_apply]

/-- The mask at (b, s): the position s as a 32-bit word, compared (signed, less-than) with len[b]. -/
theorem mask_apply (x2 : (⟨S32, .i32⟩ : BufTy).Contents (Elt Ideal)) (b : Fin 32) (s : Fin 2048) :
    val_main_v12 (F := Ideal) x2 (ix2 b s) = Scalar.cmpi .slt (BitVec.ofNat 32 s.val) (x2 (ix1 b)) := by
  have e1 : idx_main_v9 (idx_main_v11 (ix2 b s)) = ix1 b :=
    funext fun a => by match a with | ⟨0, _⟩ => rfl
  rw [val_main_v12_apply, val_main_v10_apply, val_main_v8_apply, val_main_v7_apply, val_main_v11_apply, val_main_v9_apply, e1]
  rfl

/-- The fill value is the word 0xFF800000 everywhere, which denotes −∞. -/
theorem fill_apply (j : S32x2048.Idx) : val_main_call0_v1 (F := Ideal) j = (⊥ : EReal) := by
  rw [val_main_call0_v1_apply, val_main_call0_v0_apply, val_main_cst_apply, Ideal.ofBits_def]
  simp [Ideal.ofBits, Ideal.ieee]

/-- The pre-softmax operand at (b, o, s) is the specification's masked energy at (b, s). -/
theorem energy_apply (x0 : (⟨S32x1x1024, .f32⟩ : BufTy).Contents (Elt Ideal)) (x1 : (⟨S32x2048x2048, .f32⟩ : BufTy).Contents (Elt Ideal)) (x2 : (⟨S32, .i32⟩ : BufTy).Contents (Elt Ideal)) (x3 : (⟨S1024x2048, .f32⟩ : BufTy).Contents (Elt Ideal)) (x4 : (⟨S1024x1024, .f32⟩ : BufTy).Contents (Elt Ideal)) (x5 : (⟨S1x1024, .f32⟩ : BufTy).Contents (Elt Ideal)) (b : Fin 32) (o : Fin 1) (s : Fin 2048) :
    val_main_v14 (F := Ideal) x0 x1 x2 x3 x4 x5 (ix3 b o s) = Cert.Attn.energyAt x0 x1 x2 x3 x4 x5 b s := by
  have ei : idx_main_v14 (ix3 b o s) = ix2 b s :=
    funext fun a => by match a with | ⟨0, _⟩ => rfl | ⟨1, _⟩ => rfl
  rw [val_main_v14_apply, ei, val_main_v13_apply, mask_apply, scoreFlat_apply, fill_apply]
  rfl

/-- The pre-softmax operand is the specification's array of energies. -/
theorem presoftmax_eq (x0 : (⟨S32x1x1024, .f32⟩ : BufTy).Contents (Elt Ideal)) (x1 : (⟨S32x2048x2048, .f32⟩ : BufTy).Contents (Elt Ideal)) (x2 : (⟨S32, .i32⟩ : BufTy).Contents (Elt Ideal)) (x3 : (⟨S1024x2048, .f32⟩ : BufTy).Contents (Elt Ideal)) (x4 : (⟨S1024x1024, .f32⟩ : BufTy).Contents (Elt Ideal)) (x5 : (⟨S1x1024, .f32⟩ : BufTy).Contents (Elt Ideal)) :
    val_main_v14 (F := Ideal) x0 x1 x2 x3 x4 x5 = Cert.Attn.energies x0 x1 x2 x3 x4 x5 := by
  funext j
  obtain ⟨b, o, s, rfl⟩ : ∃ (b : Fin 32) (o : Fin 1) (s : Fin 2048), j = ix3 b o s := ⟨j 0, j 1, j 2, eq_ix3 j⟩
  rw [energy_apply, Cert.Attn.energies_ix3]

/-- The context stage at (b, o, e): Σ_s weight[b,0,s] · enc[b,s,e] (the middle axis has extent one). -/
theorem contextStage_apply (x0 : (⟨S32x1x1024, .f32⟩ : BufTy).Contents (Elt Ideal)) (x1 : (⟨S32x2048x2048, .f32⟩ : BufTy).Contents (Elt Ideal)) (x2 : (⟨S32, .i32⟩ : BufTy).Contents (Elt Ideal)) (x3 : (⟨S1024x2048, .f32⟩ : BufTy).Contents (Elt Ideal)) (x4 : (⟨S1024x1024, .f32⟩ : BufTy).Contents (Elt Ideal)) (x5 : (⟨S1x1024, .f32⟩ : BufTy).Contents (Elt Ideal)) (b : Fin 32) (o : Fin 1) (e : Fin 2048) :
    val_main_v26 (F := Ideal) x0 x1 x2 x3 x4 x5 (ix3 b o e)
      = ∑ s : Fin 2048, val_main_v25 (F := Ideal) x0 x1 x2 x3 x4 x5 (ix3 b (0 : Fin 1) s) * x1 (ix3 b s e) := by
  have ho : o.val < 1 := o.isLt
  rw [val_main_v26_apply]
  refine Finset.sum_congr rfl fun k _ => ?_
  have el : lidx_main_v26 (ix3 b o e) k = ix3 b (0 : Fin 1) k := funext fun a => Fin.ext (by
    match a with
    | ⟨0, _⟩ => rfl
    | ⟨1, _⟩ => show o.val = 0; omega
    | ⟨2, _⟩ => rfl)
  have er : ridx_main_v26 (ix3 b o e) k = ix3 b k e :=
    funext fun a => by match a with | ⟨0, _⟩ => rfl | ⟨1, _⟩ => rfl | ⟨2, _⟩ => rfl
  rw [el, er]

/-- The reference's attention weights are the softmax of the specification's energies. -/
theorem ref_alphas (m : (ℓ : Loc nD τ sig) → Buf (Elt Ideal) ℓ) (c : Dev nD) :
    Cert.ReferenceIdeal.Value.res_main_v25 (F := Ideal) m c
      = softmaxR (Cert.Attn.energies (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) := by
  rw [val_main_v25_eq, weights_eq_softmaxR, presoftmax_eq]

/-- The reference's context is the specification's context of those weights against the encoder states. -/
theorem ref_context (m : (ℓ : Loc nD τ sig) → Buf (Elt Ideal) ℓ) (c : Dev nD) :
    Cert.ReferenceIdeal.Value.res_main_v26 (F := Ideal) m c
      = Cert.Attn.context (softmaxR (Cert.Attn.energies (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))) (m ((c.tc : Thread nD τ).loc main_arg1)) := by
  rw [val_main_v26_eq]
  funext j
  obtain ⟨b, o, e, rfl⟩ : ∃ (b : Fin 32) (o : Fin 1) (e : Fin 2048), j = ix3 b o e := ⟨j 0, j 1, j 2, eq_ix3 j⟩
  rw [contextStage_apply, weights_eq_softmaxR, presoftmax_eq, Cert.Attn.context_ix3]
  rfl

end Cert.ReferenceIdeal.RefValue

end
-- ==== Proof.lean ====
/-
  Bahdanau additive attention, two Pallas kernels against one jnp reference, over the extended reals.

  For decoder state dec[b,0,·], encoder states enc[b,s,·] and source lengths len[b] both programs compute
    energy[b,s]  = Σ_h tanh( Σ_e enc[b,s,e]·Wenc[h,e] + Σ_d dec[b,0,d]·Wdec[h,d] ) · Wen[0,h]   if s < len[b], else −∞,
    alpha[b,0,·] = softmax of energy[b,·] along s,
    context[b,0,e] = Σ_s alpha[b,0,s] · enc[b,s,e].
  The kernel program computes the energies block by block (512 source positions at a time) in its first
  pallas_call, with the weights transposed beforehand and a finite fill constant that the idealization names −∞;
  applies the softmax as host operations; and accumulates the context over the four source blocks of a row in
  its second pallas_call.  The reference computes the same three stages as whole-array operations.  At the ideal
  instance a change of float format is the identity, so the two differ only in the order of a commutative sum
  (decoder + encoder against encoder + decoder) and in the grouping of the context's sum over s into four blocks.

  Frames: the kernel program's run (both instances) goes through the launch of a program of two kernel regions
  among host operations; the reference's is its run as host operations.  The one ledger entry of the ideal pass is
  the named fill constant.
-/
import proofs.«414879_j37280316129367_1_alg».proof.Defs
import proofs.«414879_j37280316129367_1_alg».proof.Proof.Gen.Kernel
import proofs.«414879_j37280316129367_1_alg».proof.Proof.Gen.KernelIdeal
import proofs.«414879_j37280316129367_1_alg».proof.Proof.Gen.ReferenceIdeal
import proofs.«414879_j37280316129367_1_alg».proof.Proof.Gen.ReferenceIdeal.Run
import proofs.«414879_j37280316129367_1_alg».proof.Proof.Gen.ReferenceIdeal.Read
import proofs.«414879_j37280316129367_1_alg».proof.Proof.Gen.Pre_finite_inputs
import proofs.«414879_j37280316129367_1_alg».proof.Proof.KRun
import proofs.«414879_j37280316129367_1_alg».proof.Proof.KIValue
import proofs.«414879_j37280316129367_1_alg».proof.Proof.RefValue
import Idealize.ShloMosaic.PureOps.IdealRules

noncomputable section

namespace Cert.Proof

open Idealize.ShloMosaic Idealize.ShloMosaic.TcCoe Idealize.SL.Sem

/-- The word-level program runs and leaves its arguments as launched. -/
theorem frame_k : Cert.frame_Kernel := fun m ρ _ => Cert.Kernel.Hand.frame m ρ

/-- So does the idealized program. -/
theorem frame_ki : Cert.frame_KernelIdeal := fun m ρ _ => Cert.KernelIdeal.Hand.frame m ρ

/-- The reference is host operations only: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The one rewrite of the ideal pass: the finite fill constant is named, and its name denotes −∞. -/
theorem preserves : Cert.preserves_Kernel_KernelIdeal :=
  IdealRules.named_const.statement Cert.KernelIdeal.κ "neg_big" .f32 0xFF333332#32 ⊥ rfl

/-- The two programs' softmax chains are the same operations on the same shapes. -/
theorem softmax_eq (x : Cert.Attn.SOut.Idx → EReal) :
    Cert.KernelIdeal.HandValue.softmaxK x = Cert.ReferenceIdeal.RefValue.softmaxR x := rfl

/-- From memories agreeing on the arguments both programs end with the softmax of the masked energies as the
    attention weights and with those weights' context against the encoder states. -/
theorem algebraic : Cert.algebraic_KernelIdeal_ReferenceIdeal := by
  intro m ρ m' ρ' _ hagree
  refine ⟨fun c => Cert.Attn.context (Cert.KernelIdeal.HandValue.softmaxK (Cert.Attn.energies (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)))) (m ((c.tc : Thread Cert.KernelIdeal.nD Cert.KernelIdeal.τ).loc Cert.KernelIdeal.main_arg1)),
    fun c => Cert.KernelIdeal.HandValue.softmaxK (Cert.Attn.energies (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))), ?_, ?_⟩
  · refine (θ_run Cert.KernelIdeal.defs _ _).mono (fun r h c => ?_) (Cert.KernelIdeal.Hand.run (F := Ideal) m ρ)
    exact ⟨(h c _ (Cert.KernelIdeal.Hand.mem_uc Cert.KernelIdeal.main_v18 (by decide))).trans (Cert.KernelIdeal.HandValue.kernel_context m c),
      (h c _ (Cert.KernelIdeal.Hand.mem_uc Cert.KernelIdeal.main_v17 (by decide))).trans (Cert.KernelIdeal.HandValue.kernel_alphas m c),
      (h c _ (Cert.KernelIdeal.Hand.mem_uc Cert.KernelIdeal.main_arg0 (by decide))).trans (Cert.KernelIdeal.Hand.W4_main_arg0 m c),
      (h c _ (Cert.KernelIdeal.Hand.mem_uc Cert.KernelIdeal.main_arg1 (by decide))).trans (Cert.KernelIdeal.Hand.W4_main_arg1 m c),
      (h c _ (Cert.KernelIdeal.Hand.mem_uc Cert.KernelIdeal.main_arg2 (by decide))).trans (Cert.KernelIdeal.Hand.W4_main_arg2 m c),
      (h c _ (Cert.KernelIdeal.Hand.mem_uc Cert.KernelIdeal.main_arg3 (by decide))).trans (Cert.KernelIdeal.Hand.W4_main_arg3 m c),
      (h c _ (Cert.KernelIdeal.Hand.mem_uc Cert.KernelIdeal.main_arg4 (by decide))).trans (Cert.KernelIdeal.Hand.W4_main_arg4 m c),
      (h c _ (Cert.KernelIdeal.Hand.mem_uc Cert.KernelIdeal.main_arg5 (by decide))).trans (Cert.KernelIdeal.Hand.W4_main_arg5 m c)⟩
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.RefValue.ref_context, (hagree c).1, (hagree c).2.1, (hagree c).2.2.1, (hagree c).2.2.2.1, (hagree c).2.2.2.2.1, (hagree c).2.2.2.2.2]
      rfl
    · rw [Cert.ReferenceIdeal.RefValue.ref_alphas, (hagree c).1, (hagree c).2.1, (hagree c).2.2.1, (hagree c).2.2.2.1, (hagree c).2.2.2.2.1, (hagree c).2.2.2.2.2]
      rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
